-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x128x128 : Shape := ⟨4, ![8, 64, 128, 128]⟩
abbrev S_ : Shape := ⟨0, ![]⟩

class Facts : Prop where
  bcast_S_S8x64x128x128 : S_.BroadcastsInDim S8x64x128x128 (![] : Fin 0 → Fin S8x64x128x128.rank)
  reducesTo_S8x64x128x128_S_d0_1_2_3 : S8x64x128x128.ReducesTo [0, 1, 2, 3] S_
  h_S_ : 0 < S_.numel

variable [Facts]

def fn {F : FTy → Type} [FloatOps F] (main_arg0 : FVec F S8x64x128x128 .f32) : IVec S_ 1 :=
  let main_v0 : FVec F S8x64x128x128 .f32 := Host.absf main_arg0
  let main_cst : FVec F S_ .f32 := constant S_ .f32 0x7F800000#32
  let main_v1 : FVec F S8x64x128x128 .f32 := broadcastInDim S8x64x128x128 ![] bcast_S_S8x64x128x128 main_cst
  let main_v2 : IVec S8x64x128x128 1 := cmpf .olt main_v0 main_v1
  let main_c : IVec S_ 1 := constantI S_ 1 1#1
  let main_v3 : IVec S_ 1 := (fun x v => Host.reduce IntOp.andi x v reducesTo_S8x64x128x128_S_d0_1_2_3 h_S_) main_v2 main_c
  main_v3
-- ==== Kernel.lean ====
abbrev S8x64x128x128 : Shape := ⟨4, ![8, 64, 128, 128]⟩
abbrev S_ : Shape := ⟨0, ![]⟩
abbrev S8x64x130x130 : Shape := ⟨4, ![8, 64, 130, 130]⟩
abbrev S8x64x128x128x1 : Shape := ⟨5, ![8, 64, 128, 128, 1]⟩
abbrev S8x64x128x128x3 : Shape := ⟨5, ![8, 64, 128, 128, 3]⟩
abbrev S8x64x128x128x1x3 : Shape := ⟨6, ![8, 64, 128, 128, 1, 3]⟩
abbrev S8x64x128x128x3x3 : Shape := ⟨6, ![8, 64, 128, 128, 3, 3]⟩
abbrev S8x16384x3x3x64 : Shape := ⟨5, ![8, 16384, 3, 3, 64]⟩
abbrev S8x16384x64x3x3 : Shape := ⟨5, ![8, 16384, 64, 3, 3]⟩
abbrev S8x128x128x64 : Shape := ⟨4, ![8, 128, 128, 64]⟩
abbrev S8x16384x64 : Shape := ⟨3, ![8, 16384, 64]⟩
abbrev S8x16384x9x64 : Shape := ⟨4, ![8, 16384, 9, 64]⟩
abbrev S8x16384x64x9 : Shape := ⟨4, ![8, 16384, 64, 9]⟩
abbrev S8x16384x9 : Shape := ⟨3, ![8, 16384, 9]⟩
abbrev S1x1024x9x64 : Shape := ⟨4, ![1, 1024, 9, 64]⟩
abbrev S1x1024x64 : Shape := ⟨3, ![1, 1024, 64]⟩
abbrev S1x1024x9 : Shape := ⟨3, ![1, 1024, 9]⟩
abbrev S1x1024x1x64 : Shape := ⟨4, ![1, 1024, 1, 64]⟩
abbrev S8x9 : Shape := ⟨2, ![8, 9]⟩
abbrev S8x1x9 : Shape := ⟨3, ![8, 1, 9]⟩
abbrev S8x16384 : Shape := ⟨2, ![8, 16384]⟩
abbrev S8x16384x1 : Shape := ⟨3, ![8, 16384, 1]⟩
abbrev S1x512x64x9 : Shape := ⟨4, ![1, 512, 64, 9]⟩
abbrev S1x512x1 : Shape := ⟨3, ![1, 512, 1]⟩
abbrev S1x512x64 : Shape := ⟨3, ![1, 512, 64]⟩

abbrev nBuf : Space → Nat
  | .hbm => 55
  | .vmem => 12
  | .smem => 0
  | _ => 0

abbrev bufTy : (tb : Table) → Fin (tcTables nBuf tb) → BufTy
  | .hbm, ⟨0, _⟩ => ⟨S8x64x128x128, .f32⟩
  | .hbm, ⟨1, _⟩ => ⟨S_, .i32⟩
  | .hbm, ⟨2, _⟩ => ⟨S_, .f32⟩
  | .hbm, ⟨3, _⟩ => ⟨S8x64x130x130, .f32⟩
  | .hbm, ⟨4, _⟩ => ⟨S8x64x128x128, .f32⟩
  | .hbm, ⟨5, _⟩ => ⟨S8x64x128x128, .f32⟩
  | .hbm, ⟨6, _⟩ => ⟨S8x64x128x128, .f32⟩
  | .hbm, ⟨7, _⟩ => ⟨S8x64x128x128x1, .f32⟩
  | .hbm, ⟨8, _⟩ => ⟨S8x64x128x128x1, .f32⟩
  | .hbm, ⟨9, _⟩ => ⟨S8x64x128x128x1, .f32⟩
  | .hbm, ⟨10, _⟩ => ⟨S8x64x128x128x3, .f32⟩
  | .hbm, ⟨11, _⟩ => ⟨S8x64x128x128, .f32⟩
  | .hbm, ⟨12, _⟩ => ⟨S8x64x128x128, .f32⟩
  | .hbm, ⟨13, _⟩ => ⟨S8x64x128x128, .f32⟩
  | .hbm, ⟨14, _⟩ => ⟨S8x64x128x128x1, .f32⟩
  | .hbm, ⟨15, _⟩ => ⟨S8x64x128x128x1, .f32⟩
  | .hbm, ⟨16, _⟩ => ⟨S8x64x128x128x1, .f32⟩
  | .hbm, ⟨17, _⟩ => ⟨S8x64x128x128x3, .f32⟩
  | .hbm, ⟨18, _⟩ => ⟨S8x64x128x128, .f32⟩
  | .hbm, ⟨19, _⟩ => ⟨S8x64x128x128, .f32⟩
  | .hbm, ⟨20, _⟩ => ⟨S8x64x128x128, .f32⟩
  | .hbm, ⟨21, _⟩ => ⟨S8x64x128x128x1, .f32⟩
  | .hbm, ⟨22, _⟩ => ⟨S8x64x128x128x1, .f32⟩
  | .hbm, ⟨23, _⟩ => ⟨S8x64x128x128x1, .f32⟩
  | .hbm, ⟨24, _⟩ => ⟨S8x64x128x128x3, .f32⟩
  | .hbm, ⟨25, _⟩ => ⟨S8x64x128x128x1x3, .f32⟩
  | .hbm, ⟨26, _⟩ => ⟨S8x64x128x128x1x3, .f32⟩
  | .hbm, ⟨27, _⟩ => ⟨S8x64x128x128x1x3, .f32⟩
  | .hbm, ⟨28, _⟩ => ⟨S8x64x128x128x3x3, .f32⟩
  | .hbm, ⟨29, _⟩ => ⟨S8x16384x3x3x64, .f32⟩
  | .hbm, ⟨30, _⟩ => ⟨S8x16384x64x3x3, .f32⟩
  | .hbm, ⟨31, _⟩ => ⟨S8x128x128x64, .f32⟩
  | .hbm, ⟨32, _⟩ => ⟨S8x16384x64, .f32⟩
  | .hbm, ⟨33, _⟩ => ⟨S8x16384x9x64, .f32⟩
  | .hbm, ⟨34, _⟩ => ⟨S8x16384x64x9, .f32⟩
  | .hbm, ⟨35, _⟩ => ⟨S8x16384x9, .f32⟩
  | .hbm, ⟨36, _⟩ => ⟨S_, .f32⟩
  | .hbm, ⟨37, _⟩ => ⟨S8x9, .f32⟩
  | .hbm, ⟨38, _⟩ => ⟨S_, .f32⟩
  | .hbm, ⟨39, _⟩ => ⟨S8x9, .f32⟩
  | .hbm, ⟨40, _⟩ => ⟨S8x9, .f32⟩
  | .hbm, ⟨41, _⟩ => ⟨S8x1x9, .f32⟩
  | .hbm, ⟨42, _⟩ => ⟨S8x16384x9, .f32⟩
  | .hbm, ⟨43, _⟩ => ⟨S8x16384x9, .f32⟩
  | .hbm, ⟨44, _⟩ => ⟨S8x16384x9, .f32⟩
  | .hbm, ⟨45, _⟩ => ⟨S_, .f32⟩
  | .hbm, ⟨46, _⟩ => ⟨S8x9, .f32⟩
  | .hbm, ⟨47, _⟩ => ⟨S8x1x9, .f32⟩
  | .hbm, ⟨48, _⟩ => ⟨S8x16384x9, .f32⟩
  | .hbm, ⟨49, _⟩ => ⟨S8x16384x9, .f32⟩
  | .hbm, ⟨50, _⟩ => ⟨S_, .f32⟩
  | .hbm, ⟨51, _⟩ => ⟨S8x16384, .f32⟩
  | .hbm, ⟨52, _⟩ => ⟨S8x16384x1, .f32⟩
  | .hbm, ⟨53, _⟩ => ⟨S8x16384x64, .f32⟩
  | .hbm, ⟨54, _⟩ => ⟨S8x64x128x128, .f32⟩
  | .local _ .vmem, ⟨0, _⟩ => ⟨S1x1024x9x64, .f32⟩
  | .local _ .vmem, ⟨1, _⟩ => ⟨S1x1024x9x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x9, .f32⟩
  | .local _ .vmem, ⟨5, _⟩ => ⟨S1x1024x9, .f32⟩
  | .local _ .vmem, ⟨6, _⟩ => ⟨S1x512x64x9, .f32⟩
  | .local _ .vmem, ⟨7, _⟩ => ⟨S1x512x64x9, .f32⟩
  | .local _ .vmem, ⟨8, _⟩ => ⟨S1x512x1, .f32⟩
  | .local _ .vmem, ⟨9, _⟩ => ⟨S1x512x1, .f32⟩
  | .local _ .vmem, ⟨10, _⟩ => ⟨S1x512x64, .f32⟩
  | .local _ .vmem, ⟨11, _⟩ => ⟨S1x512x64, .f32⟩
  | _, _ => ⟨S8x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst : Ref sig .tc := ⟨.hbm, 36, rfl⟩
abbrev main_v33 : Ref sig .tc := ⟨.hbm, 37, rfl⟩
abbrev main_cst_0 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_1 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_2 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x9x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 32], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  pads_S8x64x128x128_S8x64x130x130_000_000_110_110 : S8x64x128x128.Pads (![0, 0, 1, 1] : Fin 4 → Nat) ![0, 0, 1, 1] ![0, 0, 0, 0] S8x64x130x130
  h_S_ : 0 < S_.numel
  slices_S8x64x130x130_S8x64x128x128_0_0_0_0 : S8x64x130x130.Slices ![0, 0, 0, 0] S8x64x128x128
  slices_S8x64x130x130_S8x64x128x128_0_0_0_1 : S8x64x130x130.Slices ![0, 0, 0, 1] S8x64x128x128
  slices_S8x64x130x130_S8x64x128x128_0_0_0_2 : S8x64x130x130.Slices ![0, 0, 0, 2] S8x64x128x128
  bcast_S8x64x128x128_S8x64x128x128x1_0_1_2_3 : S8x64x128x128.BroadcastsInDim S8x64x128x128x1 (![0, 1, 2, 3] : Fin 4 → Fin S8x64x128x128x1.rank)
  concatenates_S8x64x128x128x1_S8x64x128x128x1_S8x64x128x128x1_S8x64x128x128x3_d4 : Shape.Concatenates [S8x64x128x128x1, S8x64x128x128x1, S8x64x128x128x1] S8x64x128x128x3 4
  slices_S8x64x130x130_S8x64x128x128_0_0_1_0 : S8x64x130x130.Slices ![0, 0, 1, 0] S8x64x128x128
  slices_S8x64x130x130_S8x64x128x128_0_0_1_1 : S8x64x130x130.Slices ![0, 0, 1, 1] S8x64x128x128
  slices_S8x64x130x130_S8x64x128x128_0_0_1_2 : S8x64x130x130.Slices ![0, 0, 1, 2] S8x64x128x128
  slices_S8x64x130x130_S8x64x128x128_0_0_2_0 : S8x64x130x130.Slices ![0, 0, 2, 0] S8x64x128x128
  slices_S8x64x130x130_S8x64x128x128_0_0_2_1 : S8x64x130x130.Slices ![0, 0, 2, 1] S8x64x128x128
  slices_S8x64x130x130_S8x64x128x128_0_0_2_2 : S8x64x130x130.Slices ![0, 0, 2, 2] S8x64x128x128
  bcast_S8x64x128x128x3_S8x64x128x128x1x3_0_1_2_3_5 : S8x64x128x128x3.BroadcastsInDim S8x64x128x128x1x3 (![0, 1, 2, 3, 5] : Fin 5 → Fin S8x64x128x128x1x3.rank)
  concatenates_S8x64x128x128x1x3_S8x64x128x128x1x3_S8x64x128x128x1x3_S8x64x128x128x3x3_d4 : Shape.Concatenates [S8x64x128x128x1x3, S8x64x128x128x1x3, S8x64x128x128x1x3] S8x64x128x128x3x3 4
  shapeCasts_S8x64x128x128x3x3_S8x16384x3x3x64 : S8x64x128x128x3x3.ShapeCasts S8x16384x3x3x64
  shapeCasts_S8x64x128x128x3x3_S8x16384x64x3x3 : S8x64x128x128x3x3.ShapeCasts S8x16384x64x3x3
  transposes_S8x64x128x128_S8x128x128x64_0_2_3_1 : S8x64x128x128.Transposes [0, 2, 3, 1] S8x128x128x64
  shapeCasts_S8x128x128x64_S8x16384x64 : S8x128x128x64.ShapeCasts S8x16384x64
  shapeCasts_S8x16384x3x3x64_S8x16384x9x64 : S8x16384x3x3x64.ShapeCasts S8x16384x9x64
  shapeCasts_S8x16384x64x3x3_S8x16384x64x9 : S8x16384x64x3x3.ShapeCasts S8x16384x64x9
  inb_S1x1024x9x64_S1x1024x9x64_0_0_0_0 : ∀ a, (![0, 0, 0, 0] : Fin 4 → Nat) a + S1x1024x9x64.size a ≤ S1x1024x9x64.size a
  h_S1x1024x9x64 : 0 < S1x1024x9x64.numel
  shapeCasts_S1x1024x9x64_S1x1024x9x64 : S1x1024x9x64.ShapeCasts S1x1024x9x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1x1024x64 : S1x1024x64.ShapeCasts S1x1024x64
  shapeCasts_S1x1024x64_S1x1024x1x64 : S1x1024x64.ShapeCasts S1x1024x1x64
  shapeCasts_S1x1024x1x64_S1x1024x1x64 : S1x1024x1x64.ShapeCasts S1x1024x1x64
  broadcasts_S1x1024x1x64_S1x1024x9x64 : S1x1024x1x64.Broadcasts S1x1024x9x64
  reduces_S1x1024x9x64_S1x1024x9 : S1x1024x9x64.Reduces [3] S1x1024x9
  inb_S1x1024x9_S1x1024x9_0_0_0 : ∀ a, (![0, 0, 0] : Fin 3 → Nat) a + S1x1024x9.size a ≤ S1x1024x9.size a
  h_S1x1024x9 : 0 < S1x1024x9.numel
  reducesTo_S8x16384x9_S8x9_d1 : S8x16384x9.ReducesTo [1] S8x9
  bcast_S_S8x9 : S_.BroadcastsInDim S8x9 (![] : Fin 0 → Fin S8x9.rank)
  bcast_S8x9_S8x1x9_0_2 : S8x9.BroadcastsInDim S8x1x9 (![0, 2] : Fin 2 → Fin S8x1x9.rank)
  bcast_S8x1x9_S8x16384x9_0_1_2 : S8x1x9.BroadcastsInDim S8x16384x9 (![0, 1, 2] : Fin 3 → Fin S8x16384x9.rank)
  reducesTo_S8x16384x9_S8x16384_d2 : S8x16384x9.ReducesTo [2] S8x16384
  bcast_S8x16384_S8x16384x1_0_1 : S8x16384.BroadcastsInDim S8x16384x1 (![0, 1] : Fin 2 → Fin S8x16384x1.rank)
  inb_S1x512x64x9_S1x512x64x9_0_0_0_0 : ∀ a, (![0, 0, 0, 0] : Fin 4 → Nat) a + S1x512x64x9.size a ≤ S1x512x64x9.size a
  h_S1x512x64x9 : 0 < S1x512x64x9.numel
  shapeCasts_S1x512x64x9_S1x512x64x9 : S1x512x64x9.ShapeCasts S1x512x64x9
  reduces_S1x512x64x9_S1x512x64 : S1x512x64x9.Reduces [3] S1x512x64
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  broadcasts_S1x512x1_S1x512x64 : S1x512x1.Broadcasts S1x512x64
  inb_S1x512x64_S1x512x64_0_0_0 : ∀ a, (![0, 0, 0] : Fin 3 → Nat) a + S1x512x64.size a ≤ S1x512x64.size a
  h_S1x512x64 : 0 < S1x512x64.numel
  shapeCasts_S8x16384x64_S8x64x128x128 : S8x16384x64.ShapeCasts S8x64x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x9x64.size a ≤ S8x16384x9x64.size a
  hwx0_0 : ∀ i : grid0.Coords, EltTy.bits .f32 = 32 ∨ (Rect.block (s := S8x16384x9x64) S1x1024x9x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S8x16384x64.size a
  hwx0_1 : ∀ i : grid0.Coords, EltTy.bits .f32 = 32 ∨ (Rect.block (s := S8x16384x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x9.size a ≤ S8x16384x9.size a
  hwx0_2 : ∀ i : grid0.Coords, EltTy.bits .f32 = 32 ∨ (Rect.block (s := S8x16384x9) S1x1024x9.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64x9.size a ≤ S8x16384x64x9.size a
  hwx1_0 : ∀ i : grid1.Coords, EltTy.bits .f32 = 32 ∨ (Rect.block (s := S8x16384x64x9) S1x512x64x9.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1.size a ≤ S8x16384x1.size a
  hwx1_1 : ∀ i : grid1.Coords, EltTy.bits .f32 = 32 ∨ (Rect.block (s := S8x16384x1) S1x512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S8x16384x64.size a
  hwx1_2 : ∀ i : grid1.Coords, EltTy.bits .f32 = 32 ∨ (Rect.block (s := S8x16384x64) S1x512x64.size (cc1_transform_2 i) (hinb1_2 i)).WholeWords (EltTy.packing .f32)

variable [Facts₀]

abbrev win0_0 : Pipeline.Window sig grid0 :=
  Pipeline.Window.ofSpec (Memref.whole main_v30) S1x1024x9x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x1024x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S1x512x64x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x512x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x64x128x128 : Shape := ⟨4, ![8, 64, 128, 128]⟩
abbrev S_ : Shape := ⟨0, ![]⟩
abbrev S8x64x130x130 : Shape := ⟨4, ![8, 64, 130, 130]⟩
abbrev S8x64x128x128x1 : Shape := ⟨5, ![8, 64, 128, 128, 1]⟩
abbrev S8x64x128x128x3 : Shape := ⟨5, ![8, 64, 128, 128, 3]⟩
abbrev S8x64x128x128x1x3 : Shape := ⟨6, ![8, 64, 128, 128, 1, 3]⟩
abbrev S8x64x128x128x3x3 : Shape := ⟨6, ![8, 64, 128, 128, 3, 3]⟩
abbrev S8x16384x3x3x64 : Shape := ⟨5, ![8, 16384, 3, 3, 64]⟩
abbrev S8x16384x64x3x3 : Shape := ⟨5, ![8, 16384, 64, 3, 3]⟩
abbrev S8x128x128x64 : Shape := ⟨4, ![8, 128, 128, 64]⟩
abbrev S8x16384x1x1x64 : Shape := ⟨5, ![8, 16384, 1, 1, 64]⟩
abbrev S8x16384x3x3 : Shape := ⟨4, ![8, 16384, 3, 3]⟩
abbrev S8x3x3 : Shape := ⟨3, ![8, 3, 3]⟩
abbrev S8x1x3x3 : Shape := ⟨4, ![8, 1, 3, 3]⟩
abbrev S8x16384 : Shape := ⟨2, ![8, 16384]⟩
abbrev S8x16384x1 : Shape := ⟨3, ![8, 16384, 1]⟩
abbrev S8x16384x64 : Shape := ⟨3, ![8, 16384, 64]⟩

abbrev nBuf : Space → Nat
  | .hbm => 59
  | .vmem => 0
  | .smem => 0
  | _ => 0

abbrev bufTy : (tb : Table) → Fin (tcTables nBuf tb) → BufTy
  | .hbm, ⟨0, _⟩ => ⟨S8x64x128x128, .f32⟩
  | .hbm, ⟨1, _⟩ => ⟨S_, .i32⟩
  | .hbm, ⟨2, _⟩ => ⟨S_, .f32⟩
  | .hbm, ⟨3, _⟩ => ⟨S8x64x130x130, .f32⟩
  | .hbm, ⟨4, _⟩ => ⟨S8x64x128x128, .f32⟩
  | .hbm, ⟨5, _⟩ => ⟨S8x64x128x128, .f32⟩
  | .hbm, ⟨6, _⟩ => ⟨S8x64x128x128, .f32⟩
  | .hbm, ⟨7, _⟩ => ⟨S8x64x128x128x1, .f32⟩
  | .hbm, ⟨8, _⟩ => ⟨S8x64x128x128x1, .f32⟩
  | .hbm, ⟨9, _⟩ => ⟨S8x64x128x128x1, .f32⟩
  | .hbm, ⟨10, _⟩ => ⟨S8x64x128x128x3, .f32⟩
  | .hbm, ⟨11, _⟩ => ⟨S8x64x128x128, .f32⟩
  | .hbm, ⟨12, _⟩ => ⟨S8x64x128x128, .f32⟩
  | .hbm, ⟨13, _⟩ => ⟨S8x64x128x128, .f32⟩
  | .hbm, ⟨14, _⟩ => ⟨S8x64x128x128x1, .f32⟩
  | .hbm, ⟨15, _⟩ => ⟨S8x64x128x128x1, .f32⟩
  | .hbm, ⟨16, _⟩ => ⟨S8x64x128x128x1, .f32⟩
  | .hbm, ⟨17, _⟩ => ⟨S8x64x128x128x3, .f32⟩
  | .hbm, ⟨18, _⟩ => ⟨S8x64x128x128, .f32⟩
  | .hbm, ⟨19, _⟩ => ⟨S8x64x128x128, .f32⟩
  | .hbm, ⟨20, _⟩ => ⟨S8x64x128x128, .f32⟩
  | .hbm, ⟨21, _⟩ => ⟨S8x64x128x128x1, .f32⟩
  | .hbm, ⟨22, _⟩ => ⟨S8x64x128x128x1, .f32⟩
  | .hbm, ⟨23, _⟩ => ⟨S8x64x128x128x1, .f32⟩
  | .hbm, ⟨24, _⟩ => ⟨S8x64x128x128x3, .f32⟩
  | .hbm, ⟨25, _⟩ => ⟨S8x64x128x128x1x3, .f32⟩
  | .hbm, ⟨26, _⟩ => ⟨S8x64x128x128x1x3, .f32⟩
  | .hbm, ⟨27, _⟩ => ⟨S8x64x128x128x1x3, .f32⟩
  | .hbm, ⟨28, _⟩ => ⟨S8x64x128x128x3x3, .f32⟩
  | .hbm, ⟨29, _⟩ => ⟨S8x16384x3x3x64, .f32⟩
  | .hbm, ⟨30, _⟩ => ⟨S8x16384x64x3x3, .f32⟩
  | .hbm, ⟨31, _⟩ => ⟨S8x128x128x64, .f32⟩
  | .hbm, ⟨32, _⟩ => ⟨S8x16384x1x1x64, .f32⟩
  | .hbm, ⟨33, _⟩ => ⟨S8x16384x3x3x64, .f32⟩
  | .hbm, ⟨34, _⟩ => ⟨S8x16384x3x3x64, .f32⟩
  | .hbm, ⟨35, _⟩ => ⟨S_, .f32⟩
  | .hbm, ⟨36, _⟩ => ⟨S8x16384x3x3, .f32⟩
  | .hbm, ⟨37, _⟩ => ⟨S_, .f32⟩
  | .hbm, ⟨38, _⟩ => ⟨S8x3x3, .f32⟩
  | .hbm, ⟨39, _⟩ => ⟨S_, .f32⟩
  | .hbm, ⟨40, _⟩ => ⟨S8x3x3, .f32⟩
  | .hbm, ⟨41, _⟩ => ⟨S8x3x3, .f32⟩
  | .hbm, ⟨42, _⟩ => ⟨S8x1x3x3, .f32⟩
  | .hbm, ⟨43, _⟩ => ⟨S8x16384x3x3, .f32⟩
  | .hbm, ⟨44, _⟩ => ⟨S8x16384x3x3, .f32⟩
  | .hbm, ⟨45, _⟩ => ⟨S8x16384x3x3, .f32⟩
  | .hbm, ⟨46, _⟩ => ⟨S_, .f32⟩
  | .hbm, ⟨47, _⟩ => ⟨S8x3x3, .f32⟩
  | .hbm, ⟨48, _⟩ => ⟨S8x1x3x3, .f32⟩
  | .hbm, ⟨49, _⟩ => ⟨S8x16384x3x3, .f32⟩
  | .hbm, ⟨50, _⟩ => ⟨S8x16384x3x3, .f32⟩
  | .hbm, ⟨51, _⟩ => ⟨S_, .f32⟩
  | .hbm, ⟨52, _⟩ => ⟨S8x16384, .f32⟩
  | .hbm, ⟨53, _⟩ => ⟨S8x16384x1, .f32⟩
  | .hbm, ⟨54, _⟩ => ⟨S_, .f32⟩
  | .hbm, ⟨55, _⟩ => ⟨S8x16384x64, .f32⟩
  | .hbm, ⟨56, _⟩ => ⟨S8x16384x64, .f32⟩
  | .hbm, ⟨57, _⟩ => ⟨S8x16384x64, .f32⟩
  | .hbm, ⟨58, _⟩ => ⟨S8x64x128x128, .f32⟩
  | _, _ => ⟨S8x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_cst : Ref sig .tc := ⟨.hbm, 35, rfl⟩
abbrev main_v32 : Ref sig .tc := ⟨.hbm, 36, rfl⟩
abbrev main_cst_0 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]

class Facts₀ : Prop where
  pads_S8x64x128x128_S8x64x130x130_000_000_110_110 : S8x64x128x128.Pads (![0, 0, 1, 1] : Fin 4 → Nat) ![0, 0, 1, 1] ![0, 0, 0, 0] S8x64x130x130
  h_S_ : 0 < S_.numel
  slices_S8x64x130x130_S8x64x128x128_0_0_0_0 : S8x64x130x130.Slices ![0, 0, 0, 0] S8x64x128x128
  slices_S8x64x130x130_S8x64x128x128_0_0_0_1 : S8x64x130x130.Slices ![0, 0, 0, 1] S8x64x128x128
  slices_S8x64x130x130_S8x64x128x128_0_0_0_2 : S8x64x130x130.Slices ![0, 0, 0, 2] S8x64x128x128
  bcast_S8x64x128x128_S8x64x128x128x1_0_1_2_3 : S8x64x128x128.BroadcastsInDim S8x64x128x128x1 (![0, 1, 2, 3] : Fin 4 → Fin S8x64x128x128x1.rank)
  concatenates_S8x64x128x128x1_S8x64x128x128x1_S8x64x128x128x1_S8x64x128x128x3_d4 : Shape.Concatenates [S8x64x128x128x1, S8x64x128x128x1, S8x64x128x128x1] S8x64x128x128x3 4
  slices_S8x64x130x130_S8x64x128x128_0_0_1_0 : S8x64x130x130.Slices ![0, 0, 1, 0] S8x64x128x128
  slices_S8x64x130x130_S8x64x128x128_0_0_1_1 : S8x64x130x130.Slices ![0, 0, 1, 1] S8x64x128x128
  slices_S8x64x130x130_S8x64x128x128_0_0_1_2 : S8x64x130x130.Slices ![0, 0, 1, 2] S8x64x128x128
  slices_S8x64x130x130_S8x64x128x128_0_0_2_0 : S8x64x130x130.Slices ![0, 0, 2, 0] S8x64x128x128
  slices_S8x64x130x130_S8x64x128x128_0_0_2_1 : S8x64x130x130.Slices ![0, 0, 2, 1] S8x64x128x128
  slices_S8x64x130x130_S8x64x128x128_0_0_2_2 : S8x64x130x130.Slices ![0, 0, 2, 2] S8x64x128x128
  bcast_S8x64x128x128x3_S8x64x128x128x1x3_0_1_2_3_5 : S8x64x128x128x3.BroadcastsInDim S8x64x128x128x1x3 (![0, 1, 2, 3, 5] : Fin 5 → Fin S8x64x128x128x1x3.rank)
  concatenates_S8x64x128x128x1x3_S8x64x128x128x1x3_S8x64x128x128x1x3_S8x64x128x128x3x3_d4 : Shape.Concatenates [S8x64x128x128x1x3, S8x64x128x128x1x3, S8x64x128x128x1x3] S8x64x128x128x3x3 4
  shapeCasts_S8x64x128x128x3x3_S8x16384x3x3x64 : S8x64x128x128x3x3.ShapeCasts S8x16384x3x3x64
  shapeCasts_S8x64x128x128x3x3_S8x16384x64x3x3 : S8x64x128x128x3x3.ShapeCasts S8x16384x64x3x3
  transposes_S8x64x128x128_S8x128x128x64_0_2_3_1 : S8x64x128x128.Transposes [0, 2, 3, 1] S8x128x128x64
  shapeCasts_S8x128x128x64_S8x16384x1x1x64 : S8x128x128x64.ShapeCasts S8x16384x1x1x64
  bcast_S8x16384x1x1x64_S8x16384x3x3x64_0_1_2_3_4 : S8x16384x1x1x64.BroadcastsInDim S8x16384x3x3x64 (![0, 1, 2, 3, 4] : Fin 5 → Fin S8x16384x3x3x64.rank)
  reducesTo_S8x16384x3x3x64_S8x16384x3x3_d4 : S8x16384x3x3x64.ReducesTo [4] S8x16384x3x3
  reducesTo_S8x16384x3x3_S8x3x3_d1 : S8x16384x3x3.ReducesTo [1] S8x3x3
  bcast_S_S8x3x3 : S_.BroadcastsInDim S8x3x3 (![] : Fin 0 → Fin S8x3x3.rank)
  bcast_S8x3x3_S8x1x3x3_0_2_3 : S8x3x3.BroadcastsInDim S8x1x3x3 (![0, 2, 3] : Fin 3 → Fin S8x1x3x3.rank)
  bcast_S8x1x3x3_S8x16384x3x3_0_1_2_3 : S8x1x3x3.BroadcastsInDim S8x16384x3x3 (![0, 1, 2, 3] : Fin 4 → Fin S8x16384x3x3.rank)
  reducesTo_S8x16384x3x3_S8x16384_d2_3 : S8x16384x3x3.ReducesTo [2, 3] S8x16384
  bcast_S8x16384_S8x16384x1_0_1 : S8x16384.BroadcastsInDim S8x16384x1 (![0, 1] : Fin 2 → Fin S8x16384x1.rank)
  reducesTo_S8x16384x64x3x3_S8x16384x64_d3_4 : S8x16384x64x3x3.ReducesTo [3, 4] S8x16384x64
  bcast_S8x16384x1_S8x16384x64_0_1_2 : S8x16384x1.BroadcastsInDim S8x16384x64 (![0, 1, 2] : Fin 3 → Fin S8x16384x64.rank)
  shapeCasts_S8x16384x64_S8x64x128x128 : S8x16384x64.ShapeCasts S8x64x128x128

variable [Facts₀]

class Facts : Prop extends Facts₀ where

variable [Facts]
-- ==== Proof.K.Chan.lean ====
import proofs.«164703_j67808943669345_1_alg».proof.Proof.Gen.Kernel.Launch
import proofs.«164703_j67808943669345_1_alg».proof.Proof.Gen.Kernel.Skeleton
import proofs.«164703_j67808943669345_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The channel-sum region, one grid point at a time

The first region walks a grid of 8 × 16 points. At point `(i, j)` it is handed rows `1024·j … 1024·j + 1023` of batch
entry `i` of the neighbourhood array (a `[1, 1024, 9, 64]` block) and of the centre array (a `[1, 1024, 64]` block), and
leaves in its output block `[1, 1024, 9]` the sum over the 64 channels of neighbour plus centre. Nothing else is touched:
the two input blocks are read and left as they were, the output block is overwritten whole by one store.

Everything here is stated at ANY contents `V` of the core's buffers at the moment the region is entered, and at any float
instance. -/

set_option maxRecDepth 16384

noncomputable section

namespace Cert.Kernel.ChanSum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the region is handed -/

/-- Window `w`'s block at grid point `t`, cut out of the window's array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The neighbourhood window's staging buffer holds its block when the body starts, at every point: the window is fetched
    whole at every point and the body leaves it in place. -/
theorem nbr_before_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for the centre window. -/
theorem ctr_before_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## What the body reads and writes: three whole blocks -/

abbrev nbrRect : Rect S1x1024x9x64 := Rect.unit (s := S1x1024x9x64) ![0, 0, 0, 0] S1x1024x9x64.size inb_S1x1024x9x64_S1x1024x9x64_0_0_0_0
abbrev ctrRect : Rect S1x1024x64 := Rect.unit (s := S1x1024x64) ![0, 0, 0] S1x1024x64.size inb_S1x1024x64_S1x1024x64_0_0_0
abbrev outRect : Rect S1x1024x9 := Rect.unit (s := S1x1024x9) ![0, 0, 0] S1x1024x9.size inb_S1x1024x9_S1x1024x9_0_0_0

/-- The output block after the body, from the two input blocks: its single store, of the channel sums. -/
def outBlock (x0 : Vec F S1x1024x9x64 .f32) (x1 : Vec F S1x1024x64 .f32) : Vec F S1x1024x9 .f32 :=
  View.canon [⟨outRect, k0_pay1 (View.ld x0 nbrRect) (View.ld x1 ctrRect)⟩]

/-- That one store covers the output block. -/
theorem out_covered (p0 : Vec F S1x1024x9 .f32) (y : S1x1024x9.Idx) :
    ∃ pc ∈ ([⟨outRect, p0⟩] : List (View.Piece (Elt F) S1x1024x9 .f32)), y ∈ pc.1.set :=
  View.cover_of_tiled [⟨outRect, p0⟩] S1x1024x9.size (by rfl) y

/-! ## The body's triple -/

set_option maxHeartbeats 1000000 in
/-- The body on three whole staging buffers — the inputs holding `x0` and `x1`, the output holding anything — runs to its
    continuation with the inputs as they were and the output at `outBlock x0 x1`. -/
theorem body_triple (c : Dev nD) (E : Set ℕ) (i : grid0.Coords)
    (arg2 : Memref sig .tc .vmem S1x1024x9x64 .f32) (harg2 : arg2.IsWhole)
    (arg3 : Memref sig .tc .vmem S1x1024x64 .f32) (harg3 : arg3.IsWhole)
    (arg4 : Memref sig .tc .vmem S1x1024x9 .f32) (harg4 : arg4.IsWhole)
    (x0 : Vec F S1x1024x9x64 .f32) (x1 : Vec F S1x1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlock x0 x1)) -∗ K ⟨⟩))
      ⊢ wp frame (wpE (defs₀ (F := F)) Variants.none c none) E (cc0__kernel_channel_sum i arg2 harg2 arg3 harg3 arg4 harg4) K := by
  simp only [cc0__kernel_channel_sum_eq_skeleton]; unfold cc0__kernel_channel_sum_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_covered _)

/-! ## The region's proof data -/

/-- On core `c`: the arrays as the region finds them; after the body at point `t` each input's staging buffer still at its
    block and the output's at `outBlock` of the two; the invariant is the untouched rest; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outBlock (blk V c 0 t) (blk V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem dat_after_nbr (c : Dev nD) (t : Fin cfg0.N) : (dat V c).after 0 t = blk V c 0 t := by dsimp only [dat]
theorem dat_after_ctr (c : Dev nD) (t : Fin cfg0.N) : (dat V c).after 1 t = blk V c 1 t := by dsimp only [dat]
theorem dat_after_out (c : Dev nD) (t : Fin cfg0.N) : (dat V c).after 2 t = outBlock (blk V c 0 t) (blk V c 1 t) := by dsimp only [dat]

theorem nbr_before (c : Dev nD) (t : Fin cfg0.N) (d) : (dat V c).before 0 t d = blk V c 0 t :=
  nbr_before_of V (dat V c) (dat_A V c 0) (dat_after_nbr V c) t d
theorem ctr_before (c : Dev nD) (t : Fin cfg0.N) (d) : (dat V c).before 1 t d = blk V c 1 t :=
  ctr_before_of V (dat V c) (dat_A V c 1) (dat_after_ctr V c) t d

/-! ## The body obligation -/

/-- What the body is called with at point `t`: the invariant, the core's dues, and the three staging buffers. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- And what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' staging buffers hold their blocks, so the triple applies; the invariant and the
    dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [nbr_before, ctr_before]
  rw [show (dat V c).Φ t.succ = (dat V c).Φ t.castSucc from rfl,
    show (dat V c).owesAt () t.succ = (dat V c).owesAt () t.castSucc from rfl,
    dat_after_nbr, dat_after_ctr, dat_after_out]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact body_at V c t

end Cert.Kernel.ChanSum

end
-- ==== Proof.K.Win.lean ====
import proofs.«164703_j67808943669345_1_alg».proof.Proof.Gen.Kernel.Launch
import proofs.«164703_j67808943669345_1_alg».proof.Proof.Gen.Kernel.Skeleton
import proofs.«164703_j67808943669345_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The window-sum region, one grid point at a time

The second region walks a grid of 8 × 32 points. At point `(i, j)` it is handed rows `512·j … 512·j + 511` of batch entry
`i` of the neighbourhood array read channel-major (a `[1, 512, 64, 9]` block) and of the per-position weight sums (a
`[1, 512, 1]` block), and leaves in its output block `[1, 512, 64]` the sum over the nine window cells plus the position's
weight sum, the same for all 64 channels. The two input blocks are read and left as they were; the output block is
overwritten whole by one store.

Stated at ANY contents `V` of the core's buffers at the moment the region is entered, and at any float instance. -/

set_option maxRecDepth 16384

noncomputable section

namespace Cert.Kernel.WinSum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the region is handed -/

/-- Window `w`'s block at grid point `t`, cut out of the window's array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The channel-major neighbourhood window's staging buffer holds its block when the body starts, at every point. -/
theorem nbr_before_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for the weight-sum window. -/
theorem wsum_before_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## What the body reads and writes: three whole blocks -/

abbrev nbrRect : Rect S1x512x64x9 := Rect.unit (s := S1x512x64x9) ![0, 0, 0, 0] S1x512x64x9.size inb_S1x512x64x9_S1x512x64x9_0_0_0_0
abbrev wsumRect : Rect S1x512x1 := Rect.unit (s := S1x512x1) ![0, 0, 0] S1x512x1.size inb_S1x512x1_S1x512x1_0_0_0
abbrev outRect : Rect S1x512x64 := Rect.unit (s := S1x512x64) ![0, 0, 0] S1x512x64.size inb_S1x512x64_S1x512x64_0_0_0

/-- The output block after the body, from the two input blocks: its single store, of window sum plus weight sum. -/
def outBlock (x0 : Vec F S1x512x64x9 .f32) (x1 : Vec F S1x512x1 .f32) : Vec F S1x512x64 .f32 :=
  View.canon [⟨outRect, k1_pay1 (View.ld x0 nbrRect) (View.ld x1 wsumRect)⟩]

/-- That one store covers the output block. -/
theorem out_covered (p0 : Vec F S1x512x64 .f32) (y : S1x512x64.Idx) :
    ∃ pc ∈ ([⟨outRect, p0⟩] : List (View.Piece (Elt F) S1x512x64 .f32)), y ∈ pc.1.set :=
  View.cover_of_tiled [⟨outRect, p0⟩] S1x512x64.size (by rfl) y

/-! ## The body's triple -/

set_option maxHeartbeats 1000000 in
/-- The body on three whole staging buffers — the inputs holding `x0` and `x1`, the output holding anything — runs to its
    continuation with the inputs as they were and the output at `outBlock x0 x1`. -/
theorem body_triple (c : Dev nD) (E : Set ℕ) (i : grid1.Coords)
    (arg2 : Memref sig .tc .vmem S1x512x64x9 .f32) (harg2 : arg2.IsWhole)
    (arg3 : Memref sig .tc .vmem S1x512x1 .f32) (harg3 : arg3.IsWhole)
    (arg4 : Memref sig .tc .vmem S1x512x64 .f32) (harg4 : arg4.IsWhole)
    (x0 : Vec F S1x512x64x9 .f32) (x1 : Vec F S1x512x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlock x0 x1)) -∗ K ⟨⟩))
      ⊢ wp frame (wpE (defs₀ (F := F)) Variants.none c none) E (cc1__kernel_window_sum i arg2 harg2 arg3 harg3 arg4 harg4) K := by
  simp only [cc1__kernel_window_sum_eq_skeleton]; unfold cc1__kernel_window_sum_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_covered _)

/-! ## The region's proof data -/

/-- On core `c`: the arrays as the region finds them; after the body at point `t` each input's staging buffer still at its
    block and the output's at `outBlock` of the two; the invariant is the untouched rest; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlock (blk V c 0 t) (blk V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem dat_after_nbr (c : Dev nD) (t : Fin cfg1.N) : (dat V c).after 0 t = blk V c 0 t := by dsimp only [dat]
theorem dat_after_wsum (c : Dev nD) (t : Fin cfg1.N) : (dat V c).after 1 t = blk V c 1 t := by dsimp only [dat]
theorem dat_after_out (c : Dev nD) (t : Fin cfg1.N) : (dat V c).after 2 t = outBlock (blk V c 0 t) (blk V c 1 t) := by dsimp only [dat]

theorem nbr_before (c : Dev nD) (t : Fin cfg1.N) (d) : (dat V c).before 0 t d = blk V c 0 t :=
  nbr_before_of V (dat V c) (dat_A V c 0) (dat_after_nbr V c) t d
theorem wsum_before (c : Dev nD) (t : Fin cfg1.N) (d) : (dat V c).before 1 t d = blk V c 1 t :=
  wsum_before_of V (dat V c) (dat_A V c 1) (dat_after_wsum V c) t d

/-! ## The body obligation -/

/-- What the body is called with at point `t`: the invariant, the core's dues, and the three staging buffers. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- And what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' staging buffers hold their blocks, so the triple applies; the invariant and the
    dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [nbr_before, wsum_before]
  rw [show (dat V c).Φ t.succ = (dat V c).Φ t.castSucc from rfl,
    show (dat V c).owesAt () t.succ = (dat V c).owesAt () t.castSucc from rfl,
    dat_after_nbr, dat_after_wsum, dat_after_out]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact body_at V c t

end Cert.Kernel.WinSum

end
-- ==== Proof.K.Run.lean ====
import proofs.«164703_j67808943669345_1_alg».proof.Proof.K.Chan
import proofs.«164703_j67808943669345_1_alg».proof.Proof.K.Win
import proofs.«164703_j67808943669345_1_alg».proof.Proof.Gen.Kernel.Regions

/-! # The whole program: host operations, the channel-sum region, host operations, the window-sum region, a reshape

@main is seven stretches in a row. Between two stretches the core holds every unscoped buffer at known contents:
the launch memory; then what each stretch of host operations computes from what it found; and after a region, the
region's three arrays at what its write-backs leave (the two inputs as entered, the output block by block) and every
other buffer untouched. Beside the buffers ride the core's generator register and its empty list of dues.

The result: every weakly fair execution of @main terminates, faults nowhere, and ends with every unscoped buffer at the
last of these contents. The frame (the argument array ends as launched) is read off it, and so is the value of the
program's result. Stated at any float instance. -/

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- As the channel-sum region finds the buffers: the launch memory after the three leading stretches of host operations
    (the constant, the padding, the nine shifted copies stacked and reshaped, the transposed input). -/
abbrev atChan (c : Dev nD) : Valuation τ sig (Elt F) := V3 m c
/-- The same read at the core's own references. -/
abbrev atChanR : (c : Dev nD) → (b : Ref sig .tc) → Buf (Elt F) ((c : Thread nD τ).loc b) := fun c b => atChan m c b

/-- As the channel-sum region leaves them: its arrays at what its write-backs fold to, the rest as entered. -/
def pastChan (c : Dev nD) : Valuation τ sig (Elt F) :=
  Pipeline.withArrays spec0 c (atChan m c) fun w => (ChanSum.dat (atChanR m) c).arrAt w cfg0.N
theorem pastChan_arr (c : Dev nD) (w : Fin cfg0.W) :
    pastChan m c (Proc.devRef .tc (Pipeline.arrRef spec0 w)) = (ChanSum.dat (atChanR m) c).arrAt w cfg0.N := by
  unfold pastChan; exact Pipeline.withArrays_arr spec0 launch0.win.arr_inj c _ _ w
theorem pastChan_of_ne (c : Dev nD) (b : Ref sig .tc) (hb : ∀ w, Pipeline.arrRef spec0 w ≠ b) :
    pastChan m c (Proc.devRef .tc b) = atChan m c (Proc.devRef .tc b) := by
  unfold pastChan; exact Pipeline.withArrays_of_ne spec0 c _ _ b hb
abbrev pastChanR : (c : Dev nD) → (b : Ref sig .tc) → Buf (Elt F) ((c : Thread nD τ).loc b) := fun c b => pastChan m c b

/-- As the window-sum region finds them: after the softmax over the positions and the sum of its nine weights. -/
abbrev atWin (c : Dev nD) : Valuation τ sig (Elt F) := StableHlo.after hostOps1 (pastChan m c)
abbrev atWinR : (c : Dev nD) → (b : Ref sig .tc) → Buf (Elt F) ((c : Thread nD τ).loc b) := fun c b => atWin m c b

/-- As the window-sum region leaves them. -/
def pastWin (c : Dev nD) : Valuation τ sig (Elt F) :=
  Pipeline.withArrays spec1 c (atWin m c) fun w => (WinSum.dat (atWinR m) c).arrAt w cfg1.N
theorem pastWin_arr (c : Dev nD) (w : Fin cfg1.W) :
    pastWin m c (Proc.devRef .tc (Pipeline.arrRef spec1 w)) = (WinSum.dat (atWinR m) c).arrAt w cfg1.N := by
  unfold pastWin; exact Pipeline.withArrays_arr spec1 launch1.win.arr_inj c _ _ w
theorem pastWin_of_ne (c : Dev nD) (b : Ref sig .tc) (hb : ∀ w, Pipeline.arrRef spec1 w ≠ b) :
    pastWin m c (Proc.devRef .tc b) = atWin m c (Proc.devRef .tc b) := by
  unfold pastWin; exact Pipeline.withArrays_of_ne spec1 c _ _ b hb
abbrev pastWinR : (c : Dev nD) → (b : Ref sig .tc) → Buf (Elt F) ((c : Thread nD τ).loc b) := fun c b => pastWin m c b

/-- At the return: after the closing reshape. -/
abbrev atEnd (c : Dev nD) : Valuation τ sig (Elt F) := StableHlo.after hostOps2 (pastWin m c)

/-- At a region's exit each of its arrays holds what the pipeline leaves, and every other buffer what it held at entry. -/
theorem chan_exit_arr (c : Dev nD) (w : Fin cfg0.W) : (ChanSum.dat (atChanR m) c).arrAt w cfg0.N = pastChanR m c (Pipeline.arrRef spec0 w) :=
  (pastChan_arr m c w).symm
theorem chan_exit_rest (c : Dev nD) : ∀ b, b ∉ Finset.univ.image (Pipeline.arrRef spec0) → pastChanR m c b = atChanR m c b :=
  fun b hb => pastChan_of_ne m c b fun w e => hb (Finset.mem_image.mpr ⟨w, Finset.mem_univ _, e⟩)
theorem win_exit_arr (c : Dev nD) (w : Fin cfg1.W) : (WinSum.dat (atWinR m) c).arrAt w cfg1.N = pastWinR m c (Pipeline.arrRef spec1 w) :=
  (pastWin_arr m c w).symm
theorem win_exit_rest (c : Dev nD) : ∀ b, b ∉ Finset.univ.image (Pipeline.arrRef spec1) → pastWinR m c b = atWinR m c b :=
  fun b hb => pastWin_of_ne m c b fun w e => hb (Finset.mem_image.mpr ⟨w, Finset.mem_univ _, e⟩)

/-- The argument array is never written: no host operation's result is it, and neither region has it as a window. -/
theorem atEnd_arg (c : Dev nD) : atEnd m c (Proc.devRef .tc main_arg0) = m ((c : Thread nD τ).loc main_arg0) :=
  calc atEnd m c (Proc.devRef .tc main_arg0)
    _ = pastWin m c (Proc.devRef .tc main_arg0) := StableHlo.after_of_writes_sub hostOps2 _ hostOps2_writes (r := main_arg0) (by decide)
    _ = atWin m c (Proc.devRef .tc main_arg0) := pastWin_of_ne m c main_arg0 (by decide)
    _ = pastChan m c (Proc.devRef .tc main_arg0) := StableHlo.after_of_writes_sub hostOps1 _ hostOps1_writes (r := main_arg0) (by decide)
    _ = atChan m c (Proc.devRef .tc main_arg0) := pastChan_of_ne m c main_arg0 (by decide)
    _ = m ((c : Thread nD τ).loc main_arg0) :=
        (V3_of m c main_arg0 (by decide)).trans <| (V2_of m c main_arg0 (by decide)).trans <| (V1_of m c main_arg0 (by decide)).trans rfl

/-! ## The proof data of both regions, and what rides beside the buffers -/

abbrev adm : (p : Fin 2) → (pcfgs (F := F) p).Adm := fun p => (cfgs p).toPCfg_adm

/-- Each region's proof data at the contents the region is entered from. -/
def pdats : (p : Fin 2) → (c : Dev nD) → Dat τ (Elt F) Unit ℕ (UR sig nD τ) ℕ (Pipeline.pin (pcfgs (F := F)) adm p) c
  | ⟨0, _⟩ => fun c => ChanSum.dat (atChanR m) c
  | ⟨1, _⟩ => fun c => WinSum.dat (atWinR m) c

abbrev 𝒱₀ : Variants := Variants.none
abbrev L : GSem nD τ sig → Finset Unit := fun _ => ∅
abbrev lv : GSem nD τ sig → Unit → ℕ := fun _ _ => 0

/-- The generator register at some state, and nothing owed. -/
abbrev Rst (c : Dev nD) : sProp 𝕄 := iprop((∃ r, prngReg c r) ∗ ∃ W, owes (c : Thread nD τ) (0 : CellTallies nD τ sig Unit) W)

/-- A stretch of host operations as a segment, from the contents `W`. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without the dues: every unscoped buffer at the final contents, the register at some state. -/
abbrev Tend (c : Dev nD) : sProp 𝕄 := iprop(StableHlo.held (c : Thread nD τ) (Pipeline.ucRefs τ sig) (atEnd m c) ∗ ∃ r, prngReg c r)

/-! ## The two regions as segments -/

set_option backward.isDefEq.respectTransparency.types false in
/-- The channel-sum region: entered with every unscoped buffer at `atChan`, left with them at `pastChan`. Its three arrays
    are split out of the buffers on entry and put back at the exit contents; the register goes into the invariant and
    comes back; nothing is owed. -/
def chanSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (ChanSum.body_obligation (atChanR m) c).loose
  hwaits := Pipeline.hwaits_of_owed_zero _ _ _ _ L lv 0 fun _ _ => rfl
  pre c := iprop(StableHlo.held (c : Thread nD τ) (Pipeline.ucRefs τ sig) (atChan m c) ∗ Rst c)
  post c := iprop(StableHlo.held (c : Thread nD τ) (Pipeline.ucRefs τ sig) (pastChan m c) ∗ Rst c)
  X c := iprop(∃ r, prngReg c r)
  Y c := iprop(∃ r, prngReg c r)
  Z c := Pipeline.unscopedRest (Ix := Unit) (Name := ℕ) (U := UR sig nD τ) (Lvl := ℕ) spec0 c (atChanR m c)
  hentry c := by
    rw [Pipeline.ownSems0_none]
    have hsplit := Pipeline.arrays_of_unscopedBufs (p := 0) (pcfgs (F := F)) adm (pdats m) launch0.win launch0.arr_whole c
      ((pdats m 0 c).share_full fun _ => rfl) (atChanR m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atChanR m c) (pastChanR m c) ((pdats m 0 c).arrAt · cfg0.N) (chan_exit_arr m c) (chan_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The window-sum region: entered with every unscoped buffer at `atWin`, left with them at `pastWin`. -/
def winSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (WinSum.body_obligation (atWinR m) c).loose
  hwaits := Pipeline.hwaits_of_owed_zero _ _ _ _ L lv 1 fun _ _ => rfl
  pre c := iprop(StableHlo.held (c : Thread nD τ) (Pipeline.ucRefs τ sig) (atWin m c) ∗ Rst c)
  post c := iprop(StableHlo.held (c : Thread nD τ) (Pipeline.ucRefs τ sig) (pastWin m c) ∗ Rst c)
  X c := iprop(∃ r, prngReg c r)
  Y c := iprop(∃ r, prngReg c r)
  Z c := Pipeline.unscopedRest (Ix := Unit) (Name := ℕ) (U := UR sig nD τ) (Lvl := ℕ) spec1 c (atWinR m c)
  hentry c := by
    rw [Pipeline.ownSems0_none]
    have hsplit := Pipeline.arrays_of_unscopedBufs (p := 1) (pcfgs (F := F)) adm (pdats m) launch1.win launch1.arr_whole c
      ((pdats m 1 c).share_full fun _ => rfl) (atWinR m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atWinR m c) (pastWinR m c) ((pdats m 1 c).arrAt · cfg1.N) (win_exit_arr m c) (win_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its seven segments, and the launch -/

abbrev segs : List (Pipeline.Seg (pcfgs (F := F)) adm (pdats m) () defs₀ 𝒱₀ L lv) :=
  [ .host (hostStretch hostOps0 hostOps0_sub hostOps0_fresh (V0 m)),
    .host (hostStretch hostOps0_1 hostOps0_1_sub hostOps0_1_fresh (V1 m)),
    .host (hostStretch hostOps0_2 hostOps0_2_sub hostOps0_2_fresh (V2 m)),
    .region (chanSeg m),
    .host (hostStretch hostOps1 hostOps1_sub hostOps1_fresh (pastChan m)),
    .region (winSeg m),
    .host (hostStretch hostOps2 hostOps2_sub hostOps2_fresh (pastWin m)) ]

/-- @main is the run of those segments. -/
theorem main_run (c : Dev nD) : main (F := F) c = Pipeline.Seg.run (segs m) := (main_chain c).trans (by chain_rfl)

set_option backward.isDefEq.respectTransparency.types false in
/-- From any memory with zero counters, every weakly fair execution of @main terminates without a fault, and at the end
    every unscoped buffer of every core holds the final contents `atEnd`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c)) (Tₙ := Tend m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (atEnd m c) ∗ Rst c) ⊢ _
      iintro ⟨Hh, Hp, HO⟩; isplitl [Hh Hp]; · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h => h)

/-- The frame: the argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (atEnd_arg m c)) (run_main m ρ)

end Cert.Kernel.Whole

end
-- ==== Proof.KI.Chan.lean ====
import proofs.«164703_j67808943669345_1_alg».proof.Proof.Gen.KernelIdeal.Launch
import proofs.«164703_j67808943669345_1_alg».proof.Proof.Gen.KernelIdeal.Skeleton
import proofs.«164703_j67808943669345_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The channel-sum region, one grid point at a time

The first region walks a grid of 8 × 16 points. At point `(i, j)` it is handed rows `1024·j … 1024·j + 1023` of batch
entry `i` of the neighbourhood array (a `[1, 1024, 9, 64]` block) and of the centre array (a `[1, 1024, 64]` block), and
leaves in its output block `[1, 1024, 9]` the sum over the 64 channels of neighbour plus centre. Nothing else is touched:
the two input blocks are read and left as they were, the output block is overwritten whole by one store.

Everything here is stated at ANY contents `V` of the core's buffers at the moment the region is entered, and at any float
instance. -/

set_option maxRecDepth 16384

noncomputable section

namespace Cert.KernelIdeal.ChanSum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the region is handed -/

/-- Window `w`'s block at grid point `t`, cut out of the window's array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The neighbourhood window's staging buffer holds its block when the body starts, at every point: the window is fetched
    whole at every point and the body leaves it in place. -/
theorem nbr_before_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for the centre window. -/
theorem ctr_before_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## What the body reads and writes: three whole blocks -/

abbrev nbrRect : Rect S1x1024x9x64 := Rect.unit (s := S1x1024x9x64) ![0, 0, 0, 0] S1x1024x9x64.size inb_S1x1024x9x64_S1x1024x9x64_0_0_0_0
abbrev ctrRect : Rect S1x1024x64 := Rect.unit (s := S1x1024x64) ![0, 0, 0] S1x1024x64.size inb_S1x1024x64_S1x1024x64_0_0_0
abbrev outRect : Rect S1x1024x9 := Rect.unit (s := S1x1024x9) ![0, 0, 0] S1x1024x9.size inb_S1x1024x9_S1x1024x9_0_0_0

/-- The output block after the body, from the two input blocks: its single store, of the channel sums. -/
def outBlock (x0 : Vec F S1x1024x9x64 .f32) (x1 : Vec F S1x1024x64 .f32) : Vec F S1x1024x9 .f32 :=
  View.canon [⟨outRect, k0_pay1 (View.ld x0 nbrRect) (View.ld x1 ctrRect)⟩]

/-- That one store covers the output block. -/
theorem out_covered (p0 : Vec F S1x1024x9 .f32) (y : S1x1024x9.Idx) :
    ∃ pc ∈ ([⟨outRect, p0⟩] : List (View.Piece (Elt F) S1x1024x9 .f32)), y ∈ pc.1.set :=
  View.cover_of_tiled [⟨outRect, p0⟩] S1x1024x9.size (by rfl) y

/-! ## The body's triple -/

set_option maxHeartbeats 1000000 in
/-- The body on three whole staging buffers — the inputs holding `x0` and `x1`, the output holding anything — runs to its
    continuation with the inputs as they were and the output at `outBlock x0 x1`. -/
theorem body_triple (c : Dev nD) (E : Set ℕ) (i : grid0.Coords)
    (arg2 : Memref sig .tc .vmem S1x1024x9x64 .f32) (harg2 : arg2.IsWhole)
    (arg3 : Memref sig .tc .vmem S1x1024x64 .f32) (harg3 : arg3.IsWhole)
    (arg4 : Memref sig .tc .vmem S1x1024x9 .f32) (harg4 : arg4.IsWhole)
    (x0 : Vec F S1x1024x9x64 .f32) (x1 : Vec F S1x1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlock x0 x1)) -∗ K ⟨⟩))
      ⊢ wp frame (wpE (defs₀ (F := F)) Variants.none c none) E (cc0__kernel_channel_sum i arg2 harg2 arg3 harg3 arg4 harg4) K := by
  simp only [cc0__kernel_channel_sum_eq_skeleton]; unfold cc0__kernel_channel_sum_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_covered _)

/-! ## The region's proof data -/

/-- On core `c`: the arrays as the region finds them; after the body at point `t` each input's staging buffer still at its
    block and the output's at `outBlock` of the two; the invariant is the untouched rest; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outBlock (blk V c 0 t) (blk V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem dat_after_nbr (c : Dev nD) (t : Fin cfg0.N) : (dat V c).after 0 t = blk V c 0 t := by dsimp only [dat]
theorem dat_after_ctr (c : Dev nD) (t : Fin cfg0.N) : (dat V c).after 1 t = blk V c 1 t := by dsimp only [dat]
theorem dat_after_out (c : Dev nD) (t : Fin cfg0.N) : (dat V c).after 2 t = outBlock (blk V c 0 t) (blk V c 1 t) := by dsimp only [dat]

theorem nbr_before (c : Dev nD) (t : Fin cfg0.N) (d) : (dat V c).before 0 t d = blk V c 0 t :=
  nbr_before_of V (dat V c) (dat_A V c 0) (dat_after_nbr V c) t d
theorem ctr_before (c : Dev nD) (t : Fin cfg0.N) (d) : (dat V c).before 1 t d = blk V c 1 t :=
  ctr_before_of V (dat V c) (dat_A V c 1) (dat_after_ctr V c) t d

/-! ## The body obligation -/

/-- What the body is called with at point `t`: the invariant, the core's dues, and the three staging buffers. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- And what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' staging buffers hold their blocks, so the triple applies; the invariant and the
    dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [nbr_before, ctr_before]
  rw [show (dat V c).Φ t.succ = (dat V c).Φ t.castSucc from rfl,
    show (dat V c).owesAt () t.succ = (dat V c).owesAt () t.castSucc from rfl,
    dat_after_nbr, dat_after_ctr, dat_after_out]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact body_at V c t

end Cert.KernelIdeal.ChanSum

end
-- ==== Proof.KI.Win.lean ====
import proofs.«164703_j67808943669345_1_alg».proof.Proof.Gen.KernelIdeal.Launch
import proofs.«164703_j67808943669345_1_alg».proof.Proof.Gen.KernelIdeal.Skeleton
import proofs.«164703_j67808943669345_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The window-sum region, one grid point at a time

The second region walks a grid of 8 × 32 points. At point `(i, j)` it is handed rows `512·j … 512·j + 511` of batch entry
`i` of the neighbourhood array read channel-major (a `[1, 512, 64, 9]` block) and of the per-position weight sums (a
`[1, 512, 1]` block), and leaves in its output block `[1, 512, 64]` the sum over the nine window cells plus the position's
weight sum, the same for all 64 channels. The two input blocks are read and left as they were; the output block is
overwritten whole by one store.

Stated at ANY contents `V` of the core's buffers at the moment the region is entered, and at any float instance. -/

set_option maxRecDepth 16384

noncomputable section

namespace Cert.KernelIdeal.WinSum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the region is handed -/

/-- Window `w`'s block at grid point `t`, cut out of the window's array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The channel-major neighbourhood window's staging buffer holds its block when the body starts, at every point. -/
theorem nbr_before_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for the weight-sum window. -/
theorem wsum_before_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## What the body reads and writes: three whole blocks -/

abbrev nbrRect : Rect S1x512x64x9 := Rect.unit (s := S1x512x64x9) ![0, 0, 0, 0] S1x512x64x9.size inb_S1x512x64x9_S1x512x64x9_0_0_0_0
abbrev wsumRect : Rect S1x512x1 := Rect.unit (s := S1x512x1) ![0, 0, 0] S1x512x1.size inb_S1x512x1_S1x512x1_0_0_0
abbrev outRect : Rect S1x512x64 := Rect.unit (s := S1x512x64) ![0, 0, 0] S1x512x64.size inb_S1x512x64_S1x512x64_0_0_0

/-- The output block after the body, from the two input blocks: its single store, of window sum plus weight sum. -/
def outBlock (x0 : Vec F S1x512x64x9 .f32) (x1 : Vec F S1x512x1 .f32) : Vec F S1x512x64 .f32 :=
  View.canon [⟨outRect, k1_pay1 (View.ld x0 nbrRect) (View.ld x1 wsumRect)⟩]

/-- That one store covers the output block. -/
theorem out_covered (p0 : Vec F S1x512x64 .f32) (y : S1x512x64.Idx) :
    ∃ pc ∈ ([⟨outRect, p0⟩] : List (View.Piece (Elt F) S1x512x64 .f32)), y ∈ pc.1.set :=
  View.cover_of_tiled [⟨outRect, p0⟩] S1x512x64.size (by rfl) y

/-! ## The body's triple -/

set_option maxHeartbeats 1000000 in
/-- The body on three whole staging buffers — the inputs holding `x0` and `x1`, the output holding anything — runs to its
    continuation with the inputs as they were and the output at `outBlock x0 x1`. -/
theorem body_triple (c : Dev nD) (E : Set ℕ) (i : grid1.Coords)
    (arg2 : Memref sig .tc .vmem S1x512x64x9 .f32) (harg2 : arg2.IsWhole)
    (arg3 : Memref sig .tc .vmem S1x512x1 .f32) (harg3 : arg3.IsWhole)
    (arg4 : Memref sig .tc .vmem S1x512x64 .f32) (harg4 : arg4.IsWhole)
    (x0 : Vec F S1x512x64x9 .f32) (x1 : Vec F S1x512x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlock x0 x1)) -∗ K ⟨⟩))
      ⊢ wp frame (wpE (defs₀ (F := F)) Variants.none c none) E (cc1__kernel_window_sum i arg2 harg2 arg3 harg3 arg4 harg4) K := by
  simp only [cc1__kernel_window_sum_eq_skeleton]; unfold cc1__kernel_window_sum_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_covered _)

/-! ## The region's proof data -/

/-- On core `c`: the arrays as the region finds them; after the body at point `t` each input's staging buffer still at its
    block and the output's at `outBlock` of the two; the invariant is the untouched rest; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlock (blk V c 0 t) (blk V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem dat_after_nbr (c : Dev nD) (t : Fin cfg1.N) : (dat V c).after 0 t = blk V c 0 t := by dsimp only [dat]
theorem dat_after_wsum (c : Dev nD) (t : Fin cfg1.N) : (dat V c).after 1 t = blk V c 1 t := by dsimp only [dat]
theorem dat_after_out (c : Dev nD) (t : Fin cfg1.N) : (dat V c).after 2 t = outBlock (blk V c 0 t) (blk V c 1 t) := by dsimp only [dat]

theorem nbr_before (c : Dev nD) (t : Fin cfg1.N) (d) : (dat V c).before 0 t d = blk V c 0 t :=
  nbr_before_of V (dat V c) (dat_A V c 0) (dat_after_nbr V c) t d
theorem wsum_before (c : Dev nD) (t : Fin cfg1.N) (d) : (dat V c).before 1 t d = blk V c 1 t :=
  wsum_before_of V (dat V c) (dat_A V c 1) (dat_after_wsum V c) t d

/-! ## The body obligation -/

/-- What the body is called with at point `t`: the invariant, the core's dues, and the three staging buffers. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- And what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' staging buffers hold their blocks, so the triple applies; the invariant and the
    dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [nbr_before, wsum_before]
  rw [show (dat V c).Φ t.succ = (dat V c).Φ t.castSucc from rfl,
    show (dat V c).owesAt () t.succ = (dat V c).owesAt () t.castSucc from rfl,
    dat_after_nbr, dat_after_wsum, dat_after_out]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact body_at V c t

end Cert.KernelIdeal.WinSum

end
-- ==== Proof.KI.Run.lean ====
import proofs.«164703_j67808943669345_1_alg».proof.Proof.KI.Chan
import proofs.«164703_j67808943669345_1_alg».proof.Proof.KI.Win
import proofs.«164703_j67808943669345_1_alg».proof.Proof.Gen.KernelIdeal.Regions

/-! # The whole program: host operations, the channel-sum region, host operations, the window-sum region, a reshape

@main is seven stretches in a row. Between two stretches the core holds every unscoped buffer at known contents:
the launch memory; then what each stretch of host operations computes from what it found; and after a region, the
region's three arrays at what its write-backs leave (the two inputs as entered, the output block by block) and every
other buffer untouched. Beside the buffers ride the core's generator register and its empty list of dues.

The result: every weakly fair execution of @main terminates, faults nowhere, and ends with every unscoped buffer at the
last of these contents. The frame (the argument array ends as launched) is read off it, and so is the value of the
program's result. Stated at any float instance. -/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- As the channel-sum region finds the buffers: the launch memory after the three leading stretches of host operations
    (the constant, the padding, the nine shifted copies stacked and reshaped, the transposed input). -/
abbrev atChan (c : Dev nD) : Valuation τ sig (Elt F) := V3 m c
/-- The same read at the core's own references. -/
abbrev atChanR : (c : Dev nD) → (b : Ref sig .tc) → Buf (Elt F) ((c : Thread nD τ).loc b) := fun c b => atChan m c b

/-- As the channel-sum region leaves them: its arrays at what its write-backs fold to, the rest as entered. -/
def pastChan (c : Dev nD) : Valuation τ sig (Elt F) :=
  Pipeline.withArrays spec0 c (atChan m c) fun w => (ChanSum.dat (atChanR m) c).arrAt w cfg0.N
theorem pastChan_arr (c : Dev nD) (w : Fin cfg0.W) :
    pastChan m c (Proc.devRef .tc (Pipeline.arrRef spec0 w)) = (ChanSum.dat (atChanR m) c).arrAt w cfg0.N := by
  unfold pastChan; exact Pipeline.withArrays_arr spec0 launch0.win.arr_inj c _ _ w
theorem pastChan_of_ne (c : Dev nD) (b : Ref sig .tc) (hb : ∀ w, Pipeline.arrRef spec0 w ≠ b) :
    pastChan m c (Proc.devRef .tc b) = atChan m c (Proc.devRef .tc b) := by
  unfold pastChan; exact Pipeline.withArrays_of_ne spec0 c _ _ b hb
abbrev pastChanR : (c : Dev nD) → (b : Ref sig .tc) → Buf (Elt F) ((c : Thread nD τ).loc b) := fun c b => pastChan m c b

/-- As the window-sum region finds them: after the softmax over the positions and the sum of its nine weights. -/
abbrev atWin (c : Dev nD) : Valuation τ sig (Elt F) := StableHlo.after hostOps1 (pastChan m c)
abbrev atWinR : (c : Dev nD) → (b : Ref sig .tc) → Buf (Elt F) ((c : Thread nD τ).loc b) := fun c b => atWin m c b

/-- As the window-sum region leaves them. -/
def pastWin (c : Dev nD) : Valuation τ sig (Elt F) :=
  Pipeline.withArrays spec1 c (atWin m c) fun w => (WinSum.dat (atWinR m) c).arrAt w cfg1.N
theorem pastWin_arr (c : Dev nD) (w : Fin cfg1.W) :
    pastWin m c (Proc.devRef .tc (Pipeline.arrRef spec1 w)) = (WinSum.dat (atWinR m) c).arrAt w cfg1.N := by
  unfold pastWin; exact Pipeline.withArrays_arr spec1 launch1.win.arr_inj c _ _ w
theorem pastWin_of_ne (c : Dev nD) (b : Ref sig .tc) (hb : ∀ w, Pipeline.arrRef spec1 w ≠ b) :
    pastWin m c (Proc.devRef .tc b) = atWin m c (Proc.devRef .tc b) := by
  unfold pastWin; exact Pipeline.withArrays_of_ne spec1 c _ _ b hb
abbrev pastWinR : (c : Dev nD) → (b : Ref sig .tc) → Buf (Elt F) ((c : Thread nD τ).loc b) := fun c b => pastWin m c b

/-- At the return: after the closing reshape. -/
abbrev atEnd (c : Dev nD) : Valuation τ sig (Elt F) := StableHlo.after hostOps2 (pastWin m c)

/-- At a region's exit each of its arrays holds what the pipeline leaves, and every other buffer what it held at entry. -/
theorem chan_exit_arr (c : Dev nD) (w : Fin cfg0.W) : (ChanSum.dat (atChanR m) c).arrAt w cfg0.N = pastChanR m c (Pipeline.arrRef spec0 w) :=
  (pastChan_arr m c w).symm
theorem chan_exit_rest (c : Dev nD) : ∀ b, b ∉ Finset.univ.image (Pipeline.arrRef spec0) → pastChanR m c b = atChanR m c b :=
  fun b hb => pastChan_of_ne m c b fun w e => hb (Finset.mem_image.mpr ⟨w, Finset.mem_univ _, e⟩)
theorem win_exit_arr (c : Dev nD) (w : Fin cfg1.W) : (WinSum.dat (atWinR m) c).arrAt w cfg1.N = pastWinR m c (Pipeline.arrRef spec1 w) :=
  (pastWin_arr m c w).symm
theorem win_exit_rest (c : Dev nD) : ∀ b, b ∉ Finset.univ.image (Pipeline.arrRef spec1) → pastWinR m c b = atWinR m c b :=
  fun b hb => pastWin_of_ne m c b fun w e => hb (Finset.mem_image.mpr ⟨w, Finset.mem_univ _, e⟩)

/-- The argument array is never written: no host operation's result is it, and neither region has it as a window. -/
theorem atEnd_arg (c : Dev nD) : atEnd m c (Proc.devRef .tc main_arg0) = m ((c : Thread nD τ).loc main_arg0) :=
  calc atEnd m c (Proc.devRef .tc main_arg0)
    _ = pastWin m c (Proc.devRef .tc main_arg0) := StableHlo.after_of_writes_sub hostOps2 _ hostOps2_writes (r := main_arg0) (by decide)
    _ = atWin m c (Proc.devRef .tc main_arg0) := pastWin_of_ne m c main_arg0 (by decide)
    _ = pastChan m c (Proc.devRef .tc main_arg0) := StableHlo.after_of_writes_sub hostOps1 _ hostOps1_writes (r := main_arg0) (by decide)
    _ = atChan m c (Proc.devRef .tc main_arg0) := pastChan_of_ne m c main_arg0 (by decide)
    _ = m ((c : Thread nD τ).loc main_arg0) :=
        (V3_of m c main_arg0 (by decide)).trans <| (V2_of m c main_arg0 (by decide)).trans <| (V1_of m c main_arg0 (by decide)).trans rfl

/-! ## The proof data of both regions, and what rides beside the buffers -/

abbrev adm : (p : Fin 2) → (pcfgs (F := F) p).Adm := fun p => (cfgs p).toPCfg_adm

/-- Each region's proof data at the contents the region is entered from. -/
def pdats : (p : Fin 2) → (c : Dev nD) → Dat τ (Elt F) Unit ℕ (UR sig nD τ) ℕ (Pipeline.pin (pcfgs (F := F)) adm p) c
  | ⟨0, _⟩ => fun c => ChanSum.dat (atChanR m) c
  | ⟨1, _⟩ => fun c => WinSum.dat (atWinR m) c

abbrev 𝒱₀ : Variants := Variants.none
abbrev L : GSem nD τ sig → Finset Unit := fun _ => ∅
abbrev lv : GSem nD τ sig → Unit → ℕ := fun _ _ => 0

/-- The generator register at some state, and nothing owed. -/
abbrev Rst (c : Dev nD) : sProp 𝕄 := iprop((∃ r, prngReg c r) ∗ ∃ W, owes (c : Thread nD τ) (0 : CellTallies nD τ sig Unit) W)

/-- A stretch of host operations as a segment, from the contents `W`. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without the dues: every unscoped buffer at the final contents, the register at some state. -/
abbrev Tend (c : Dev nD) : sProp 𝕄 := iprop(StableHlo.held (c : Thread nD τ) (Pipeline.ucRefs τ sig) (atEnd m c) ∗ ∃ r, prngReg c r)

/-! ## The two regions as segments -/

set_option backward.isDefEq.respectTransparency.types false in
/-- The channel-sum region: entered with every unscoped buffer at `atChan`, left with them at `pastChan`. Its three arrays
    are split out of the buffers on entry and put back at the exit contents; the register goes into the invariant and
    comes back; nothing is owed. -/
def chanSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (ChanSum.body_obligation (atChanR m) c).loose
  hwaits := Pipeline.hwaits_of_owed_zero _ _ _ _ L lv 0 fun _ _ => rfl
  pre c := iprop(StableHlo.held (c : Thread nD τ) (Pipeline.ucRefs τ sig) (atChan m c) ∗ Rst c)
  post c := iprop(StableHlo.held (c : Thread nD τ) (Pipeline.ucRefs τ sig) (pastChan m c) ∗ Rst c)
  X c := iprop(∃ r, prngReg c r)
  Y c := iprop(∃ r, prngReg c r)
  Z c := Pipeline.unscopedRest (Ix := Unit) (Name := ℕ) (U := UR sig nD τ) (Lvl := ℕ) spec0 c (atChanR m c)
  hentry c := by
    rw [Pipeline.ownSems0_none]
    have hsplit := Pipeline.arrays_of_unscopedBufs (p := 0) (pcfgs (F := F)) adm (pdats m) launch0.win launch0.arr_whole c
      ((pdats m 0 c).share_full fun _ => rfl) (atChanR m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atChanR m c) (pastChanR m c) ((pdats m 0 c).arrAt · cfg0.N) (chan_exit_arr m c) (chan_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The window-sum region: entered with every unscoped buffer at `atWin`, left with them at `pastWin`. -/
def winSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (WinSum.body_obligation (atWinR m) c).loose
  hwaits := Pipeline.hwaits_of_owed_zero _ _ _ _ L lv 1 fun _ _ => rfl
  pre c := iprop(StableHlo.held (c : Thread nD τ) (Pipeline.ucRefs τ sig) (atWin m c) ∗ Rst c)
  post c := iprop(StableHlo.held (c : Thread nD τ) (Pipeline.ucRefs τ sig) (pastWin m c) ∗ Rst c)
  X c := iprop(∃ r, prngReg c r)
  Y c := iprop(∃ r, prngReg c r)
  Z c := Pipeline.unscopedRest (Ix := Unit) (Name := ℕ) (U := UR sig nD τ) (Lvl := ℕ) spec1 c (atWinR m c)
  hentry c := by
    rw [Pipeline.ownSems0_none]
    have hsplit := Pipeline.arrays_of_unscopedBufs (p := 1) (pcfgs (F := F)) adm (pdats m) launch1.win launch1.arr_whole c
      ((pdats m 1 c).share_full fun _ => rfl) (atWinR m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atWinR m c) (pastWinR m c) ((pdats m 1 c).arrAt · cfg1.N) (win_exit_arr m c) (win_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its seven segments, and the launch -/

abbrev segs : List (Pipeline.Seg (pcfgs (F := F)) adm (pdats m) () defs₀ 𝒱₀ L lv) :=
  [ .host (hostStretch hostOps0 hostOps0_sub hostOps0_fresh (V0 m)),
    .host (hostStretch hostOps0_1 hostOps0_1_sub hostOps0_1_fresh (V1 m)),
    .host (hostStretch hostOps0_2 hostOps0_2_sub hostOps0_2_fresh (V2 m)),
    .region (chanSeg m),
    .host (hostStretch hostOps1 hostOps1_sub hostOps1_fresh (pastChan m)),
    .region (winSeg m),
    .host (hostStretch hostOps2 hostOps2_sub hostOps2_fresh (pastWin m)) ]

/-- @main is the run of those segments. -/
theorem main_run (c : Dev nD) : main (F := F) c = Pipeline.Seg.run (segs m) := (main_chain c).trans (by chain_rfl)

set_option backward.isDefEq.respectTransparency.types false in
/-- From any memory with zero counters, every weakly fair execution of @main terminates without a fault, and at the end
    every unscoped buffer of every core holds the final contents `atEnd`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c)) (Tₙ := Tend m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (atEnd m c) ∗ Rst c) ⊢ _
      iintro ⟨Hh, Hp, HO⟩; isplitl [Hh Hp]; · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h => h)

/-- The frame: the argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (atEnd_arg m c)) (run_main m ρ)

end Cert.KernelIdeal.Whole

end
-- ==== Proof.Spec.lean ====
import Idealize.ShloMosaic.PureOps.Ideal.Laws
import Idealize.ShloMosaic.Lib.ValueIdx
import Idealize.ShloMosaic.Lib.IdealHost

noncomputable section

/-! # The two arrangements of one computation

Over the extended reals. `L` is the 3×3 neighbourhood tensor read as `[8, 16384, 3, 3, 64]`, `R` the same buffer read
as `[8, 16384, 64, 3, 3]`, `T` the input moved to channels-last `[8, 128, 128, 64]`. A position is a batch entry `n`
and a flattened pixel `q = 128·h + w`.

* the *score* of window cell `(a, b)` at a position is the sum over the 64 channels of `L + centre`;
* the *weight* is the softmax of the scores over the 16384 positions, for each batch entry and each window cell;
* the result at `(n, q, c)` is the sum of the nine weights at `(n, q)` plus the sum of the nine entries of `R` at
  `(n, q, c)`.

One program walks the window as one axis of nine cells `j = 3a + b` and adds "window sum of `R`" first; the other walks it as
`3 × 3` and adds the weights' sum first. -/

namespace Cert.RangeStep

open Idealize.ShloMosaic Idealize.ShloMosaic.ValueIdx

abbrev SL : Shape := ⟨5, ![8, 16384, 3, 3, 64]⟩
abbrev SR : Shape := ⟨5, ![8, 16384, 64, 3, 3]⟩
abbrev ST : Shape := ⟨4, ![8, 128, 128, 64]⟩
abbrev SOut : Shape := ⟨3, ![8, 16384, 64]⟩

/-- Row and column of the flattened pixel `q`. -/
def rowOf (q : Fin 16384) : Fin 128 := ⟨q.val / 128, by have := q.isLt; omega⟩
def colOf (q : Fin 16384) : Fin 128 := ⟨q.val % 128, by omega⟩
/-- The window cell `j = 3a + b` of nine, split. -/
def cellRow (j : Fin 9) : Fin 3 := ⟨j.val / 3, by have := j.isLt; omega⟩
def cellCol (j : Fin 9) : Fin 3 := ⟨j.val % 3, by omega⟩

variable (L : SL.Idx → EReal) (R : SR.Idx → EReal) (T : ST.Idx → EReal)

/-- The centre pixel's channel `c` at position `(n, q)`. -/
def centre (n : Fin 8) (q : Fin 16384) (c : Fin 64) : EReal := T (ix4 n (rowOf q) (colOf q) c)

/-- The score of window cell `(a, b)` at `(n, q)`: the channel sum of neighbour plus centre. -/
def score (n : Fin 8) (q : Fin 16384) (a b : Fin 3) : EReal :=
  ∑ c : Fin 64, (L (ix5 n q a b c) + centre T n q c)

/-- The softmax of a column of 16384 extended reals, as both programs spell it: shift by the larger of `⊥` and the
    column's maximum, exponentiate, divide by the sum of the exponentials. -/
def colSoftmax (p : Fin 16384 → EReal) (q : Fin 16384) : EReal :=
  Ideal.div (Ideal.exp (p q - max ⊥ ((Finset.univ : Finset (Fin 16384)).fold max ⊥ p)))
    (∑ q' : Fin 16384, Ideal.exp (p q' - max ⊥ ((Finset.univ : Finset (Fin 16384)).fold max ⊥ p)))

/-- The weight of window cell `(a, b)` at `(n, q)`: softmax over the positions `q`. -/
def weight (n : Fin 8) (q : Fin 16384) (a b : Fin 3) : EReal :=
  colSoftmax (fun q' => score L T n q' a b) q

/-- Walking the window as nine cells, the sum of `R`'s window first. -/
def kernelForm (n : Fin 8) (q : Fin 16384) (c : Fin 64) : EReal :=
  (∑ j : Fin 9, R (ix5 n q c (cellRow j) (cellCol j))) + ∑ j : Fin 9, weight L T n q (cellRow j) (cellCol j)

/-- Walking the window as 3 × 3, the weights' sum first. -/
def refForm (n : Fin 8) (q : Fin 16384) (c : Fin 64) : EReal :=
  (∑ a : Fin 3, ∑ b : Fin 3, weight L T n q a b) + ∑ a : Fin 3, ∑ b : Fin 3, R (ix5 n q c a b)

/-- A function of position and channel as an array of shape `[8, 16384, 64]`. -/
def asArray (f : Fin 8 → Fin 16384 → Fin 64 → EReal) : SOut.Idx → EReal :=
  fun i => f ⟨(i 0).val, (i 0).isLt⟩ ⟨(i 1).val, (i 1).isLt⟩ ⟨(i 2).val, (i 2).isLt⟩

theorem asArray_ix3 (f : Fin 8 → Fin 16384 → Fin 64 → EReal) (n : Fin 8) (q : Fin 16384) (c : Fin 64) :
    asArray f (ix3 n q c) = f n q c := rfl

/-- A sum over the nine cells `j = 3a + b` is the double sum over `a` and `b`. -/
theorem sum_cells (f : Fin 3 → Fin 3 → EReal) :
    ∑ j : Fin 9, f (cellRow j) (cellCol j) = ∑ a : Fin 3, ∑ b : Fin 3, f a b := by
  simp only [Fin.sum_univ_succ, Fin.sum_univ_zero, add_zero, add_assoc]
  rfl

/-- The two walks agree: reindex the nine cells, commute the two summands. -/
theorem forms_eq : kernelForm L R T = refForm L R T := by
  funext n q c
  unfold kernelForm refForm
  rw [sum_cells (fun a b => R (ix5 n q c a b)), sum_cells (fun a b => weight L T n q a b), add_comm]

end Cert.RangeStep

end
-- ==== Proof.KI.Arrays.lean ====
import proofs.«164703_j67808943669345_1_alg».proof.Proof.KI.Chan
import proofs.«164703_j67808943669345_1_alg».proof.Proof.KI.Win
import proofs.«164703_j67808943669345_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! # From blocks to arrays

Each region writes its output array block by block, every block a function of the input blocks at the same grid point.
Read at an index of the whole array, at the ideal instance, the channel-sum region's output is the sum over the 64
channels of neighbour plus centre, and the window-sum region's output is the sum over the nine window cells plus the
position's weight sum. -/

set_option maxRecDepth 16384

noncomputable section

namespace Cert.KernelIdeal.Arrays

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The two payloads at an index -/

/-- The channel-sum payload at an index of its block: the sum over the 64 channels of the neighbourhood block plus the
    centre block, the centre read at the window-free index. -/
private theorem pay0_apply (v0 : S1x1024x9x64.Idx → EReal) (v2 : S1x1024x64.Idx → EReal) (a : Fin 1) (r : Fin 1024) (j : Fin 9) :
    k0_pay1 (F := Ideal) v0 v2 (ix3 a r j) = ∑ k : Fin 64, (v0 (ix4 a r j k) + v2 (ix3 a r k)) := by
  unfold k0_pay1
  dsimp only
  refine (Ideal.multiReduction_add_single _ _ _ _ _ _).trans ?_
  refine Finset.sum_congr rfl fun (k : Fin 64) _ => ?_
  have hl : reduces_S1x1024x9x64_S1x1024x9.lift (ix3 a r j) k = ix4 a r j k := by
    funext d; apply Fin.ext
    match d with
    | ⟨0, _⟩ => rfl
    | ⟨1, _⟩ => rfl
    | ⟨2, _⟩ => rfl
    | ⟨3, _⟩ => rfl
  refine (congrArg _ hl).trans ?_
  refine (addf_apply _ _ _).trans ?_
  rw [shapeCast_self, shapeCast_self, shapeCast_self]
  congr 1
  -- the broadcast along the window axis reads the unit axis at 0; the cast that inserted that axis keeps the position
  refine (broadcastTo_apply _ _ (ix4 a r j k) (ix4 a r (0 : Fin 1) k) fun d => ?_).trans ?_
  · have ha : a.val = 0 := by have := a.isLt; omega
    match d with
    | ⟨0, _⟩ => show a.val = if (1 : Nat) = 1 then 0 else _; rw [if_pos rfl, ha]
    | ⟨1, _⟩ => show r.val = if (1024 : Nat) = 1 then 0 else r.val; rw [if_neg (by decide)]
    | ⟨2, _⟩ => show (0 : Nat) = if (1 : Nat) = 1 then 0 else _; rw [if_pos rfl]
    | ⟨3, _⟩ => show k.val = if (64 : Nat) = 1 then 0 else k.val; rw [if_neg (by decide)]
  refine shapeCast_apply _ _ _ (ix3 a r k) ?_
  rw [Shape.rowMajor_val_three, Shape.rowMajor_val_four]
  show ((a.val * 1024 + r.val) * 64 + k.val) = (((a.val * 1024 + r.val) * 1 + (0 : Fin 1).val) * 64 + k.val)
  simp

/-- The window-sum payload at an index of its block: the sum over the nine window cells of the neighbourhood block, plus
    the weight-sum block at the position. -/
private theorem pay1_apply (v0 : S1x512x64x9.Idx → EReal) (v3 : S1x512x1.Idx → EReal) (a : Fin 1) (r : Fin 512) (k : Fin 64) :
    k1_pay1 (F := Ideal) v0 v3 (ix3 a r k) = (∑ j : Fin 9, v0 (ix4 a r k j)) + v3 (ix3 a r 0) := by
  unfold k1_pay1
  dsimp only
  refine (addf_apply _ _ _).trans ?_
  congr 1
  · refine (Ideal.multiReduction_add_single _ _ _ _ _ _).trans ?_
    refine Finset.sum_congr rfl fun (j : Fin 9) _ => ?_
    have hl : reduces_S1x512x64x9_S1x512x64.lift (ix3 a r k) j = ix4 a r k j := by
      funext d; apply Fin.ext
      match d with
      | ⟨0, _⟩ => rfl
      | ⟨1, _⟩ => rfl
      | ⟨2, _⟩ => rfl
      | ⟨3, _⟩ => rfl
    refine (congrArg _ hl).trans ?_
    rw [shapeCast_self]
  · rw [shapeCast_self]
    refine broadcastTo_apply _ _ (ix3 a r k) (ix3 a r (0 : Fin 1)) fun d => ?_
    have ha : a.val = 0 := by have := a.isLt; omega
    match d with
    | ⟨0, _⟩ => show a.val = if (1 : Nat) = 1 then 0 else _; rw [if_pos rfl, ha]
    | ⟨1, _⟩ => show r.val = if (512 : Nat) = 1 then 0 else r.val; rw [if_neg (by decide)]
    | ⟨2, _⟩ => show (0 : Nat) = if (1 : Nat) = 1 then 0 else _; rw [if_pos rfl]

private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

variable (V : (c : Dev nD) → (b : Ref sig .tc) → Buf (Elt Ideal) ((c : Thread nD τ).loc b))

/-! ## The arrays by name, at their literal types -/

/-- The neighbourhood array with the window merged, as the channel-sum region finds it. -/
abbrev nbrArr (c : Dev nD) : S8x16384x9x64.Idx → EReal := V c main_v30
/-- The centre array, as the channel-sum region finds it. -/
abbrev ctrArr (c : Dev nD) : S8x16384x64.Idx → EReal := V c main_v29
/-- The channel-major neighbourhood array with the window merged, as the window-sum region finds it. -/
abbrev nbrTArr (c : Dev nD) : S8x16384x64x9.Idx → EReal := V c main_v31
/-- The weight sums, as the window-sum region finds them. -/
abbrev wsumArr (c : Dev nD) : S8x16384x1.Idx → EReal := V c main_v45
/-- What the channel-sum region leaves in its output array. -/
abbrev chanOut (c : Dev nD) : S8x16384x9.Idx → EReal := (ChanSum.dat (F := Ideal) V c).arrAt 2 cfg0.N
/-- What the window-sum region leaves in its output array. -/
abbrev winOut (c : Dev nD) : S8x16384x64.Idx → EReal := (WinSum.dat (F := Ideal) V c).arrAt 2 cfg1.N

/-! ## The channel-sum region -/

/-- The three index maps of the channel-sum region over its grid: point `t` is batch entry `t / 16`, row block `t % 16`,
    for all three windows; the trailing axes are not cut. -/
private theorem idx_facts0 : ∀ t : Fin cfg0.N,
    win0_0.index t 0 = t.val / 16 ∧ win0_0.index t 1 = t.val % 16 ∧ win0_0.index t 2 = 0 ∧ win0_0.index t 3 = 0
    ∧ win0_1.index t 0 = t.val / 16 ∧ win0_1.index t 1 = t.val % 16 ∧ win0_1.index t 2 = 0
    ∧ win0_2.index t 0 = t.val / 16 ∧ win0_2.index t 1 = t.val % 16 ∧ win0_2.index t 2 = 0 :=
  (by decide +kernel : ∀ t : Fin grid0.N, _)

/-- The neighbourhood block at a grid point, at a block index: the array at the block's offset plus the index. -/
private theorem nbrBlk_apply (c : Dev nD) (t : Fin cfg0.N) (a : Fin 1) (r : Fin 1024) (j : Fin 9) (k : Fin 64) (n : Fin 8) (q : Fin 16384)
    (hn : n.val = t.val / 16 + a.val) (hq : q.val = t.val % 16 * 1024 + r.val) :
    (ChanSum.blk (F := Ideal) V c 0 t : S1x1024x9x64.Idx → EReal) (ix4 a r j k) = nbrArr V c (ix4 n q j k) := by
  obtain ⟨e0, e1, e2, e3, -⟩ := idx_facts0 t
  unfold ChanSum.blk
  rw [View.read_apply]
  show V c main_v30 _ = V c main_v30 _
  congr 1
  funext d
  apply Fin.ext
  match d with
  | ⟨0, _⟩ => show win0_0.index t 0 * 1 + 1 * a.val = n.val; omega
  | ⟨1, _⟩ => show win0_0.index t 1 * 1024 + 1 * r.val = q.val; omega
  | ⟨2, _⟩ => show win0_0.index t 2 * 9 + 1 * j.val = j.val; omega
  | ⟨3, _⟩ => show win0_0.index t 3 * 64 + 1 * k.val = k.val; omega

/-- The centre block at a grid point, at a block index. -/
private theorem ctrBlk_apply (c : Dev nD) (t : Fin cfg0.N) (a : Fin 1) (r : Fin 1024) (k : Fin 64) (n : Fin 8) (q : Fin 16384)
    (hn : n.val = t.val / 16 + a.val) (hq : q.val = t.val % 16 * 1024 + r.val) :
    (ChanSum.blk (F := Ideal) V c 1 t : S1x1024x64.Idx → EReal) (ix3 a r k) = ctrArr V c (ix3 n q k) := by
  obtain ⟨-, -, -, -, e0, e1, e2, -⟩ := idx_facts0 t
  unfold ChanSum.blk
  rw [View.read_apply]
  show V c main_v29 _ = V c main_v29 _
  congr 1
  funext d
  apply Fin.ext
  match d with
  | ⟨0, _⟩ => show win0_1.index t 0 * 1 + 1 * a.val = n.val; omega
  | ⟨1, _⟩ => show win0_1.index t 1 * 1024 + 1 * r.val = q.val; omega
  | ⟨2, _⟩ => show win0_1.index t 2 * 64 + 1 * k.val = k.val; omega

/-- The channel sum at a position and window cell, over the arrays as the region finds them. -/
private def chanVal (c : Dev nD) (n : Fin 8) (q : Fin 16384) (j : Fin 9) : EReal :=
  ∑ k : Fin 64, (nbrArr V c (ix4 n q j k) + ctrArr V c (ix3 n q k))

/-- The whole output array the channel-sum region computes, as one function of the index. -/
private def chanG (c : Dev nD) : S8x16384x9.Idx → EReal := fun i => chanVal V c (i 0) (i 1) (i 2)

/-- What grid point `t` writes back is its block of `chanG`: the payload at a block index, each input block read where the
    output block's offset says. -/
private theorem flushed0_eq (c : Dev nD) (t : Fin cfg0.N) :
    (ChanSum.dat (F := Ideal) V c).flushed 2 t = ((cfg0.win 2).blk t).view.read (Elt Ideal) (chanG V c) := by
  show (cfg0.win 2).cut (grid0.coords t) ((ChanSum.dat V c).after 2 t) = _
  rw [ChanSum.dat_after_out]
  unfold ChanSum.outBlock
  rw [View.canon_unit_zero hz3]
  simp only [View.ld_unit_zero (S := S1x1024x9x64) hz4, View.ld_unit_zero (S := S1x1024x64) hz3]
  refine funext fun (y : S1x1024x9.Idx) => ?_
  obtain ⟨a, r, j, rfl⟩ : ∃ (a : Fin 1) (r : Fin 1024) (j : Fin 9), y = ix3 a r j := ⟨y 0, y 1, y 2, eq_ix3 y⟩
  obtain ⟨-, -, -, -, -, -, -, e0, e1, e2⟩ := idx_facts0 t
  obtain ⟨n, q, j', hi⟩ : ∃ (n : Fin 8) (q : Fin 16384) (j' : Fin 9),
      ((cfg0.win 2).blk t).view.emb (ix3 a r j) = ix3 n q j' := ⟨_, _, _, eq_ix3 _⟩
  have hn : win0_2.index t 0 * 1 + 1 * a.val = n.val := congrArg (fun i : S8x16384x9.Idx => (i 0).val) hi
  have hq : win0_2.index t 1 * 1024 + 1 * r.val = q.val := congrArg (fun i : S8x16384x9.Idx => (i 1).val) hi
  have hj : win0_2.index t 2 * 9 + 1 * j.val = j'.val := congrArg (fun i : S8x16384x9.Idx => (i 2).val) hi
  obtain rfl : j = j' := Fin.ext (by omega)
  have hx : (cfg0.win 2).xinj (grid0.coords t) (ix3 a r j) = ix3 a r j := by
    funext d; apply Fin.ext
    match d with
    | ⟨0, _⟩ => rfl
    | ⟨1, _⟩ => rfl
    | ⟨2, _⟩ => rfl
  show k0_pay1 (ChanSum.blk V c 0 t) (ChanSum.blk V c 1 t) ((cfg0.win 2).xinj (grid0.coords t) (ix3 a r j)) = _
  refine (congrArg _ hx).trans ?_
  rw [View.read_apply]
  show _ = chanG V c (((cfg0.win 2).blk t).view.emb (ix3 a r j))
  rw [hi]
  show _ = chanVal V c n q j
  refine (pay0_apply _ _ a r j).trans ?_
  unfold chanVal
  refine Finset.sum_congr rfl fun k _ => ?_
  rw [nbrBlk_apply V c t a r j k n q (by omega) (by omega), ctrBlk_apply V c t a r k n q (by omega) (by omega)]

/-- An index of the output array lies in the block of the point its batch entry and row block name. -/
private theorem mem_blk0 (t : Fin cfg0.N) (i : S8x16384x9.Idx) (h0 : (i 0).val = t.val / 16) (h1 : (i 1).val / 1024 = t.val % 16) :
    i ∈ ((cfg0.win 2).blk t).view.set := by
  have h2 : (i 2).val < 9 := (i 2).isLt
  obtain ⟨-, -, -, -, -, -, -, e0, e1, e2⟩ := idx_facts0 t
  show i ∈ ((View.whole main_v32).slice (win0_2.rect t)).set
  rw [View.set_slice_whole, Rect.mem_set_unit]
  intro d
  match d with
  | ⟨0, _⟩ => show win0_2.index t 0 * 1 ≤ (i 0).val ∧ (i 0).val < win0_2.index t 0 * 1 + 1; omega
  | ⟨1, _⟩ => show win0_2.index t 1 * 1024 ≤ (i 1).val ∧ (i 1).val < win0_2.index t 1 * 1024 + 1024; omega
  | ⟨2, _⟩ => show win0_2.index t 2 * 9 ≤ (i 2).val ∧ (i 2).val < win0_2.index t 2 * 9 + 9; omega

/-- The points' blocks cover the output array: row `q` of batch entry `n` is in the block of point `16 n + q / 1024`. -/
private theorem cover0 (i : S8x16384x9.Idx) : ∃ t : Fin cfg0.N, (cfg0.win 2).flush t = true ∧ i ∈ ((cfg0.win 2).blk t).view.set := by
  have h0 : (i 0).val < 8 := (i 0).isLt
  have h1 : (i 1).val < 16384 := (i 1).isLt
  have hN : cfg0.N = 128 := N_0
  exact ⟨⟨(i 0).val * 16 + (i 1).val / 1024, by rw [hN]; omega⟩, flush0_2 _,
    mem_blk0 _ i (by show _ = ((i 0).val * 16 + (i 1).val / 1024) / 16; omega)
      (by show _ = ((i 0).val * 16 + (i 1).val / 1024) % 16; omega)⟩

/-! ## The window-sum region -/

/-- The three index maps of the window-sum region over its grid: point `t` is batch entry `t / 32`, row block `t % 32`,
    for all three windows; the trailing axes are not cut. -/
private theorem idx_facts1 : ∀ t : Fin cfg1.N,
    win1_0.index t 0 = t.val / 32 ∧ win1_0.index t 1 = t.val % 32 ∧ win1_0.index t 2 = 0 ∧ win1_0.index t 3 = 0
    ∧ win1_1.index t 0 = t.val / 32 ∧ win1_1.index t 1 = t.val % 32 ∧ win1_1.index t 2 = 0
    ∧ win1_2.index t 0 = t.val / 32 ∧ win1_2.index t 1 = t.val % 32 ∧ win1_2.index t 2 = 0 :=
  (by decide +kernel : ∀ t : Fin grid1.N, _)

/-- The channel-major neighbourhood block at a grid point, at a block index. -/
private theorem nbrTBlk_apply (c : Dev nD) (t : Fin cfg1.N) (a : Fin 1) (r : Fin 512) (k : Fin 64) (j : Fin 9) (n : Fin 8) (q : Fin 16384)
    (hn : n.val = t.val / 32 + a.val) (hq : q.val = t.val % 32 * 512 + r.val) :
    (WinSum.blk (F := Ideal) V c 0 t : S1x512x64x9.Idx → EReal) (ix4 a r k j) = nbrTArr V c (ix4 n q k j) := by
  obtain ⟨e0, e1, e2, e3, -⟩ := idx_facts1 t
  unfold WinSum.blk
  rw [View.read_apply]
  show V c main_v31 _ = V c main_v31 _
  congr 1
  funext d
  apply Fin.ext
  match d with
  | ⟨0, _⟩ => show win1_0.index t 0 * 1 + 1 * a.val = n.val; omega
  | ⟨1, _⟩ => show win1_0.index t 1 * 512 + 1 * r.val = q.val; omega
  | ⟨2, _⟩ => show win1_0.index t 2 * 64 + 1 * k.val = k.val; omega
  | ⟨3, _⟩ => show win1_0.index t 3 * 9 + 1 * j.val = j.val; omega

/-- The weight-sum block at a grid point, at a block index. -/
private theorem wsumBlk_apply (c : Dev nD) (t : Fin cfg1.N) (a : Fin 1) (r : Fin 512) (z : Fin 1) (n : Fin 8) (q : Fin 16384)
    (hn : n.val = t.val / 32 + a.val) (hq : q.val = t.val % 32 * 512 + r.val) :
    (WinSum.blk (F := Ideal) V c 1 t : S1x512x1.Idx → EReal) (ix3 a r z) = wsumArr V c (ix3 n q z) := by
  obtain ⟨-, -, -, -, e0, e1, e2, -⟩ := idx_facts1 t
  unfold WinSum.blk
  rw [View.read_apply]
  show V c main_v45 _ = V c main_v45 _
  congr 1
  funext d
  apply Fin.ext
  match d with
  | ⟨0, _⟩ => show win1_1.index t 0 * 1 + 1 * a.val = n.val; omega
  | ⟨1, _⟩ => show win1_1.index t 1 * 512 + 1 * r.val = q.val; omega
  | ⟨2, _⟩ => show win1_1.index t 2 * 1 + 1 * z.val = z.val; omega

/-- The window sum plus the weight sum at a position and channel, over the arrays as the region finds them. -/
private def winVal (c : Dev nD) (n : Fin 8) (q : Fin 16384) (k : Fin 64) : EReal :=
  (∑ j : Fin 9, nbrTArr V c (ix4 n q k j)) + wsumArr V c (ix3 n q 0)

/-- The whole output array the window-sum region computes, as one function of the index. -/
private def winG (c : Dev nD) : S8x16384x64.Idx → EReal := fun i => winVal V c (i 0) (i 1) (i 2)

/-- What grid point `t` writes back is its block of `winG`. -/
private theorem flushed1_eq (c : Dev nD) (t : Fin cfg1.N) :
    (WinSum.dat (F := Ideal) V c).flushed 2 t = ((cfg1.win 2).blk t).view.read (Elt Ideal) (winG V c) := by
  show (cfg1.win 2).cut (grid1.coords t) ((WinSum.dat V c).after 2 t) = _
  rw [WinSum.dat_after_out]
  unfold WinSum.outBlock
  rw [View.canon_unit_zero hz3]
  simp only [View.ld_unit_zero (S := S1x512x64x9) hz4, View.ld_unit_zero (S := S1x512x1) hz3]
  refine funext fun (y : S1x512x64.Idx) => ?_
  obtain ⟨a, r, k, rfl⟩ : ∃ (a : Fin 1) (r : Fin 512) (k : Fin 64), y = ix3 a r k := ⟨y 0, y 1, y 2, eq_ix3 y⟩
  obtain ⟨-, -, -, -, -, -, -, e0, e1, e2⟩ := idx_facts1 t
  obtain ⟨n, q, k', hi⟩ : ∃ (n : Fin 8) (q : Fin 16384) (k' : Fin 64),
      ((cfg1.win 2).blk t).view.emb (ix3 a r k) = ix3 n q k' := ⟨_, _, _, eq_ix3 _⟩
  have hn : win1_2.index t 0 * 1 + 1 * a.val = n.val := congrArg (fun i : S8x16384x64.Idx => (i 0).val) hi
  have hq : win1_2.index t 1 * 512 + 1 * r.val = q.val := congrArg (fun i : S8x16384x64.Idx => (i 1).val) hi
  have hk : win1_2.index t 2 * 64 + 1 * k.val = k'.val := congrArg (fun i : S8x16384x64.Idx => (i 2).val) hi
  obtain rfl : k = k' := Fin.ext (by omega)
  have hx : (cfg1.win 2).xinj (grid1.coords t) (ix3 a r k) = ix3 a r k := by
    funext d; apply Fin.ext
    match d with
    | ⟨0, _⟩ => rfl
    | ⟨1, _⟩ => rfl
    | ⟨2, _⟩ => rfl
  show k1_pay1 (WinSum.blk V c 0 t) (WinSum.blk V c 1 t) ((cfg1.win 2).xinj (grid1.coords t) (ix3 a r k)) = _
  refine (congrArg _ hx).trans ?_
  rw [View.read_apply]
  show _ = winG V c (((cfg1.win 2).blk t).view.emb (ix3 a r k))
  rw [hi]
  show _ = winVal V c n q k
  refine (pay1_apply _ _ a r k).trans ?_
  unfold winVal
  rw [wsumBlk_apply V c t a r 0 n q (by omega) (by omega)]
  congr 1
  refine Finset.sum_congr rfl fun j _ => ?_
  rw [nbrTBlk_apply V c t a r k j n q (by omega) (by omega)]

/-- An index of the output array lies in the block of the point its batch entry and row block name. -/
private theorem mem_blk1 (t : Fin cfg1.N) (i : S8x16384x64.Idx) (h0 : (i 0).val = t.val / 32) (h1 : (i 1).val / 512 = t.val % 32) :
    i ∈ ((cfg1.win 2).blk t).view.set := by
  have h2 : (i 2).val < 64 := (i 2).isLt
  obtain ⟨-, -, -, -, -, -, -, e0, e1, e2⟩ := idx_facts1 t
  show i ∈ ((View.whole main_v46).slice (win1_2.rect t)).set
  rw [View.set_slice_whole, Rect.mem_set_unit]
  intro d
  match d with
  | ⟨0, _⟩ => show win1_2.index t 0 * 1 ≤ (i 0).val ∧ (i 0).val < win1_2.index t 0 * 1 + 1; omega
  | ⟨1, _⟩ => show win1_2.index t 1 * 512 ≤ (i 1).val ∧ (i 1).val < win1_2.index t 1 * 512 + 512; omega
  | ⟨2, _⟩ => show win1_2.index t 2 * 64 ≤ (i 2).val ∧ (i 2).val < win1_2.index t 2 * 64 + 64; omega

/-- The points' blocks cover the output array: row `q` of batch entry `n` is in the block of point `32 n + q / 512`. -/
private theorem cover1 (i : S8x16384x64.Idx) : ∃ t : Fin cfg1.N, (cfg1.win 2).flush t = true ∧ i ∈ ((cfg1.win 2).blk t).view.set := by
  have h0 : (i 0).val < 8 := (i 0).isLt
  have h1 : (i 1).val < 16384 := (i 1).isLt
  have hN : cfg1.N = 256 := N_1
  exact ⟨⟨(i 0).val * 32 + (i 1).val / 512, by rw [hN]; omega⟩, flush1_2 _,
    mem_blk1 _ i (by show _ = ((i 0).val * 32 + (i 1).val / 512) / 32; omega)
      (by show _ = ((i 0).val * 32 + (i 1).val / 512) % 32; omega)⟩

/-! ## The two output arrays at an index -/

/-- The channel-sum region's output array, at position `(n, q)` and window cell `j`: the sum over the channels of the
    neighbourhood array plus the centre array, as the region found them. -/
theorem chan_array (c : Dev nD) (n : Fin 8) (q : Fin 16384) (j : Fin 9) :
    chanOut V c (ix3 n q j) = ∑ k : Fin 64, (nbrArr V c (ix4 n q j k) + ctrArr V c (ix3 n q k)) := by
  have h := (ChanSum.dat (F := Ideal) V c).arrAt_eq_of_cover 2 (chanG V c) (fun t _ => flushed0_eq V c t) cover0
  show (ChanSum.dat (F := Ideal) V c).arrAt 2 cfg0.N (ix3 n q j) = _
  rw [h]
  rfl

/-- The window-sum region's output array, at position `(n, q)` and channel `k`: the sum over the nine window cells of the
    channel-major neighbourhood array plus the weight sum at the position. -/
theorem win_array (c : Dev nD) (n : Fin 8) (q : Fin 16384) (k : Fin 64) :
    winOut V c (ix3 n q k) = (∑ j : Fin 9, nbrTArr V c (ix4 n q k j)) + wsumArr V c (ix3 n q 0) := by
  have h := (WinSum.dat (F := Ideal) V c).arrAt_eq_of_cover 2 (winG V c) (fun t _ => flushed1_eq V c t) cover1
  show (WinSum.dat (F := Ideal) V c).arrAt 2 cfg1.N (ix3 n q k) = _
  rw [h]
  rfl

end Cert.KernelIdeal.Arrays

end
-- ==== Proof.LibReduceRead.lean ====
import Idealize.ShloMosaic.PureOps.Ideal.Laws
import Idealize.ShloMosaic.Lib.ValueIdx
import Idealize.ShloMosaic.Lib.IdealHost

/-! # Reductions read at explicit coordinates (ideal instance), generic in the extents

A host `reduce` with an `add` body over ONE axis (a middle axis of a rank-3 or rank-4 array, the last axis of a rank-3 or
rank-5 array) or over the TWO TRAILING axes of a rank-4 or rank-5 array is, at a result index written by its
coordinates, the initial value plus the plain sum over the reduced coordinates. A host `reduce` with a `maximum` body over
a middle axis is the fold of `max` over that coordinate. A vector lane sum over the last axis of a rank-4 vector is the
plain sum over the lane. The f32 pattern `0xFF800000` is `⊥`. -/

noncomputable section

namespace Cert.ReduceRead

open Idealize.ShloMosaic Idealize.ShloMosaic.ValueIdx

/-- The f32 pattern of minus infinity is the bottom of the extended reals. -/
theorem ofBits_neg_inf_f32 : Ideal.ofBits .f32 0xFF800000#32 = (⊥ : EReal) := by
  simp [Ideal.ofBits, Ideal.ieee]

/-- Host sum over the middle axis of a rank-3 array. -/
theorem hostReduceAdd_mid3 {A K C : Nat} (h' : (⟨3, ![A, K, C]⟩ : Shape).ReducesTo [1] ⟨2, ![A, C]⟩)
    (x : (⟨3, ![A, K, C]⟩ : Shape).Idx → EReal) (init : EReal) (a : Fin A) (c : Fin C) :
    Ideal.hostReduceAdd h' x init (ix2 a c) = init + ∑ k : Fin K, x (ix3 a k c) := by
  have h : (⟨3, ![A, K, C]⟩ : Shape).Reduces [1] ⟨2, ![A, C]⟩ := ⟨h'.1, Nat.succ_pos 1, h'.2⟩
  refine (Ideal.hostReduceAdd_single h' h x init (ix2 a c)).trans ?_
  refine congrArg (init + ·) (Finset.sum_congr rfl fun k _ => congrArg x ?_)
  funext e
  match e with
  | ⟨0, _⟩ => rfl
  | ⟨1, _⟩ => rfl
  | ⟨2, _⟩ => rfl

/-- Host sum over the last axis of a rank-3 array. -/
theorem hostReduceAdd_last3 {A B K : Nat} (h' : (⟨3, ![A, B, K]⟩ : Shape).ReducesTo [2] ⟨2, ![A, B]⟩)
    (x : (⟨3, ![A, B, K]⟩ : Shape).Idx → EReal) (init : EReal) (a : Fin A) (b : Fin B) :
    Ideal.hostReduceAdd h' x init (ix2 a b) = init + ∑ k : Fin K, x (ix3 a b k) := by
  have h : (⟨3, ![A, B, K]⟩ : Shape).Reduces [2] ⟨2, ![A, B]⟩ := ⟨h'.1, Nat.succ_pos 1, h'.2⟩
  refine (Ideal.hostReduceAdd_single h' h x init (ix2 a b)).trans ?_
  refine congrArg (init + ·) (Finset.sum_congr rfl fun k _ => congrArg x ?_)
  funext e
  match e with
  | ⟨0, _⟩ => rfl
  | ⟨1, _⟩ => rfl
  | ⟨2, _⟩ => rfl

/-- Host sum over the second axis of a rank-4 array. -/
theorem hostReduceAdd_mid4 {A K C D : Nat} (h' : (⟨4, ![A, K, C, D]⟩ : Shape).ReducesTo [1] ⟨3, ![A, C, D]⟩)
    (x : (⟨4, ![A, K, C, D]⟩ : Shape).Idx → EReal) (init : EReal) (a : Fin A) (c : Fin C) (d : Fin D) :
    Ideal.hostReduceAdd h' x init (ix3 a c d) = init + ∑ k : Fin K, x (ix4 a k c d) := by
  have h : (⟨4, ![A, K, C, D]⟩ : Shape).Reduces [1] ⟨3, ![A, C, D]⟩ := ⟨h'.1, Nat.succ_pos 2, h'.2⟩
  refine (Ideal.hostReduceAdd_single h' h x init (ix3 a c d)).trans ?_
  refine congrArg (init + ·) (Finset.sum_congr rfl fun k _ => congrArg x ?_)
  funext e
  match e with
  | ⟨0, _⟩ => rfl
  | ⟨1, _⟩ => rfl
  | ⟨2, _⟩ => rfl
  | ⟨3, _⟩ => rfl

/-- Host sum over the last axis of a rank-5 array. -/
theorem hostReduceAdd_last5 {A B C D K : Nat} (h' : (⟨5, ![A, B, C, D, K]⟩ : Shape).ReducesTo [4] ⟨4, ![A, B, C, D]⟩)
    (x : (⟨5, ![A, B, C, D, K]⟩ : Shape).Idx → EReal) (init : EReal) (a : Fin A) (b : Fin B) (c : Fin C) (d : Fin D) :
    Ideal.hostReduceAdd h' x init (ix4 a b c d) = init + ∑ k : Fin K, x (ix5 a b c d k) := by
  have h : (⟨5, ![A, B, C, D, K]⟩ : Shape).Reduces [4] ⟨4, ![A, B, C, D]⟩ := ⟨h'.1, Nat.succ_pos 3, h'.2⟩
  refine (Ideal.hostReduceAdd_single h' h x init (ix4 a b c d)).trans ?_
  refine congrArg (init + ·) (Finset.sum_congr rfl fun k _ => congrArg x ?_)
  funext e
  match e with
  | ⟨0, _⟩ => rfl
  | ⟨1, _⟩ => rfl
  | ⟨2, _⟩ => rfl
  | ⟨3, _⟩ => rfl
  | ⟨4, _⟩ => rfl

/-- Host sum over the two trailing axes of a rank-4 array. -/
theorem hostReduceAdd_trail4 {A B C D : Nat} (h' : (⟨4, ![A, B, C, D]⟩ : Shape).ReducesTo [2, 3] ⟨2, ![A, B]⟩)
    (x : (⟨4, ![A, B, C, D]⟩ : Shape).Idx → EReal) (init : EReal) (a : Fin A) (b : Fin B) :
    Ideal.hostReduceAdd h' x init (ix2 a b) = init + ∑ c : Fin C, ∑ d : Fin D, x (ix4 a b c d) := by
  unfold Ideal.hostReduceAdd
  refine congrArg (init + ·) ?_
  rw [← Finset.sum_product' (s := (Finset.univ : Finset (Fin C))) (t := (Finset.univ : Finset (Fin D)))
    (f := fun c d => x (ix4 a b c d))]
  -- the two kept coordinates of a dropped index are the source's two leading ones
  have hd0 : ∀ i : (⟨4, ![A, B, C, D]⟩ : Shape).Idx, (h'.drop i (0 : Fin 2) : Nat) = i (0 : Fin 4) := fun _ => rfl
  have hd1 : ∀ i : (⟨4, ![A, B, C, D]⟩ : Shape).Idx, (h'.drop i (1 : Fin 2) : Nat) = i (1 : Fin 4) := fun _ => rfl
  -- so an index that drops to (a, b) is (a, b, its third coordinate, its fourth)
  have key : ∀ i ∈ Finset.univ.filter (fun i => h'.drop i = ix2 a b), ix4 a b (i 2 : Fin C) (i 3 : Fin D) = i := by
    intro i hi
    have hj := (Finset.mem_filter.1 hi).2
    have h0 : (i (0 : Fin 4) : Nat) = a := by rw [← hd0 i, hj]
    have h1 : (i (1 : Fin 4) : Nat) = b := by rw [← hd1 i, hj]
    funext e
    match e with
    | ⟨0, _⟩ => exact Fin.ext h0.symm
    | ⟨1, _⟩ => exact Fin.ext h1.symm
    | ⟨2, _⟩ => rfl
    | ⟨3, _⟩ => rfl
  refine Finset.sum_nbij' (fun i => ((i 2 : Fin C), (i 3 : Fin D)))
    (fun p => ix4 a b p.1 p.2) ?_ ?_ ?_ ?_ ?_
  · intro i _; exact Finset.mem_product.2 ⟨Finset.mem_univ _, Finset.mem_univ _⟩
  · intro p _
    refine Finset.mem_filter.2 ⟨Finset.mem_univ _, ?_⟩
    funext e
    match e with
    | ⟨0, _⟩ => exact Fin.ext (hd0 _)
    | ⟨1, _⟩ => exact Fin.ext (hd1 _)
  · intro i hi; exact key i hi
  · intro p _; rfl
  · intro i hi; exact congrArg x (key i hi).symm

/-- Host sum over the two trailing axes of a rank-5 array. -/
theorem hostReduceAdd_trail5 {A B C D E : Nat} (h' : (⟨5, ![A, B, C, D, E]⟩ : Shape).ReducesTo [3, 4] ⟨3, ![A, B, C]⟩)
    (x : (⟨5, ![A, B, C, D, E]⟩ : Shape).Idx → EReal) (init : EReal) (a : Fin A) (b : Fin B) (c : Fin C) :
    Ideal.hostReduceAdd h' x init (ix3 a b c) = init + ∑ d : Fin D, ∑ e : Fin E, x (ix5 a b c d e) := by
  unfold Ideal.hostReduceAdd
  refine congrArg (init + ·) ?_
  rw [← Finset.sum_product' (s := (Finset.univ : Finset (Fin D))) (t := (Finset.univ : Finset (Fin E)))
    (f := fun d e => x (ix5 a b c d e))]
  -- the three kept coordinates of a dropped index are the source's three leading ones
  have hd0 : ∀ i : (⟨5, ![A, B, C, D, E]⟩ : Shape).Idx, (h'.drop i (0 : Fin 3) : Nat) = i (0 : Fin 5) := fun _ => rfl
  have hd1 : ∀ i : (⟨5, ![A, B, C, D, E]⟩ : Shape).Idx, (h'.drop i (1 : Fin 3) : Nat) = i (1 : Fin 5) := fun _ => rfl
  have hd2 : ∀ i : (⟨5, ![A, B, C, D, E]⟩ : Shape).Idx, (h'.drop i (2 : Fin 3) : Nat) = i (2 : Fin 5) := fun _ => rfl
  -- so an index that drops to (a, b, c) is (a, b, c, its fourth coordinate, its fifth)
  have key : ∀ i ∈ Finset.univ.filter (fun i => h'.drop i = ix3 a b c), ix5 a b c (i 3 : Fin D) (i 4 : Fin E) = i := by
    intro i hi
    have hj := (Finset.mem_filter.1 hi).2
    have h0 : (i (0 : Fin 5) : Nat) = a := by rw [← hd0 i, hj]
    have h1 : (i (1 : Fin 5) : Nat) = b := by rw [← hd1 i, hj]
    have h2 : (i (2 : Fin 5) : Nat) = c := by rw [← hd2 i, hj]
    funext e
    match e with
    | ⟨0, _⟩ => exact Fin.ext h0.symm
    | ⟨1, _⟩ => exact Fin.ext h1.symm
    | ⟨2, _⟩ => exact Fin.ext h2.symm
    | ⟨3, _⟩ => rfl
    | ⟨4, _⟩ => rfl
  refine Finset.sum_nbij' (fun i => ((i 3 : Fin D), (i 4 : Fin E)))
    (fun p => ix5 a b c p.1 p.2) ?_ ?_ ?_ ?_ ?_
  · intro i _; exact Finset.mem_product.2 ⟨Finset.mem_univ _, Finset.mem_univ _⟩
  · intro p _
    refine Finset.mem_filter.2 ⟨Finset.mem_univ _, ?_⟩
    funext e
    match e with
    | ⟨0, _⟩ => exact Fin.ext (hd0 _)
    | ⟨1, _⟩ => exact Fin.ext (hd1 _)
    | ⟨2, _⟩ => exact Fin.ext (hd2 _)
  · intro i hi; exact key i hi
  · intro p _; rfl
  · intro i hi; exact congrArg x (key i hi).symm

/-- Host maximum over the middle axis of a rank-3 array: the fold of `max` from the initial value. -/
theorem hostReduceMax_mid3 {A K C : Nat} {u : Shape} (h' : (⟨3, ![A, K, C]⟩ : Shape).ReducesTo [1] ⟨2, ![A, C]⟩)
    (x : FVec Ideal ⟨3, ![A, K, C]⟩ .f32) (init : FVec Ideal u .f32) (hu : 0 < u.numel) (a : Fin A) (c : Fin C) :
    Host.reduce FloatOps.maximumf x init h' hu (ix2 a c)
      = (Finset.univ : Finset (Fin K)).fold max (init (Shape.Idx.first hu)) (fun k => x (ix3 a k c)) := by
  have h : (⟨3, ![A, K, C]⟩ : Shape).Reduces [1] ⟨2, ![A, C]⟩ := ⟨h'.1, Nat.succ_pos 1, h'.2⟩
  refine (Host.reduce_eq_fold_single FloatOps.maximumf x init h' h hu (ix2 a c)).trans ?_
  have hf : (x ∘ h.lift (ix2 a c)) = fun k : Fin K => x (ix3 a k c) := by
    funext k
    refine congrArg x ?_
    funext e
    match e with
    | ⟨0, _⟩ => rfl
    | ⟨1, _⟩ => rfl
    | ⟨2, _⟩ => rfl
  exact congrArg (fun f => Finset.fold max (init (Shape.Idx.first hu)) f (Finset.univ : Finset (Fin K))) hf

/-- Host maximum over the second axis of a rank-4 array. -/
theorem hostReduceMax_mid4 {A K C D : Nat} {u : Shape} (h' : (⟨4, ![A, K, C, D]⟩ : Shape).ReducesTo [1] ⟨3, ![A, C, D]⟩)
    (x : FVec Ideal ⟨4, ![A, K, C, D]⟩ .f32) (init : FVec Ideal u .f32) (hu : 0 < u.numel) (a : Fin A) (c : Fin C) (d : Fin D) :
    Host.reduce FloatOps.maximumf x init h' hu (ix3 a c d)
      = (Finset.univ : Finset (Fin K)).fold max (init (Shape.Idx.first hu)) (fun k => x (ix4 a k c d)) := by
  have h : (⟨4, ![A, K, C, D]⟩ : Shape).Reduces [1] ⟨3, ![A, C, D]⟩ := ⟨h'.1, Nat.succ_pos 2, h'.2⟩
  refine (Host.reduce_eq_fold_single FloatOps.maximumf x init h' h hu (ix3 a c d)).trans ?_
  have hf : (x ∘ h.lift (ix3 a c d)) = fun k : Fin K => x (ix4 a k c d) := by
    funext k
    refine congrArg x ?_
    funext e
    match e with
    | ⟨0, _⟩ => rfl
    | ⟨1, _⟩ => rfl
    | ⟨2, _⟩ => rfl
    | ⟨3, _⟩ => rfl
  exact congrArg (fun f => Finset.fold max (init (Shape.Idx.first hu)) f (Finset.univ : Finset (Fin K))) hf

/-- A vector lane sum over the last axis of a rank-4 vector into the zero accumulator. -/
theorem laneSum_last4 {A B C K : Nat} (src : FVec Ideal ⟨4, ![A, B, C, K]⟩ .f32) (acc : BitVec 32)
    (h : (⟨4, ![A, B, C, K]⟩ : Shape).Reduces [3] ⟨3, ![A, B, C]⟩) (hφ : FKind.Formats .f32) (hacc : acc = FKind.add.neutral .f32 hφ)
    (a : Fin A) (b : Fin B) (c : Fin C) :
    multiReduction .add [3] ⟨3, ![A, B, C]⟩ src acc h hφ hacc (ix3 a b c) = ∑ k : Fin K, src (ix4 a b c k) := by
  refine (Ideal.multiReduction_add_single src acc h hφ hacc (ix3 a b c)).trans ?_
  refine Finset.sum_congr rfl fun k _ => congrArg src ?_
  funext e
  match e with
  | ⟨0, _⟩ => rfl
  | ⟨1, _⟩ => rfl
  | ⟨2, _⟩ => rfl
  | ⟨3, _⟩ => rfl

end Cert.ReduceRead

end
-- ==== Proof.KI.HostValue.lean ====
import proofs.«164703_j67808943669345_1_alg».proof.Proof.Gen.KernelIdeal.Regions
import proofs.«164703_j67808943669345_1_alg».proof.Proof.Spec
import proofs.«164703_j67808943669345_1_alg».proof.Proof.LibReduceRead
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

/-! # What the host operations compute, read at an index (ideal instance)

Before the first region: the neighbourhood tensor (nine shifted copies of the zero-padded input, stacked) reshaped two
ways, and the input moved to channels-last; the regions see further reshapes of these that merge the 3 × 3 window into
one axis of nine cells and flatten the pixel grid. Between the regions: the softmax of the scores over the positions
and the sum of its nine weights. After the second region: a reshape. -/

set_option maxRecDepth 16384

noncomputable section

namespace Cert.KernelIdeal.HostValue

open Cert.KernelIdeal Cert.KernelIdeal.Gen Cert.RangeStep
open Idealize.ShloMosaic Idealize.ShloMosaic.TcCoe Idealize.ShloMosaic.ValueIdx
open Idealize.SL Idealize.SL.Sem

/-! ## The neighbourhood tensor as the leading host operations compose it -/

/-- The input with a border of zeros around each 128 × 128 image. -/
private def padded (x : FVec Ideal S8x64x128x128 .f32) : FVec Ideal S8x64x130x130 .f32 :=
  pad S8x64x130x130 ![0, 0, 1, 1] ![0, 0, 1, 1] ![0, 0, 0, 0] x (sitofp (F := Ideal) .f32 (constantI S_ 32 0#32))
    pads_S8x64x128x128_S8x64x130x130_000_000_110_110 h_S_

/-- The three column shifts of the padded input at row shift 0, stacked on a new trailing axis. -/
private def row0 (p : FVec Ideal S8x64x130x130 .f32) : FVec Ideal S8x64x128x128x3 .f32 :=
  concatenate S8x64x128x128x3 4
    [⟨S8x64x128x128x1, broadcastInDim S8x64x128x128x1 ![0, 1, 2, 3] bcast_S8x64x128x128_S8x64x128x128x1_0_1_2_3
        (extractStridedSlice S8x64x128x128 ![0, 0, 0, 0] p slices_S8x64x130x130_S8x64x128x128_0_0_0_0)⟩,
     ⟨S8x64x128x128x1, broadcastInDim S8x64x128x128x1 ![0, 1, 2, 3] bcast_S8x64x128x128_S8x64x128x128x1_0_1_2_3
        (extractStridedSlice S8x64x128x128 ![0, 0, 0, 1] p slices_S8x64x130x130_S8x64x128x128_0_0_0_1)⟩,
     ⟨S8x64x128x128x1, broadcastInDim S8x64x128x128x1 ![0, 1, 2, 3] bcast_S8x64x128x128_S8x64x128x128x1_0_1_2_3
        (extractStridedSlice S8x64x128x128 ![0, 0, 0, 2] p slices_S8x64x130x130_S8x64x128x128_0_0_0_2)⟩]
    concatenates_S8x64x128x128x1_S8x64x128x128x1_S8x64x128x128x1_S8x64x128x128x3_d4

/-- The same at row shift 1. -/
private def row1 (p : FVec Ideal S8x64x130x130 .f32) : FVec Ideal S8x64x128x128x3 .f32 :=
  concatenate S8x64x128x128x3 4
    [⟨S8x64x128x128x1, broadcastInDim S8x64x128x128x1 ![0, 1, 2, 3] bcast_S8x64x128x128_S8x64x128x128x1_0_1_2_3
        (extractStridedSlice S8x64x128x128 ![0, 0, 1, 0] p slices_S8x64x130x130_S8x64x128x128_0_0_1_0)⟩,
     ⟨S8x64x128x128x1, broadcastInDim S8x64x128x128x1 ![0, 1, 2, 3] bcast_S8x64x128x128_S8x64x128x128x1_0_1_2_3
        (extractStridedSlice S8x64x128x128 ![0, 0, 1, 1] p slices_S8x64x130x130_S8x64x128x128_0_0_1_1)⟩,
     ⟨S8x64x128x128x1, broadcastInDim S8x64x128x128x1 ![0, 1, 2, 3] bcast_S8x64x128x128_S8x64x128x128x1_0_1_2_3
        (extractStridedSlice S8x64x128x128 ![0, 0, 1, 2] p slices_S8x64x130x130_S8x64x128x128_0_0_1_2)⟩]
    concatenates_S8x64x128x128x1_S8x64x128x128x1_S8x64x128x128x1_S8x64x128x128x3_d4

/-- The same at row shift 2. -/
private def row2 (p : FVec Ideal S8x64x130x130 .f32) : FVec Ideal S8x64x128x128x3 .f32 :=
  concatenate S8x64x128x128x3 4
    [⟨S8x64x128x128x1, broadcastInDim S8x64x128x128x1 ![0, 1, 2, 3] bcast_S8x64x128x128_S8x64x128x128x1_0_1_2_3
        (extractStridedSlice S8x64x128x128 ![0, 0, 2, 0] p slices_S8x64x130x130_S8x64x128x128_0_0_2_0)⟩,
     ⟨S8x64x128x128x1, broadcastInDim S8x64x128x128x1 ![0, 1, 2, 3] bcast_S8x64x128x128_S8x64x128x128x1_0_1_2_3
        (extractStridedSlice S8x64x128x128 ![0, 0, 2, 1] p slices_S8x64x130x130_S8x64x128x128_0_0_2_1)⟩,
     ⟨S8x64x128x128x1, broadcastInDim S8x64x128x128x1 ![0, 1, 2, 3] bcast_S8x64x128x128_S8x64x128x128x1_0_1_2_3
        (extractStridedSlice S8x64x128x128 ![0, 0, 2, 2] p slices_S8x64x130x130_S8x64x128x128_0_0_2_2)⟩]
    concatenates_S8x64x128x128x1_S8x64x128x128x1_S8x64x128x128x1_S8x64x128x128x3_d4

/-- Three rows, each given a unit axis before its own, stacked along it. -/
private def stack3 (r0 r1 r2 : FVec Ideal S8x64x128x128x3 .f32) : FVec Ideal S8x64x128x128x3x3 .f32 :=
  concatenate S8x64x128x128x3x3 4
    [⟨S8x64x128x128x1x3, broadcastInDim S8x64x128x128x1x3 ![0, 1, 2, 3, 5] bcast_S8x64x128x128x3_S8x64x128x128x1x3_0_1_2_3_5 r0⟩,
     ⟨S8x64x128x128x1x3, broadcastInDim S8x64x128x128x1x3 ![0, 1, 2, 3, 5] bcast_S8x64x128x128x3_S8x64x128x128x1x3_0_1_2_3_5 r1⟩,
     ⟨S8x64x128x128x1x3, broadcastInDim S8x64x128x128x1x3 ![0, 1, 2, 3, 5] bcast_S8x64x128x128x3_S8x64x128x128x1x3_0_1_2_3_5 r2⟩]
    concatenates_S8x64x128x128x1x3_S8x64x128x128x1x3_S8x64x128x128x1x3_S8x64x128x128x3x3_d4

/-- The nine shifted copies of the padded input `p`, stacked as `[8, 64, 128, 128, 3, 3]`: the three row shifts stacked. -/
private def patchesOf (p : FVec Ideal S8x64x130x130 .f32) : FVec Ideal S8x64x128x128x3x3 .f32 :=
  stack3 (row0 p) (row1 p) (row2 p)

/-- A three-operand operation's result with each operand's contents at its own reference. -/
private theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- Rewrites what a literal list of host operations leaves at a reference to the composed term. -/
local macro "host_results" : tactic =>
  `(tactic| (simp only [StableHlo.after_cons, StableHlo.after_nil]
             repeat (first
               | rw [StableHlo.nullary_result] | rw [StableHlo.unary_result] | rw [StableHlo.binary_result]
               | rw [StableHlo.reshape_result] | rw [nary3_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-! ## The leading host operations, run stretch by stretch -/

/-- Running two stretches of operations one after the other is running their concatenation. -/
private theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The operations that build row shift 0 of the neighbourhood tensor. -/
private abbrev opsA : List (HloOp τ sig (Elt Ideal)) := (hostOps0_2 (F := Ideal)).take 7
/-- Those for row shift 1. -/
private abbrev opsB : List (HloOp τ sig (Elt Ideal)) := ((hostOps0_2 (F := Ideal)).drop 7).take 7
/-- Those for row shift 2. -/
private abbrev opsC : List (HloOp τ sig (Elt Ideal)) := ((hostOps0_2 (F := Ideal)).drop 14).take 7
/-- The stacking of the three rows. -/
private abbrev opsD : List (HloOp τ sig (Elt Ideal)) := ((hostOps0_2 (F := Ideal)).drop 21).take 4
/-- The reshapes and the transpose. -/
private abbrev opsE : List (HloOp τ sig (Elt Ideal)) := (hostOps0_2 (F := Ideal)).drop 25

private theorem hostOps0_2_split :
    (hostOps0_2 (F := Ideal) : List (HloOp τ sig (Elt Ideal))) = opsA ++ (opsB ++ (opsC ++ (opsD ++ opsE))) := rfl

/-- Spells a stretch of the leading host operations out as a literal list, then rewrites what it leaves at a reference to
    the composed term. -/
local macro "stretch_results" : tactic =>
  `(tactic| (simp only [opsA, opsB, opsC, opsD, opsE, hostOps0_2, List.take_succ_cons, List.take_zero, List.drop_succ_cons, List.drop_zero]
             host_results))

/-! ### What each stretch leaves, over any contents `Y` before it -/

private theorem opsA_v7 (Y : Valuation τ sig (Elt Ideal)) :
    (StableHlo.after opsA Y (Proc.devRef .tc main_v7) : S8x64x128x128x3.Idx → EReal)
      = row0 (Y (Proc.devRef .tc main_v0) : S8x64x130x130.Idx → EReal) := by
  stretch_results
  rfl
private theorem opsA_keeps_main_v0 (Y : Valuation τ sig (Elt Ideal)) :
    StableHlo.after opsA Y (Proc.devRef .tc main_v0) = Y (Proc.devRef .tc main_v0) := by
  stretch_results
private theorem opsA_keeps_main_arg0 (Y : Valuation τ sig (Elt Ideal)) :
    StableHlo.after opsA Y (Proc.devRef .tc main_arg0) = Y (Proc.devRef .tc main_arg0) := by
  stretch_results

private theorem opsB_v14 (Y : Valuation τ sig (Elt Ideal)) :
    (StableHlo.after opsB Y (Proc.devRef .tc main_v14) : S8x64x128x128x3.Idx → EReal)
      = row1 (Y (Proc.devRef .tc main_v0) : S8x64x130x130.Idx → EReal) := by
  stretch_results
  rfl
private theorem opsB_keeps_main_v0 (Y : Valuation τ sig (Elt Ideal)) :
    StableHlo.after opsB Y (Proc.devRef .tc main_v0) = Y (Proc.devRef .tc main_v0) := by
  stretch_results
private theorem opsB_keeps_main_v7 (Y : Valuation τ sig (Elt Ideal)) :
    StableHlo.after opsB Y (Proc.devRef .tc main_v7) = Y (Proc.devRef .tc main_v7) := by
  stretch_results
private theorem opsB_keeps_main_arg0 (Y : Valuation τ sig (Elt Ideal)) :
    StableHlo.after opsB Y (Proc.devRef .tc main_arg0) = Y (Proc.devRef .tc main_arg0) := by
  stretch_results

private theorem opsC_v21 (Y : Valuation τ sig (Elt Ideal)) :
    (StableHlo.after opsC Y (Proc.devRef .tc main_v21) : S8x64x128x128x3.Idx → EReal)
      = row2 (Y (Proc.devRef .tc main_v0) : S8x64x130x130.Idx → EReal) := by
  stretch_results
  rfl
private theorem opsC_keeps_main_v7 (Y : Valuation τ sig (Elt Ideal)) :
    StableHlo.after opsC Y (Proc.devRef .tc main_v7) = Y (Proc.devRef .tc main_v7) := by
  stretch_results
private theorem opsC_keeps_main_v14 (Y : Valuation τ sig (Elt Ideal)) :
    StableHlo.after opsC Y (Proc.devRef .tc main_v14) = Y (Proc.devRef .tc main_v14) := by
  stretch_results
private theorem opsC_keeps_main_arg0 (Y : Valuation τ sig (Elt Ideal)) :
    StableHlo.after opsC Y (Proc.devRef .tc main_arg0) = Y (Proc.devRef .tc main_arg0) := by
  stretch_results

private theorem opsD_v25 (Y : Valuation τ sig (Elt Ideal)) :
    (StableHlo.after opsD Y (Proc.devRef .tc main_v25) : S8x64x128x128x3x3.Idx → EReal)
      = stack3 (Y (Proc.devRef .tc main_v7) : S8x64x128x128x3.Idx → EReal) (Y (Proc.devRef .tc main_v14) : S8x64x128x128x3.Idx → EReal)
          (Y (Proc.devRef .tc main_v21) : S8x64x128x128x3.Idx → EReal) := by
  stretch_results
  rfl
private theorem opsD_keeps_main_arg0 (Y : Valuation τ sig (Elt Ideal)) :
    StableHlo.after opsD Y (Proc.devRef .tc main_arg0) = Y (Proc.devRef .tc main_arg0) := by
  stretch_results

private theorem opsE_v30 (Y : Valuation τ sig (Elt Ideal)) :
    (StableHlo.after opsE Y (Proc.devRef .tc main_v30) : S8x16384x9x64.Idx → EReal)
      = shapeCast S8x16384x9x64 (shapeCast S8x16384x3x3x64 (Y (Proc.devRef .tc main_v25) : S8x64x128x128x3x3.Idx → EReal)
          shapeCasts_S8x64x128x128x3x3_S8x16384x3x3x64) shapeCasts_S8x16384x3x3x64_S8x16384x9x64 := by
  stretch_results
  rfl

private theorem opsE_v31 (Y : Valuation τ sig (Elt Ideal)) :
    (StableHlo.after opsE Y (Proc.devRef .tc main_v31) : S8x16384x64x9.Idx → EReal)
      = shapeCast S8x16384x64x9 (shapeCast S8x16384x64x3x3 (Y (Proc.devRef .tc main_v25) : S8x64x128x128x3x3.Idx → EReal)
          shapeCasts_S8x64x128x128x3x3_S8x16384x64x3x3) shapeCasts_S8x16384x64x3x3_S8x16384x64x9 := by
  stretch_results
  rfl

private theorem opsE_v29 (Y : Valuation τ sig (Elt Ideal)) :
    (StableHlo.after opsE Y (Proc.devRef .tc main_v29) : S8x16384x64.Idx → EReal)
      = shapeCast S8x16384x64 (transpose S8x128x128x64 [0, 2, 3, 1] (Y (Proc.devRef .tc main_arg0) : S8x64x128x128.Idx → EReal)
          transposes_S8x64x128x128_S8x128x128x64_0_2_3_1) shapeCasts_S8x128x128x64_S8x16384x64 := by
  stretch_results
  rfl

/-! ### The stretches composed -/

/-- After the first four stretches the stacked tensor is `patchesOf` of the padded input found before them. -/
private theorem lead_v25 (X : Valuation τ sig (Elt Ideal)) :
    (StableHlo.after opsD (StableHlo.after opsC (StableHlo.after opsB (StableHlo.after opsA X))) (Proc.devRef .tc main_v25)
        : S8x64x128x128x3x3.Idx → EReal)
      = patchesOf (X (Proc.devRef .tc main_v0) : S8x64x130x130.Idx → EReal) := by
  rw [opsD_v25, opsC_keeps_main_v7, opsC_keeps_main_v14, opsC_v21, opsB_keeps_main_v7, opsB_v14, opsB_keeps_main_v0,
    opsA_v7, opsA_keeps_main_v0]
  rfl

/-- All five stretches: the merged-window neighbourhood array. -/
private theorem lead_v30 (X : Valuation τ sig (Elt Ideal)) :
    (StableHlo.after hostOps0_2 X (Proc.devRef .tc main_v30) : S8x16384x9x64.Idx → EReal)
      = shapeCast S8x16384x9x64 (shapeCast S8x16384x3x3x64 (patchesOf (X (Proc.devRef .tc main_v0) : S8x64x130x130.Idx → EReal))
          shapeCasts_S8x64x128x128x3x3_S8x16384x3x3x64) shapeCasts_S8x16384x3x3x64_S8x16384x9x64 := by
  rw [hostOps0_2_split, after_append, after_append, after_append, after_append, opsE_v30, lead_v25]

/-- The channel-major one. -/
private theorem lead_v31 (X : Valuation τ sig (Elt Ideal)) :
    (StableHlo.after hostOps0_2 X (Proc.devRef .tc main_v31) : S8x16384x64x9.Idx → EReal)
      = shapeCast S8x16384x64x9 (shapeCast S8x16384x64x3x3 (patchesOf (X (Proc.devRef .tc main_v0) : S8x64x130x130.Idx → EReal))
          shapeCasts_S8x64x128x128x3x3_S8x16384x64x3x3) shapeCasts_S8x16384x64x3x3_S8x16384x64x9 := by
  rw [hostOps0_2_split, after_append, after_append, after_append, after_append, opsE_v31, lead_v25]

/-- The centre array: the input transposed to channels-last, the pixel grid flattened. -/
private theorem lead_v29 (X : Valuation τ sig (Elt Ideal)) :
    (StableHlo.after hostOps0_2 X (Proc.devRef .tc main_v29) : S8x16384x64.Idx → EReal)
      = shapeCast S8x16384x64 (transpose S8x128x128x64 [0, 2, 3, 1] (X (Proc.devRef .tc main_arg0) : S8x64x128x128.Idx → EReal)
          transposes_S8x64x128x128_S8x128x128x64_0_2_3_1) shapeCasts_S8x128x128x64_S8x16384x64 := by
  rw [hostOps0_2_split, after_append, after_append, after_append, after_append, opsE_v29, opsD_keeps_main_arg0,
    opsC_keeps_main_arg0, opsB_keeps_main_arg0, opsA_keeps_main_arg0]

/-- The padding stretch: the input `x` it finds, padded with the scalar it converts from the integer `z` it finds. -/
private theorem lead_v0 (X : Valuation τ sig (Elt Ideal)) (x : FVec Ideal S8x64x128x128 .f32) (z : IVec S_ 32)
    (hx : (X (Proc.devRef .tc main_arg0) : S8x64x128x128.Idx → EReal) = x) (hz : (X (Proc.devRef .tc main_c) : IVec S_ 32) = z) :
    (StableHlo.after hostOps0_1 X (Proc.devRef .tc main_v0) : S8x64x130x130.Idx → EReal)
      = pad S8x64x130x130 ![0, 0, 1, 1] ![0, 0, 1, 1] ![0, 0, 0, 0] x (sitofp (F := Ideal) .f32 z)
          pads_S8x64x128x128_S8x64x130x130_000_000_110_110 h_S_ := by
  subst hx hz
  host_results
  rfl

/-- The first stretch leaves the integer zero. -/
private theorem lead_c (X : Valuation τ sig (Elt Ideal)) :
    (StableHlo.after hostOps0 X (Proc.devRef .tc main_c) : IVec S_ 32) = constantI S_ 32 0#32 := by
  host_results

/-! ## The three arrays of the input the regions read -/

/-- The neighbourhood tensor read as `[8, 16384, 3, 3, 64]`, of the input `x`. -/
def nbr (x : FVec Ideal S8x64x128x128 .f32) : FVec Ideal S8x16384x3x3x64 .f32 :=
  shapeCast S8x16384x3x3x64 (patchesOf (padded x)) shapeCasts_S8x64x128x128x3x3_S8x16384x3x3x64
/-- The same buffer read as `[8, 16384, 64, 3, 3]`. -/
def nbrT (x : FVec Ideal S8x64x128x128 .f32) : FVec Ideal S8x16384x64x3x3 .f32 :=
  shapeCast S8x16384x64x3x3 (patchesOf (padded x)) shapeCasts_S8x64x128x128x3x3_S8x16384x64x3x3
/-- The input moved to channels-last. -/
def chl (x : FVec Ideal S8x64x128x128 .f32) : FVec Ideal S8x128x128x64 .f32 :=
  transpose S8x128x128x64 [0, 2, 3, 1] x transposes_S8x64x128x128_S8x128x128x64_0_2_3_1

variable (m : (ℓ : Loc nD τ sig) → Buf (Elt Ideal) ℓ)

/-- The input array on core `c`. -/
abbrev inp (c : Dev nD) : FVec Ideal S8x64x128x128 .f32 := m ((c : Thread nD τ).loc main_arg0)

/-- The padded input, as the third stretch finds it on core `c`. -/
private theorem V2_v0 (c : Dev nD) :
    (V2 m c (Proc.devRef .tc main_v0) : S8x64x130x130.Idx → EReal) = padded (inp m c) :=
  lead_v0 (V1 m c) (inp m c) (constantI S_ 32 0#32) (V1_of m c main_arg0 (by decide)) (lead_c (V0 m c))

/-- The input, as the third stretch finds it on core `c`. -/
private theorem V2_arg0 (c : Dev nD) :
    (V2 m c (Proc.devRef .tc main_arg0) : S8x64x128x128.Idx → EReal) = inp m c :=
  (V2_of m c main_arg0 (by decide)).trans (V1_of m c main_arg0 (by decide))

private theorem V3_v30 (c : Dev nD) :
    (V3 m c main_v30 : S8x16384x9x64.Idx → EReal)
      = shapeCast S8x16384x9x64 (nbr (inp m c)) shapeCasts_S8x16384x3x3x64_S8x16384x9x64 :=
  (lead_v30 (V2 m c)).trans (congrArg (fun p : FVec Ideal S8x64x130x130 .f32 =>
    shapeCast S8x16384x9x64 (shapeCast S8x16384x3x3x64 (patchesOf p) shapeCasts_S8x64x128x128x3x3_S8x16384x3x3x64)
      shapeCasts_S8x16384x3x3x64_S8x16384x9x64) (V2_v0 m c))

private theorem V3_v31 (c : Dev nD) :
    (V3 m c main_v31 : S8x16384x64x9.Idx → EReal)
      = shapeCast S8x16384x64x9 (nbrT (inp m c)) shapeCasts_S8x16384x64x3x3_S8x16384x64x9 :=
  (lead_v31 (V2 m c)).trans (congrArg (fun p : FVec Ideal S8x64x130x130 .f32 =>
    shapeCast S8x16384x64x9 (shapeCast S8x16384x64x3x3 (patchesOf p) shapeCasts_S8x64x128x128x3x3_S8x16384x64x3x3)
      shapeCasts_S8x16384x64x3x3_S8x16384x64x9) (V2_v0 m c))

private theorem V3_v29 (c : Dev nD) :
    (V3 m c main_v29 : S8x16384x64.Idx → EReal)
      = shapeCast S8x16384x64 (chl (inp m c)) shapeCasts_S8x128x128x64_S8x16384x64 :=
  (lead_v29 (V2 m c)).trans (congrArg (fun x : FVec Ideal S8x64x128x128 .f32 =>
    shapeCast S8x16384x64 (transpose S8x128x128x64 [0, 2, 3, 1] x transposes_S8x64x128x128_S8x128x128x64_0_2_3_1)
      shapeCasts_S8x128x128x64_S8x16384x64) (V2_arg0 m c))

/-- What the channel-sum region finds in its first window's array: the neighbourhood tensor with the window merged. -/
theorem chan_nbr (c : Dev nD) (n : Fin 8) (q : Fin 16384) (j : Fin 9) (k : Fin 64) :
    (V3 m c main_v30 : S8x16384x9x64.Idx → EReal) (ix4 n q j k) = nbr (inp m c) (ix5 n q (cellRow j) (cellCol j) k) := by
  refine (congrFun (V3_v30 m c) _).trans ?_
  refine shapeCast_apply _ _ _ _ ?_
  rw [Shape.rowMajor_val_five, Shape.rowMajor_val_four]
  show (((n.val * 16384 + q.val) * 3 + j.val / 3) * 3 + j.val % 3) * 64 + k.val = ((n.val * 16384 + q.val) * 9 + j.val) * 64 + k.val
  omega

/-- What it finds in its second window's array: the centre pixel's channels. -/
theorem chan_ctr (c : Dev nD) (n : Fin 8) (q : Fin 16384) (k : Fin 64) :
    (V3 m c main_v29 : S8x16384x64.Idx → EReal) (ix3 n q k) = chl (inp m c) (ix4 n (rowOf q) (colOf q) k) := by
  refine (congrFun (V3_v29 m c) _).trans ?_
  refine shapeCast_apply _ _ _ _ ?_
  rw [Shape.rowMajor_val_four, Shape.rowMajor_val_three]
  show ((n.val * 128 + q.val / 128) * 128 + q.val % 128) * 64 + k.val = (n.val * 16384 + q.val) * 64 + k.val
  omega

/-- The channel-major neighbourhood array with the window merged, as the leading host operations leave it. -/
theorem win_nbr (c : Dev nD) (n : Fin 8) (q : Fin 16384) (k : Fin 64) (j : Fin 9) :
    (V3 m c main_v31 : S8x16384x64x9.Idx → EReal) (ix4 n q k j) = nbrT (inp m c) (ix5 n q k (cellRow j) (cellCol j)) := by
  refine (congrFun (V3_v31 m c) _).trans ?_
  refine shapeCast_apply _ _ _ _ ?_
  rw [Shape.rowMajor_val_five, Shape.rowMajor_val_four]
  show (((n.val * 16384 + q.val) * 64 + k.val) * 3 + j.val / 3) * 3 + j.val % 3 = ((n.val * 16384 + q.val) * 64 + k.val) * 9 + j.val
  omega

/-- The host operations between the regions leave the channel-major neighbourhood array alone. -/
theorem mid_keeps_nbr (W : Valuation τ sig (Elt Ideal)) :
    StableHlo.after hostOps1 W (Proc.devRef .tc main_v31) = W (Proc.devRef .tc main_v31) :=
  StableHlo.after_of_writes_sub hostOps1 W hostOps1_writes (r := main_v31) (by decide)

/-! ## The softmax chain between the regions, read at an index -/

/-- The scores' array type, spelt out. -/
private abbrev Scores : Type := S8x16384x9.Idx → EReal

/-- The shift: per batch entry and window cell, the larger of minus infinity and the maximum over the positions. -/
private def shiftArr (p : Scores) : S8x9.Idx → EReal :=
  maximumf (F := Ideal) (φ := .f32) (broadcastInDim S8x9 ![] bcast_S_S8x9 (constant (F := Ideal) S_ .f32 0xFF800000#32))
    (Host.reduce FloatOps.maximumf (p : FVec Ideal S8x16384x9 .f32) (constant (F := Ideal) S_ .f32 0xFF800000#32) reducesTo_S8x16384x9_S8x9_d1 h_S_)

/-- The exponentials of the shifted scores. -/
private def expArr (p : Scores) : Scores :=
  Host.exp (F := Ideal) (φ := .f32) (subf (F := Ideal) (φ := .f32) p
    (broadcastInDim S8x16384x9 ![0, 1, 2] bcast_S8x1x9_S8x16384x9_0_1_2
      (broadcastInDim S8x1x9 ![0, 2] bcast_S8x9_S8x1x9_0_2 (shiftArr p))))

/-- Their sums over the positions. -/
private def sumArr (p : Scores) : S8x9.Idx → EReal :=
  Host.reduceAdd (F := Ideal) (φ := .f32) (expArr p) (constant (F := Ideal) S_ .f32 0x00000000#32) reducesTo_S8x16384x9_S8x9_d1 h_S_

/-- The softmax weights. -/
private def smArr (p : Scores) : Scores :=
  Host.divf (F := Ideal) (φ := .f32) (expArr p)
    (broadcastInDim S8x16384x9 ![0, 1, 2] bcast_S8x1x9_S8x16384x9_0_1_2
      (broadcastInDim S8x1x9 ![0, 2] bcast_S8x9_S8x1x9_0_2 (sumArr p)))

/-- The weights summed over the nine window cells, with a trailing unit axis. -/
private def wsumArr (p : Scores) : S8x16384x1.Idx → EReal :=
  broadcastInDim S8x16384x1 ![0, 1] bcast_S8x16384_S8x16384x1_0_1
    (Host.reduceAdd (F := Ideal) (φ := .f32) (smArr p) (constant (F := Ideal) S_ .f32 0x00000000#32) reducesTo_S8x16384x9_S8x16384_d2 h_S_)

private theorem shiftArr_apply (p : Scores) (n : Fin 8) (j : Fin 9) :
    shiftArr p (ix2 n j) = max ⊥ ((Finset.univ : Finset (Fin 16384)).fold max ⊥ fun q' => p (ix3 n q' j)) := by
  unfold shiftArr
  rw [maximumf_apply, broadcastInDim_scalar_apply, constant_apply, Cert.ReduceRead.ofBits_neg_inf_f32,
    Cert.ReduceRead.hostReduceMax_mid3, constant_apply, Cert.ReduceRead.ofBits_neg_inf_f32]

/-- A `[8, 9]` array broadcast to `[8, 1, 9]` and then to `[8, 16384, 9]` reads, at `(n, q, j)`, the operand at `(n, j)`. -/
private theorem bcast2_apply (v : S8x9.Idx → EReal) (n : Fin 8) (q : Fin 16384) (j : Fin 9) :
    broadcastInDim S8x16384x9 ![0, 1, 2] bcast_S8x1x9_S8x16384x9_0_1_2
      (broadcastInDim S8x1x9 ![0, 2] bcast_S8x9_S8x1x9_0_2 v) (ix3 n q j) = v (ix2 n j) := by
  refine (broadcastInDim_apply _ _ _ (ix3 n q j) (ix3 n (0 : Fin 1) j) fun a => ?_).trans ?_
  · match a with
    | ⟨0, _⟩ => rfl
    | ⟨1, _⟩ => rfl
    | ⟨2, _⟩ => rfl
  · refine broadcastInDim_apply _ _ _ (ix3 n (0 : Fin 1) j) (ix2 n j) fun a => ?_
    match a with
    | ⟨0, _⟩ => rfl
    | ⟨1, _⟩ => rfl

private theorem expArr_apply (p : Scores) (n : Fin 8) (q : Fin 16384) (j : Fin 9) :
    expArr p (ix3 n q j) = Ideal.exp (p (ix3 n q j) - shiftArr p (ix2 n j)) := by
  unfold expArr
  show Ideal.exp (p (ix3 n q j) - _) = _
  rw [bcast2_apply]

private theorem sumArr_apply (p : Scores) (n : Fin 8) (j : Fin 9) :
    sumArr p (ix2 n j) = ∑ q' : Fin 16384, expArr p (ix3 n q' j) := by
  unfold sumArr
  rw [hostReduceAdd_apply, Cert.ReduceRead.hostReduceAdd_mid3, constant_apply, Ideal.ofBits_zero_f32, zero_add]

private theorem smArr_apply (p : Scores) (n : Fin 8) (q : Fin 16384) (j : Fin 9) :
    smArr p (ix3 n q j) = Ideal.div (expArr p (ix3 n q j)) (sumArr p (ix2 n j)) := by
  unfold smArr
  rw [hostDivf_apply, bcast2_apply]

private theorem wsumArr_apply (p : Scores) (n : Fin 8) (q : Fin 16384) :
    wsumArr p (ix3 n q 0) = ∑ j : Fin 9, smArr p (ix3 n q j) := by
  unfold wsumArr
  refine (broadcastInDim_apply _ _ _ (ix3 n q (0 : Fin 1)) (ix2 n q) fun a => ?_).trans ?_
  · match a with
    | ⟨0, _⟩ => rfl
    | ⟨1, _⟩ => rfl
  · rw [hostReduceAdd_apply, Cert.ReduceRead.hostReduceAdd_last3, constant_apply, Ideal.ofBits_zero_f32, zero_add]

/-- The weight-sum array the host operations between the regions leave is `wsumArr` of the scores they found. -/
private theorem mid_wsum_eq (W : Valuation τ sig (Elt Ideal)) :
    (StableHlo.after hostOps1 W (Proc.devRef .tc main_v45) : S8x16384x1.Idx → EReal)
      = wsumArr (W (Proc.devRef .tc main_v32) : S8x16384x9.Idx → EReal) := by
  after_results
  rfl

/-- The weight sums are the sums over the nine cells of the column softmax of the scores. -/
private theorem wsumArr_softmax (p : Scores) (n : Fin 8) (q : Fin 16384) :
    wsumArr p (ix3 n q 0) = ∑ j : Fin 9, colSoftmax (fun q' => p (ix3 n q' j)) q := by
  rw [wsumArr_apply]
  refine Finset.sum_congr rfl fun j _ => ?_
  rw [smArr_apply, expArr_apply, sumArr_apply, shiftArr_apply]
  simp only [expArr_apply, shiftArr_apply]
  rfl

/-- The host operations between the regions: the weight sum at position `(n, q)` is the sum over the nine window cells of
    the softmax, over the positions, of the channel-sum region's output. -/
theorem mid_weight_sum (W : Valuation τ sig (Elt Ideal)) (n : Fin 8) (q : Fin 16384) :
    (StableHlo.after hostOps1 W (Proc.devRef .tc main_v45) : S8x16384x1.Idx → EReal) (ix3 n q 0)
      = ∑ j : Fin 9, colSoftmax (fun q' => (W (Proc.devRef .tc main_v32) : S8x16384x9.Idx → EReal) (ix3 n q' j)) q :=
  (congrFun (mid_wsum_eq W) (ix3 n q 0)).trans (wsumArr_softmax _ n q)

/-- The closing host operation reshapes the window-sum region's output. -/
theorem end_reshape (W : Valuation τ sig (Elt Ideal)) :
    (StableHlo.after hostOps2 W (Proc.devRef .tc main_v47) : S8x64x128x128.Idx → EReal)
      = shapeCast S8x64x128x128 (W (Proc.devRef .tc main_v46) : S8x16384x64.Idx → EReal) Facts₀.shapeCasts_S8x16384x64_S8x64x128x128 := by
  after_results
  rfl

end Cert.KernelIdeal.HostValue

end
-- ==== Proof.KI.Value.lean ====
import proofs.«164703_j67808943669345_1_alg».proof.Proof.KI.Run
import proofs.«164703_j67808943669345_1_alg».proof.Proof.KI.Arrays
import proofs.«164703_j67808943669345_1_alg».proof.Proof.KI.HostValue

/-! # The kernel program's result (ideal instance)

Reading the final contents backwards: the result is the reshape of the window-sum region's output array; that array, at
`(n, q, k)`, is the window sum of the channel-major neighbourhood array — which nothing between the regions touches —
plus the weight sum at `(n, q)`; the weight sum is the sum over the nine window cells of the softmax, over the positions,
of the channel-sum region's output array; and that array, at `(n, q', j)`, is the channel sum of neighbour plus centre:
the score of cell `j`. Altogether `kernelForm` of the neighbourhood tensor read two ways and the channels-last input. -/

set_option maxRecDepth 16384

noncomputable section

namespace Cert.KernelIdeal.Value

open Cert.KernelIdeal Cert.KernelIdeal.Gen Cert.KernelIdeal.Whole Cert.KernelIdeal.Arrays Cert.KernelIdeal.HostValue Cert.RangeStep
open Idealize.ShloMosaic Idealize.ShloMosaic.TcCoe Idealize.ShloMosaic.ValueIdx
open Idealize.SL Idealize.SL.Sem

variable (m : (ℓ : Loc nD τ sig) → Buf (Elt Ideal) ℓ)

/-- The channel-sum region's output array is the array of scores, the window as nine cells. -/
theorem scores (c : Dev nD) (n : Fin 8) (q : Fin 16384) (j : Fin 9) :
    (pastChan m c (Proc.devRef .tc main_v32) : S8x16384x9.Idx → EReal) (ix3 n q j)
      = score (nbr (inp m c)) (chl (inp m c)) n q (cellRow j) (cellCol j) := by
  have e : (pastChan m c (Proc.devRef .tc main_v32) : S8x16384x9.Idx → EReal) = chanOut (atChanR m) c := pastChan_arr m c 2
  have key : chanOut (atChanR m) c (ix3 n q j) = score (nbr (inp m c)) (chl (inp m c)) n q (cellRow j) (cellCol j) := by
    rw [chan_array (atChanR m) c n q j]
    unfold score centre
    refine Finset.sum_congr rfl fun k _ => ?_
    rw [show nbrArr (atChanR m) c (ix4 n q j k) = nbr (inp m c) (ix5 n q (cellRow j) (cellCol j) k) from chan_nbr m c n q j k,
      show ctrArr (atChanR m) c (ix3 n q k) = chl (inp m c) (ix4 n (rowOf q) (colOf q) k) from chan_ctr m c n q k]
  exact (congrFun e (ix3 n q j)).trans key

/-- The weight sum the window-sum region is handed: the sum over the nine cells of the weights. -/
theorem weight_sums (c : Dev nD) (n : Fin 8) (q : Fin 16384) :
    wsumArr (atWinR m) c (ix3 n q 0) = ∑ j : Fin 9, weight (nbr (inp m c)) (chl (inp m c)) n q (cellRow j) (cellCol j) := by
  have h : wsumArr (atWinR m) c (ix3 n q 0)
      = ∑ j : Fin 9, colSoftmax (fun q' => (pastChan m c (Proc.devRef .tc main_v32) : S8x16384x9.Idx → EReal) (ix3 n q' j)) q :=
    mid_weight_sum (pastChan m c) n q
  rw [h]
  refine Finset.sum_congr rfl fun j _ => ?_
  unfold weight
  refine congrArg (fun p => colSoftmax p q) ?_
  funext q'
  exact scores m c n q' j

/-- The channel-major neighbourhood array the window-sum region is handed is the one the leading host operations made. -/
theorem win_input (c : Dev nD) (n : Fin 8) (q : Fin 16384) (k : Fin 64) (j : Fin 9) :
    nbrTArr (atWinR m) c (ix4 n q k j) = nbrT (inp m c) (ix5 n q k (cellRow j) (cellCol j)) := by
  have e1 : atWin m c (Proc.devRef .tc main_v31) = pastChan m c (Proc.devRef .tc main_v31) := mid_keeps_nbr (pastChan m c)
  have e2 : pastChan m c (Proc.devRef .tc main_v31) = atChan m c (Proc.devRef .tc main_v31) := pastChan_of_ne m c main_v31 (by decide)
  have e : (nbrTArr (atWinR m) c : S8x16384x64x9.Idx → EReal) = (V3 m c main_v31 : S8x16384x64x9.Idx → EReal) := e1.trans e2
  rw [e]
  exact win_nbr m c n q k j

/-- The window-sum region's output array is `kernelForm`. -/
theorem win_output (c : Dev nD) :
    (pastWin m c (Proc.devRef .tc main_v46) : S8x16384x64.Idx → EReal)
      = asArray (kernelForm (nbr (inp m c)) (nbrT (inp m c)) (chl (inp m c))) := by
  have h := pastWin_arr m c 2
  have e : (pastWin m c (Proc.devRef .tc main_v46) : S8x16384x64.Idx → EReal) = winOut (atWinR m) c := h
  rw [e]
  funext i
  obtain ⟨n, q, k, rfl⟩ : ∃ (n : Fin 8) (q : Fin 16384) (k : Fin 64), i = ix3 n q k := ⟨i 0, i 1, i 2, eq_ix3 i⟩
  rw [win_array (atWinR m) c n q k, asArray_ix3, weight_sums m c n q]
  unfold kernelForm
  refine congrArg (· + _) ?_
  exact Finset.sum_congr rfl fun j _ => win_input m c n q k j

/-- The kernel program's result: the reshape of `kernelForm`. -/
theorem result (c : Dev nD) :
    (atEnd m c (Proc.devRef .tc main_v47) : S8x64x128x128.Idx → EReal)
      = shapeCast S8x64x128x128 (asArray (kernelForm (nbr (inp m c)) (nbrT (inp m c)) (chl (inp m c))))
          Facts₀.shapeCasts_S8x16384x64_S8x64x128x128 := by
  exact (end_reshape (pastWin m c)).trans (by rw [win_output m c])

end Cert.KernelIdeal.Value

end
-- ==== Proof.RefLead.lean ====
import proofs.«164703_j67808943669345_1_alg».proof.Proof.RefOps
import proofs.«164703_j67808943669345_1_alg».proof.Proof.Spec
import proofs.«164703_j67808943669345_1_alg».proof.Proof.LibReduceRead
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

/-! # The reference's first stretch (ideal instance)

The first 31 host operations, from ANY contents of the buffers: they build the neighbourhood tensor (nine shifted copies
of the zero-padded input, stacked along two new axes), read it as `[8, 16384, 3, 3, 64]` and as `[8, 16384, 64, 3, 3]`, and move
the input to channels-last. None of them writes the argument. -/

set_option maxRecDepth 16384

noncomputable section

namespace Cert.ReferenceIdeal.RefLead

open Cert.ReferenceIdeal Cert.ReferenceIdeal.Gen Cert.ReferenceIdeal.ValueP Cert.RangeStep
open Idealize.ShloMosaic Idealize.ShloMosaic.TcCoe Idealize.ShloMosaic.ValueIdx Idealize.ShloMosaic.StableHlo
open Idealize.SL Idealize.SL.Sem

/-! ## The first stretch: the three arrays everything else is computed from -/

/-- The input with a border of zeros around each 128 × 128 image. -/
private def padded (x : FVec Ideal S8x64x128x128 .f32) : FVec Ideal S8x64x130x130 .f32 :=
  pad S8x64x130x130 ![0, 0, 1, 1] ![0, 0, 1, 1] ![0, 0, 0, 0] x (sitofp (F := Ideal) .f32 (constantI S_ 32 0#32))
    pads_S8x64x128x128_S8x64x130x130_000_000_110_110 h_S_

/-- The three column shifts of the padded input at row shift 0, stacked on a new trailing axis. -/
private def row0 (p : FVec Ideal S8x64x130x130 .f32) : FVec Ideal S8x64x128x128x3 .f32 :=
  concatenate S8x64x128x128x3 4
    [⟨S8x64x128x128x1, broadcastInDim S8x64x128x128x1 ![0, 1, 2, 3] bcast_S8x64x128x128_S8x64x128x128x1_0_1_2_3
        (extractStridedSlice S8x64x128x128 ![0, 0, 0, 0] p slices_S8x64x130x130_S8x64x128x128_0_0_0_0)⟩,
     ⟨S8x64x128x128x1, broadcastInDim S8x64x128x128x1 ![0, 1, 2, 3] bcast_S8x64x128x128_S8x64x128x128x1_0_1_2_3
        (extractStridedSlice S8x64x128x128 ![0, 0, 0, 1] p slices_S8x64x130x130_S8x64x128x128_0_0_0_1)⟩,
     ⟨S8x64x128x128x1, broadcastInDim S8x64x128x128x1 ![0, 1, 2, 3] bcast_S8x64x128x128_S8x64x128x128x1_0_1_2_3
        (extractStridedSlice S8x64x128x128 ![0, 0, 0, 2] p slices_S8x64x130x130_S8x64x128x128_0_0_0_2)⟩]
    concatenates_S8x64x128x128x1_S8x64x128x128x1_S8x64x128x128x1_S8x64x128x128x3_d4

/-- The same at row shift 1. -/
private def row1 (p : FVec Ideal S8x64x130x130 .f32) : FVec Ideal S8x64x128x128x3 .f32 :=
  concatenate S8x64x128x128x3 4
    [⟨S8x64x128x128x1, broadcastInDim S8x64x128x128x1 ![0, 1, 2, 3] bcast_S8x64x128x128_S8x64x128x128x1_0_1_2_3
        (extractStridedSlice S8x64x128x128 ![0, 0, 1, 0] p slices_S8x64x130x130_S8x64x128x128_0_0_1_0)⟩,
     ⟨S8x64x128x128x1, broadcastInDim S8x64x128x128x1 ![0, 1, 2, 3] bcast_S8x64x128x128_S8x64x128x128x1_0_1_2_3
        (extractStridedSlice S8x64x128x128 ![0, 0, 1, 1] p slices_S8x64x130x130_S8x64x128x128_0_0_1_1)⟩,
     ⟨S8x64x128x128x1, broadcastInDim S8x64x128x128x1 ![0, 1, 2, 3] bcast_S8x64x128x128_S8x64x128x128x1_0_1_2_3
        (extractStridedSlice S8x64x128x128 ![0, 0, 1, 2] p slices_S8x64x130x130_S8x64x128x128_0_0_1_2)⟩]
    concatenates_S8x64x128x128x1_S8x64x128x128x1_S8x64x128x128x1_S8x64x128x128x3_d4

/-- The same at row shift 2. -/
private def row2 (p : FVec Ideal S8x64x130x130 .f32) : FVec Ideal S8x64x128x128x3 .f32 :=
  concatenate S8x64x128x128x3 4
    [⟨S8x64x128x128x1, broadcastInDim S8x64x128x128x1 ![0, 1, 2, 3] bcast_S8x64x128x128_S8x64x128x128x1_0_1_2_3
        (extractStridedSlice S8x64x128x128 ![0, 0, 2, 0] p slices_S8x64x130x130_S8x64x128x128_0_0_2_0)⟩,
     ⟨S8x64x128x128x1, broadcastInDim S8x64x128x128x1 ![0, 1, 2, 3] bcast_S8x64x128x128_S8x64x128x128x1_0_1_2_3
        (extractStridedSlice S8x64x128x128 ![0, 0, 2, 1] p slices_S8x64x130x130_S8x64x128x128_0_0_2_1)⟩,
     ⟨S8x64x128x128x1, broadcastInDim S8x64x128x128x1 ![0, 1, 2, 3] bcast_S8x64x128x128_S8x64x128x128x1_0_1_2_3
        (extractStridedSlice S8x64x128x128 ![0, 0, 2, 2] p slices_S8x64x130x130_S8x64x128x128_0_0_2_2)⟩]
    concatenates_S8x64x128x128x1_S8x64x128x128x1_S8x64x128x128x1_S8x64x128x128x3_d4

/-- Three rows, each given a unit axis before its own, stacked along it. -/
private def stack3 (r0 r1 r2 : FVec Ideal S8x64x128x128x3 .f32) : FVec Ideal S8x64x128x128x3x3 .f32 :=
  concatenate S8x64x128x128x3x3 4
    [⟨S8x64x128x128x1x3, broadcastInDim S8x64x128x128x1x3 ![0, 1, 2, 3, 5] bcast_S8x64x128x128x3_S8x64x128x128x1x3_0_1_2_3_5 r0⟩,
     ⟨S8x64x128x128x1x3, broadcastInDim S8x64x128x128x1x3 ![0, 1, 2, 3, 5] bcast_S8x64x128x128x3_S8x64x128x128x1x3_0_1_2_3_5 r1⟩,
     ⟨S8x64x128x128x1x3, broadcastInDim S8x64x128x128x1x3 ![0, 1, 2, 3, 5] bcast_S8x64x128x128x3_S8x64x128x128x1x3_0_1_2_3_5 r2⟩]
    concatenates_S8x64x128x128x1x3_S8x64x128x128x1x3_S8x64x128x128x1x3_S8x64x128x128x3x3_d4

/-- The nine shifted copies of the padded input `p`, stacked as `[8, 64, 128, 128, 3, 3]`: the three row shifts stacked. -/
private def patchesOf (p : FVec Ideal S8x64x130x130 .f32) : FVec Ideal S8x64x128x128x3x3 .f32 :=
  stack3 (row0 p) (row1 p) (row2 p)

/-- The neighbourhood tensor read as `[8, 16384, 3, 3, 64]`, of the input `x`. -/
def nbr (x : FVec Ideal S8x64x128x128 .f32) : FVec Ideal S8x16384x3x3x64 .f32 :=
  shapeCast S8x16384x3x3x64 (patchesOf (padded x)) shapeCasts_S8x64x128x128x3x3_S8x16384x3x3x64
/-- The same buffer read as `[8, 16384, 64, 3, 3]`. -/
def nbrT (x : FVec Ideal S8x64x128x128 .f32) : FVec Ideal S8x16384x64x3x3 .f32 :=
  shapeCast S8x16384x64x3x3 (patchesOf (padded x)) shapeCasts_S8x64x128x128x3x3_S8x16384x64x3x3
/-- The input moved to channels-last. -/
def chl (x : FVec Ideal S8x64x128x128 .f32) : FVec Ideal S8x128x128x64 .f32 :=
  transpose S8x128x128x64 [0, 2, 3, 1] x transposes_S8x64x128x128_S8x128x128x64_0_2_3_1

/-! ## Reading the list of operations

The list is cut where the program's own structure cuts it: the padding (3 operations), the three rows of the window (7 each:
three shifts, three unit axes, one concatenation), the stacking of the rows (4), the three readings (3). Each piece is read
from ANY contents of the buffers at its start. -/

/-- A three-operand operation leaves at its result buffer its function of the three operands' contents, each at its own
    reference. -/
private theorem nary3_result {Val : EltTy → Type} {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

/-- Rewrites `after ops W` at a reference to the operations' composed term: each operation's result at its own buffer is
    its function's value, at any other buffer what was there. -/
local macro "lead_results" : tactic =>
  `(tactic| (simp only [after_cons, after_nil]
             repeat (first
               | rw [nullary_result] | rw [unary_result] | rw [binary_result]
               | rw [reshape_result] | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

/-- Running two lists of operations one after the other is running their concatenation. -/
private theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The padding: the integer zero, its conversion, the pad. -/
private abbrev opsPad : List (HloOp τ sig (Elt Ideal)) := (opsLead (F := Ideal)).take 3
/-- Row shift 0 of the window. -/
private abbrev opsRow0 : List (HloOp τ sig (Elt Ideal)) := ((opsLead (F := Ideal)).drop 3).take 7
/-- Row shift 1. -/
private abbrev opsRow1 : List (HloOp τ sig (Elt Ideal)) := ((opsLead (F := Ideal)).drop 10).take 7
/-- Row shift 2. -/
private abbrev opsRow2 : List (HloOp τ sig (Elt Ideal)) := ((opsLead (F := Ideal)).drop 17).take 7
/-- The stacking of the three rows. -/
private abbrev opsStack : List (HloOp τ sig (Elt Ideal)) := ((opsLead (F := Ideal)).drop 24).take 4
/-- The two reshapes and the transpose. -/
private abbrev opsRead : List (HloOp τ sig (Elt Ideal)) := (opsLead (F := Ideal)).drop 28

private theorem opsLead_cut :
    (opsLead (F := Ideal)) = opsPad ++ opsRow0 ++ opsRow1 ++ opsRow2 ++ opsStack ++ opsRead := rfl

/-- The contents after the whole stretch, piece by piece. -/
private theorem after_lead (V : Valuation τ sig (Elt Ideal)) :
    after opsLead V = after opsRead (after opsStack (after opsRow2 (after opsRow1 (after opsRow0 (after opsPad V))))) := by
  rw [opsLead_cut, after_append, after_append, after_append, after_append, after_append]

/-- Spells a piece out as a literal list, then rewrites what it leaves at a reference to the composed term. -/
local macro "piece_results" : tactic =>
  `(tactic| (dsimp only [opsPad, opsRow0, opsRow1, opsRow2, opsStack, opsRead, opsLead, List.take, List.drop]
             lead_results))

/-! ### The padding -/

private theorem pad_v0 (V : Valuation τ sig (Elt Ideal)) :
    (after opsPad V (Proc.devRef .tc main_v0) : S8x64x130x130.Idx → EReal) = padded (V (Proc.devRef .tc main_arg0)) := by
  piece_results
  rfl

/-! ### The rows of the window, each from any contents `W` -/

private theorem row0_v7 (W : Valuation τ sig (Elt Ideal)) :
    (after opsRow0 W (Proc.devRef .tc main_v7) : S8x64x128x128x3.Idx → EReal)
      = row0 (W (Proc.devRef .tc main_v0) : S8x64x130x130.Idx → EReal) := by
  piece_results
  rfl
private theorem row0_keeps_v0 (W : Valuation τ sig (Elt Ideal)) :
    after opsRow0 W (Proc.devRef .tc main_v0) = W (Proc.devRef .tc main_v0) := by
  piece_results

private theorem row1_v14 (W : Valuation τ sig (Elt Ideal)) :
    (after opsRow1 W (Proc.devRef .tc main_v14) : S8x64x128x128x3.Idx → EReal)
      = row1 (W (Proc.devRef .tc main_v0) : S8x64x130x130.Idx → EReal) := by
  piece_results
  rfl
private theorem row1_keeps_v0 (W : Valuation τ sig (Elt Ideal)) :
    after opsRow1 W (Proc.devRef .tc main_v0) = W (Proc.devRef .tc main_v0) := by
  piece_results
private theorem row1_keeps_v7 (W : Valuation τ sig (Elt Ideal)) :
    after opsRow1 W (Proc.devRef .tc main_v7) = W (Proc.devRef .tc main_v7) := by
  piece_results

private theorem row2_v21 (W : Valuation τ sig (Elt Ideal)) :
    (after opsRow2 W (Proc.devRef .tc main_v21) : S8x64x128x128x3.Idx → EReal)
      = row2 (W (Proc.devRef .tc main_v0) : S8x64x130x130.Idx → EReal) := by
  piece_results
  rfl
private theorem row2_keeps_v7 (W : Valuation τ sig (Elt Ideal)) :
    after opsRow2 W (Proc.devRef .tc main_v7) = W (Proc.devRef .tc main_v7) := by
  piece_results
private theorem row2_keeps_v14 (W : Valuation τ sig (Elt Ideal)) :
    after opsRow2 W (Proc.devRef .tc main_v14) = W (Proc.devRef .tc main_v14) := by
  piece_results

/-! ### The rows stacked, and the two readings -/

private theorem stack_v25 (W : Valuation τ sig (Elt Ideal)) :
    (after opsStack W (Proc.devRef .tc main_v25) : S8x64x128x128x3x3.Idx → EReal)
      = stack3 (W (Proc.devRef .tc main_v7) : S8x64x128x128x3.Idx → EReal) (W (Proc.devRef .tc main_v14) : S8x64x128x128x3.Idx → EReal)
          (W (Proc.devRef .tc main_v21) : S8x64x128x128x3.Idx → EReal) := by
  piece_results
  rfl

private theorem read_v26 (W : Valuation τ sig (Elt Ideal)) :
    (after opsRead W (Proc.devRef .tc main_v26) : S8x16384x3x3x64.Idx → EReal)
      = shapeCast S8x16384x3x3x64 (W (Proc.devRef .tc main_v25) : S8x64x128x128x3x3.Idx → EReal)
          shapeCasts_S8x64x128x128x3x3_S8x16384x3x3x64 := by
  piece_results
  rfl
private theorem read_v27 (W : Valuation τ sig (Elt Ideal)) :
    (after opsRead W (Proc.devRef .tc main_v27) : S8x16384x64x3x3.Idx → EReal)
      = shapeCast S8x16384x64x3x3 (W (Proc.devRef .tc main_v25) : S8x64x128x128x3x3.Idx → EReal)
          shapeCasts_S8x64x128x128x3x3_S8x16384x64x3x3 := by
  piece_results
  rfl

/-- The stack of the three rows after the first five pieces: the nine shifted copies of the padded input. -/
private theorem lead_v25 (V : Valuation τ sig (Elt Ideal)) :
    (after opsStack (after opsRow2 (after opsRow1 (after opsRow0 (after opsPad V)))) (Proc.devRef .tc main_v25)
        : S8x64x128x128x3x3.Idx → EReal) = patchesOf (padded (V (Proc.devRef .tc main_arg0))) := by
  rw [stack_v25, row2_v21, row2_keeps_v14, row2_keeps_v7, row1_v14, row1_keeps_v7, row1_keeps_v0, row0_v7, row0_keeps_v0,
    pad_v0]
  rfl

theorem lead_nbr (V : Valuation τ sig (Elt Ideal)) :
    (after opsLead V (Proc.devRef .tc main_v26) : S8x16384x3x3x64.Idx → EReal) = nbr (V (Proc.devRef .tc main_arg0)) := by
  rw [after_lead, read_v26, lead_v25]
  rfl
theorem lead_nbrT (V : Valuation τ sig (Elt Ideal)) :
    (after opsLead V (Proc.devRef .tc main_v27) : S8x16384x64x3x3.Idx → EReal) = nbrT (V (Proc.devRef .tc main_arg0)) := by
  rw [after_lead, read_v27, lead_v25]
  rfl
theorem lead_chl (V : Valuation τ sig (Elt Ideal)) :
    (after opsLead V (Proc.devRef .tc main_v28) : S8x128x128x64.Idx → EReal) = chl (V (Proc.devRef .tc main_arg0)) := by
  dsimp only [opsLead]
  lead_results
  rfl
/-- The first stretch does not write the argument. -/
theorem lead_arg (V : Valuation τ sig (Elt Ideal)) :
    after opsLead V (Proc.devRef .tc main_arg0) = V (Proc.devRef .tc main_arg0) := by
  dsimp only [opsLead]
  lead_results

end Cert.ReferenceIdeal.RefLead

end
-- ==== Proof.RefSoft.lean ====
import proofs.«164703_j67808943669345_1_alg».proof.Proof.RefOps
import proofs.«164703_j67808943669345_1_alg».proof.Proof.Spec
import proofs.«164703_j67808943669345_1_alg».proof.Proof.LibReduceRead
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

/-! # The reference's second and third stretches (ideal instance)

From ANY contents of the buffers. Five operations form the score of every window cell: the centre pixel broadcast over the
window, added to the neighbourhood tensor, summed over the channels. Twenty-two more take the softmax of the scores over the
positions, sum the nine weights, sum the channel-major neighbourhood tensor over the window, add the two and reshape. -/

set_option maxRecDepth 16384

noncomputable section

namespace Cert.ReferenceIdeal.RefSoft

open Cert.ReferenceIdeal Cert.ReferenceIdeal.Gen Cert.ReferenceIdeal.ValueP Cert.RangeStep
open Idealize.ShloMosaic Idealize.ShloMosaic.TcCoe Idealize.ShloMosaic.ValueIdx Idealize.ShloMosaic.StableHlo
open Idealize.SL Idealize.SL.Sem

/-! ## The second stretch: the scores -/

/-- The centre pixel, reshaped to `[8, 16384, 1, 1, 64]` and broadcast over the window, read at `(n, q, a, b, c)`. -/
private theorem centre_read (T : FVec Ideal S8x128x128x64 .f32) (n : Fin 8) (q : Fin 16384) (a b : Fin 3) (c : Fin 64) :
    broadcastInDim S8x16384x3x3x64 ![0, 1, 2, 3, 4] bcast_S8x16384x1x1x64_S8x16384x3x3x64_0_1_2_3_4
        (shapeCast S8x16384x1x1x64 T shapeCasts_S8x128x128x64_S8x16384x1x1x64) (ix5 n q a b c)
      = centre T n q c := by
  refine (broadcastInDim_apply _ _ _ (ix5 n q a b c) (ix5 n q (0 : Fin 1) (0 : Fin 1) c) ?_).trans ?_
  · intro e
    match e with
    | ⟨0, _⟩ => rfl
    | ⟨1, _⟩ => rfl
    | ⟨2, _⟩ => rfl
    | ⟨3, _⟩ => rfl
    | ⟨4, _⟩ => rfl
  · refine shapeCast_apply T _ _ (ix4 n (rowOf q) (colOf q) c) ?_
    rw [Shape.rowMajor_val_four, Shape.rowMajor_val_five]
    show ((n.val * 128 + q.val / 128) * 128 + q.val % 128) * 64 + c.val
      = ((((n.val * 16384 + q.val) * 1 + 0) * 1 + 0) * 64 + c.val)
    omega

/-- The five operations of the second stretch, read at `(n, q, a, b)`. -/
private theorem score_read (L : FVec Ideal S8x16384x3x3x64 .f32) (T : FVec Ideal S8x128x128x64 .f32)
    (n : Fin 8) (q : Fin 16384) (a b : Fin 3) :
    Host.reduceAdd (addf L (broadcastInDim S8x16384x3x3x64 ![0, 1, 2, 3, 4] bcast_S8x16384x1x1x64_S8x16384x3x3x64_0_1_2_3_4
        (shapeCast S8x16384x1x1x64 T shapeCasts_S8x128x128x64_S8x16384x1x1x64)))
      (constant S_ .f32 0x00000000#32) reducesTo_S8x16384x3x3x64_S8x16384x3x3_d4 h_S_ (ix4 n q a b)
      = score L T n q a b := by
  rw [hostReduceAdd_apply]
  refine (Cert.ReduceRead.hostReduceAdd_last5 _ _ _ n q a b).trans ?_
  rw [constant_apply, Ideal.ofBits_zero_f32, zero_add]
  unfold score
  refine Finset.sum_congr rfl fun c _ => ?_
  rw [addf_apply, centre_read]

/-- After the second stretch, `main_v32` at `(n, q, a, b)` is the score of cell `(a, b)`: the channel sum of the
    neighbourhood tensor plus the centre pixel. -/
theorem score_value (W : Valuation τ sig (Elt Ideal)) (n : Fin 8) (q : Fin 16384) (a b : Fin 3) :
    (after opsScore W (Proc.devRef .tc main_v32) : S8x16384x3x3.Idx → EReal) (ix4 n q a b)
      = score (W (Proc.devRef .tc main_v26) : S8x16384x3x3x64.Idx → EReal) (W (Proc.devRef .tc main_v28) : S8x128x128x64.Idx → EReal) n q a b := by
  dsimp only [opsScore]
  after_results
  exact score_read _ _ n q a b
/-- It writes neither the channel-major neighbourhood tensor nor the argument. -/
theorem score_keeps_nbrT (W : Valuation τ sig (Elt Ideal)) :
    after opsScore W (Proc.devRef .tc main_v27) = W (Proc.devRef .tc main_v27) := by
  dsimp only [opsScore]
  after_results
theorem score_keeps_arg (W : Valuation τ sig (Elt Ideal)) :
    after opsScore W (Proc.devRef .tc main_arg0) = W (Proc.devRef .tc main_arg0) := by
  dsimp only [opsScore]
  after_results

/-! ## The third stretch: softmax over the positions, the two window sums, the reshape -/

/-- The scores, and the channel-major neighbourhood tensor, as the third stretch finds them (at their literal types). -/
abbrev scoresAt (W : Valuation τ sig (Elt Ideal)) : S8x16384x3x3.Idx → EReal := W (Proc.devRef .tc main_v32)
abbrev nbrTAt (W : Valuation τ sig (Elt Ideal)) : S8x16384x64x3x3.Idx → EReal := W (Proc.devRef .tc main_v27)

/-- A `[8, 3, 3]` array broadcast to `[8, 1, 3, 3]` and then to `[8, 16384, 3, 3]`, read at `(n, q, a, b)`: the array at `(n, a, b)`. -/
private theorem bcast2_read (Y : FVec Ideal S8x3x3 .f32) (n : Fin 8) (q : Fin 16384) (a b : Fin 3) :
    broadcastInDim S8x16384x3x3 ![0, 1, 2, 3] bcast_S8x1x3x3_S8x16384x3x3_0_1_2_3
        (broadcastInDim S8x1x3x3 ![0, 2, 3] bcast_S8x3x3_S8x1x3x3_0_2_3 Y) (ix4 n q a b) = Y (ix3 n a b) := by
  refine (broadcastInDim_apply _ _ _ (ix4 n q a b) (ix4 n (0 : Fin 1) a b) ?_).trans ?_
  · intro e
    match e with
    | ⟨0, _⟩ => rfl
    | ⟨1, _⟩ => rfl
    | ⟨2, _⟩ => rfl
    | ⟨3, _⟩ => rfl
  · refine broadcastInDim_apply _ _ _ (ix4 n (0 : Fin 1) a b) (ix3 n a b) ?_
    intro e
    match e with
    | ⟨0, _⟩ => rfl
    | ⟨1, _⟩ => rfl
    | ⟨2, _⟩ => rfl

/-- The shift of the third stretch: the larger of `⊥` and the maximum of the scores over the positions, at `(n, a, b)`. -/
private theorem colmax_read (X : FVec Ideal S8x16384x3x3 .f32) (n : Fin 8) (a b : Fin 3) :
    maximumf (broadcastInDim S8x3x3 ![] bcast_S_S8x3x3 (constant S_ .f32 0xFF800000#32))
        (Host.reduce FloatOps.maximumf X (constant S_ .f32 0xFF800000#32) reducesTo_S8x16384x3x3_S8x3x3_d1 h_S_) (ix3 n a b)
      = max ⊥ ((Finset.univ : Finset (Fin 16384)).fold max ⊥ (fun q' => X (ix4 n q' a b))) := by
  rw [maximumf_apply, broadcastInDim_scalar_apply, constant_apply, Cert.ReduceRead.ofBits_neg_inf_f32]
  refine congrArg (max ⊥) ?_
  refine (Cert.ReduceRead.hostReduceMax_mid4 _ X _ h_S_ n a b).trans ?_
  rw [constant_apply, Cert.ReduceRead.ofBits_neg_inf_f32]

/-- The shifted exponentials of the third stretch, as an array. -/
private abbrev expArr (X : FVec Ideal S8x16384x3x3 .f32) : FVec Ideal S8x16384x3x3 .f32 :=
  Host.exp (subf X (broadcastInDim S8x16384x3x3 ![0, 1, 2, 3] bcast_S8x1x3x3_S8x16384x3x3_0_1_2_3
    (broadcastInDim S8x1x3x3 ![0, 2, 3] bcast_S8x3x3_S8x1x3x3_0_2_3
      (maximumf (broadcastInDim S8x3x3 ![] bcast_S_S8x3x3 (constant S_ .f32 0xFF800000#32))
        (Host.reduce FloatOps.maximumf X (constant S_ .f32 0xFF800000#32) reducesTo_S8x16384x3x3_S8x3x3_d1 h_S_)))))

/-- A shifted exponential read at `(n, q, a, b)`. -/
private theorem exp_read (X : FVec Ideal S8x16384x3x3 .f32) (n : Fin 8) (q : Fin 16384) (a b : Fin 3) :
    expArr X (ix4 n q a b)
      = Ideal.exp (X (ix4 n q a b) - max ⊥ ((Finset.univ : Finset (Fin 16384)).fold max ⊥ (fun q' => X (ix4 n q' a b)))) := by
  show Ideal.exp (subf X _ (ix4 n q a b)) = _
  rw [subf_apply, bcast2_read, colmax_read]

/-- The quotient of a shifted exponential by the sum of its column, read at `(n, q, a, b)`: the softmax over the positions. -/
private theorem soft_at (X : FVec Ideal S8x16384x3x3 .f32) (n : Fin 8) (q : Fin 16384) (a b : Fin 3) :
    Host.divf (expArr X) (broadcastInDim S8x16384x3x3 ![0, 1, 2, 3] bcast_S8x1x3x3_S8x16384x3x3_0_1_2_3
        (broadcastInDim S8x1x3x3 ![0, 2, 3] bcast_S8x3x3_S8x1x3x3_0_2_3
          (Host.reduceAdd (expArr X) (constant S_ .f32 0x00000000#32) reducesTo_S8x16384x3x3_S8x3x3_d1 h_S_))) (ix4 n q a b)
      = colSoftmax (fun q' => X (ix4 n q' a b)) q := by
  rw [hostDivf_apply, bcast2_read, hostReduceAdd_apply]
  refine (congrArg (Ideal.div _) (Cert.ReduceRead.hostReduceAdd_mid4 _ _ _ n a b)).trans ?_
  rw [constant_apply, Ideal.ofBits_zero_f32, zero_add, exp_read]
  unfold colSoftmax
  exact congrArg (Ideal.div _) (Finset.sum_congr rfl fun q' _ => exp_read X n q' a b)

/-- The sum over the window of a `[8, 16384, 3, 3]` array, broadcast over the channels, read at `(n, q, c)`, the array's
    elements named by `f`. -/
private theorem wsum_read (V : FVec Ideal S8x16384x3x3 .f32) (n : Fin 8) (q : Fin 16384) (c : Fin 64)
    (f : Fin 3 → Fin 3 → EReal) (hV : ∀ a b, V (ix4 n q a b) = f a b) :
    broadcastInDim S8x16384x64 ![0, 1, 2] bcast_S8x16384x1_S8x16384x64_0_1_2
        (broadcastInDim S8x16384x1 ![0, 1] bcast_S8x16384_S8x16384x1_0_1
          (Host.reduceAdd V (constant S_ .f32 0x00000000#32) reducesTo_S8x16384x3x3_S8x16384_d2_3 h_S_)) (ix3 n q c)
      = ∑ a : Fin 3, ∑ b : Fin 3, f a b := by
  refine (broadcastInDim_apply _ _ _ (ix3 n q c) (ix3 n q (0 : Fin 1)) ?_).trans ?_
  · intro e
    match e with
    | ⟨0, _⟩ => rfl
    | ⟨1, _⟩ => rfl
    | ⟨2, _⟩ => rfl
  refine (broadcastInDim_apply _ _ _ (ix3 n q (0 : Fin 1)) (ix2 n q) ?_).trans ?_
  · intro e
    match e with
    | ⟨0, _⟩ => rfl
    | ⟨1, _⟩ => rfl
  rw [hostReduceAdd_apply]
  refine (Cert.ReduceRead.hostReduceAdd_trail4 _ _ _ n q).trans ?_
  rw [constant_apply, Ideal.ofBits_zero_f32, zero_add]
  exact Finset.sum_congr rfl fun a _ => Finset.sum_congr rfl fun b _ => hV a b

/-- The sum over the window of the channel-major neighbourhood tensor, read at `(n, q, c)`. -/
private theorem rsum_read (R : FVec Ideal S8x16384x64x3x3 .f32) (n : Fin 8) (q : Fin 16384) (c : Fin 64) :
    Host.reduceAdd R (constant S_ .f32 0x00000000#32) reducesTo_S8x16384x64x3x3_S8x16384x64_d3_4 h_S_ (ix3 n q c)
      = ∑ a : Fin 3, ∑ b : Fin 3, R (ix5 n q c a b) := by
  rw [hostReduceAdd_apply]
  refine (Cert.ReduceRead.hostReduceAdd_trail5 _ _ _ n q c).trans ?_
  rw [constant_apply, Ideal.ofBits_zero_f32, zero_add]

/-- The twenty-one operations before the closing reshape, as one array of shape `[8, 16384, 64]`. -/
private theorem soft_read (X : FVec Ideal S8x16384x3x3 .f32) (R : FVec Ideal S8x16384x64x3x3 .f32) :
    addf (broadcastInDim S8x16384x64 ![0, 1, 2] bcast_S8x16384x1_S8x16384x64_0_1_2
        (broadcastInDim S8x16384x1 ![0, 1] bcast_S8x16384_S8x16384x1_0_1
          (Host.reduceAdd (Host.divf (expArr X) (broadcastInDim S8x16384x3x3 ![0, 1, 2, 3] bcast_S8x1x3x3_S8x16384x3x3_0_1_2_3
              (broadcastInDim S8x1x3x3 ![0, 2, 3] bcast_S8x3x3_S8x1x3x3_0_2_3
                (Host.reduceAdd (expArr X) (constant S_ .f32 0x00000000#32) reducesTo_S8x16384x3x3_S8x3x3_d1 h_S_))))
            (constant S_ .f32 0x00000000#32) reducesTo_S8x16384x3x3_S8x16384_d2_3 h_S_)))
      (Host.reduceAdd R (constant S_ .f32 0x00000000#32) reducesTo_S8x16384x64x3x3_S8x16384x64_d3_4 h_S_)
      = asArray fun n q c =>
          (∑ a : Fin 3, ∑ b : Fin 3, colSoftmax (fun q' => X (ix4 n q' a b)) q) + ∑ a : Fin 3, ∑ b : Fin 3, R (ix5 n q c a b) := by
  funext i
  obtain ⟨n, q, c, rfl⟩ : ∃ (n : Fin 8) (q : Fin 16384) (c : Fin 64), i = ix3 n q c := ⟨i 0, i 1, i 2, eq_ix3 i⟩
  rw [asArray_ix3, addf_apply, rsum_read, wsum_read _ n q c _ fun a b => soft_at X n q a b]

/-- After the third stretch, the result is the reshape of: the sum over the window of the softmax (over the positions) of
    the scores, plus the sum over the window of the channel-major neighbourhood tensor. -/
theorem soft_value (W : Valuation τ sig (Elt Ideal)) :
    (after opsSoft W (Proc.devRef .tc main_v49) : S8x64x128x128.Idx → EReal)
      = shapeCast S8x64x128x128 (asArray fun n q c =>
          (∑ a : Fin 3, ∑ b : Fin 3, colSoftmax (fun q' => scoresAt W (ix4 n q' a b)) q)
            + ∑ a : Fin 3, ∑ b : Fin 3, nbrTAt W (ix5 n q c a b))
          Facts₀.shapeCasts_S8x16384x64_S8x64x128x128 := by
  dsimp only [opsSoft]
  after_results_simp
  exact congrArg (fun v => shapeCast S8x64x128x128 v Facts₀.shapeCasts_S8x16384x64_S8x64x128x128) (soft_read (scoresAt W) (nbrTAt W))
theorem soft_keeps_arg (W : Valuation τ sig (Elt Ideal)) :
    after opsSoft W (Proc.devRef .tc main_arg0) = W (Proc.devRef .tc main_arg0) := by
  dsimp only [opsSoft]
  after_results

end Cert.ReferenceIdeal.RefSoft

end
-- ==== Proof.RefRun.lean ====
import proofs.«164703_j67808943669345_1_alg».proof.Proof.RefOps
import proofs.«164703_j67808943669345_1_alg».proof.Proof.Spec
import proofs.«164703_j67808943669345_1_alg».proof.Proof.LibReduceRead
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws
import proofs.«164703_j67808943669345_1_alg».proof.Proof.RefLead
import proofs.«164703_j67808943669345_1_alg».proof.Proof.RefSoft
/-! # The reference program's run and result (ideal instance)

The reference is 58 host operations in a row. Read in three stretches, each from ANY contents of the buffers at its start:
the first 31 build the neighbourhood tensor (nine shifted copies of the zero-padded input, stacked), read it two ways, and
move the input to channels-last; the next 5 form the score of every window cell (channel sum of neighbour plus centre);
the last 22 take the softmax of the scores over the positions, sum the nine weights, sum the channel-major neighbourhood
tensor over the window, add the two and reshape. Put together, the result is the reshape of `refForm`, and the argument is
never written. -/

set_option maxRecDepth 16384

noncomputable section

namespace Cert.ReferenceIdeal.RefRun

open Cert.ReferenceIdeal Cert.ReferenceIdeal.Gen Cert.ReferenceIdeal.ValueP Cert.RangeStep
open Idealize.ShloMosaic Idealize.ShloMosaic.TcCoe Idealize.ShloMosaic.ValueIdx Idealize.ShloMosaic.StableHlo
open Idealize.SL Idealize.SL.Sem
open Cert.ReferenceIdeal.RefLead Cert.ReferenceIdeal.RefSoft

/-- Running two lists of operations one after the other is running their concatenation. -/
theorem after_append {F : FTy → Type} [FloatOps F] (l₁ l₂ : List (HloOp τ sig (Elt F))) (V : Valuation τ sig (Elt F)) :
    after (l₁ ++ l₂) V = after l₂ (after l₁ V) := by
  induction l₁ generalizing V with
  | nil => rfl
  | cons op l ih => exact ih _

/-! ## The run -/

/-- The whole list's result, from any contents `V` at the start. -/
theorem result_of (V : Valuation τ sig (Elt Ideal)) :
    (after ops V (Proc.devRef .tc main_v49) : S8x64x128x128.Idx → EReal)
      = shapeCast S8x64x128x128 (asArray (refForm (nbr (V (Proc.devRef .tc main_arg0))) (nbrT (V (Proc.devRef .tc main_arg0))) (chl (V (Proc.devRef .tc main_arg0)))))
          Facts₀.shapeCasts_S8x16384x64_S8x64x128x128 := by
  have e : after ops V = after opsSoft (after opsScore (after opsLead V)) := by
    rw [ops_eq, after_append, after_append]
  rw [e, soft_value]
  refine congrArg (fun A => shapeCast S8x64x128x128 A Facts₀.shapeCasts_S8x16384x64_S8x64x128x128) ?_
  refine congrArg asArray ?_
  funext n q c
  have hr : nbrTAt (after opsScore (after opsLead V)) = nbrT (V (Proc.devRef .tc main_arg0)) :=
    (score_keeps_nbrT (after opsLead V)).trans (lead_nbrT V)
  have hs : ∀ (q' : Fin 16384) (a b : Fin 3), scoresAt (after opsScore (after opsLead V)) (ix4 n q' a b)
      = score (nbr (V (Proc.devRef .tc main_arg0))) (chl (V (Proc.devRef .tc main_arg0))) n q' a b := by
    intro q' a b
    have h1 := score_value (after opsLead V) n q' a b
    rw [lead_nbr V, lead_chl V] at h1
    exact h1
  unfold refForm weight
  simp only [hs, hr]

theorem arg_of (V : Valuation τ sig (Elt Ideal)) :
    after ops V (Proc.devRef .tc main_arg0) = V (Proc.devRef .tc main_arg0) := by
  rw [ops_eq, after_append, after_append, soft_keeps_arg, score_keeps_arg, lead_arg]

/-- From any memory with zero counters every weakly fair execution of the reference terminates without a fault, with the
    result at the reshape of `refForm` of the three arrays of the input, and the input unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49)
          = shapeCast S8x64x128x128 (asArray (refForm (nbr (m ((c.tc : Thread nD τ).loc main_arg0))) (nbrT (m ((c.tc : Thread nD τ).loc main_arg0)))
              (chl (m ((c.tc : Thread nD τ).loc main_arg0))))) Facts₀.shapeCasts_S8x16384x64_S8x64x128x128
      ∧ r.2.mem ((c.tc : Thread nD τ).loc main_arg0) = m ((c.tc : Thread nD τ).loc main_arg0) :=
  (θ_run defs _ _).mono (fun _ h c => ⟨(h c main_v49).trans (result_of (launchContents m c)), (h c main_arg0).trans (arg_of (launchContents m c))⟩)
    (run_seq scopedRefs_eq scopedSems_eq defs main (fun _ => ops) main_eq (fun _ => ops_sub) m ρ)

end Cert.ReferenceIdeal.RefRun

end
-- ==== Proof.lean ====
/- Equivalence of a two-pass Pallas kernel and its jnp reference over the extended reals.

   Both programs build the same 3 × 3 neighbourhood tensor of the zero-padded input and reinterpret it, row-major, as
   `[8, 16384, 3, 3, 64]` and as `[8, 16384, 64, 3, 3]`. The result at `(n, q, c)` is the sum over the window of the
   softmax (over the 16384 positions) of "channel sum of neighbour plus centre", plus the sum over the window of the
   channel-major reading. The kernel merges the window into one axis of nine cells, takes the channel sum and the window
   sum in two grid passes and adds "window sum + weight sum"; the reference keeps the window as 3 × 3 and adds "weight sum
   + window sum". At the ideal instance the two are one function: a sum over nine cells `j = 3a + b` is the double sum over
   `a` and `b`, and addition commutes (`Cert.RangeStep.forms_eq`). No finiteness is used.

   The frames: each kernel region's body reads two whole blocks and overwrites a third; the launch composes the host
   stretches and the two regions, and reads every buffer at the end. The reference is a list of host operations. -/
import proofs.«164703_j67808943669345_1_alg».proof.Defs
import proofs.«164703_j67808943669345_1_alg».proof.Proof.Gen.Kernel
import proofs.«164703_j67808943669345_1_alg».proof.Proof.Gen.KernelIdeal
import proofs.«164703_j67808943669345_1_alg».proof.Proof.Gen.ReferenceIdeal
import proofs.«164703_j67808943669345_1_alg».proof.Proof.Gen.Pre_finite_inputs
import proofs.«164703_j67808943669345_1_alg».proof.Proof.K.Run
import proofs.«164703_j67808943669345_1_alg».proof.Proof.KI.Value
import proofs.«164703_j67808943669345_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-! ## The three frames -/

theorem frame_kernel : Cert.frame_Kernel := fun m ρ _ => Cert.Kernel.Whole.frame (F := Bits) m ρ

theorem frame_kernelIdeal : Cert.frame_KernelIdeal := fun m ρ _ => Cert.KernelIdeal.Whole.frame (F := Ideal) m ρ

theorem frame_reference : Cert.frame_ReferenceIdeal := fun m ρ _ =>
  (θ_run Cert.ReferenceIdeal.defs _ _).mono (fun _ h c => (h c).2) (Cert.ReferenceIdeal.RefRun.run m ρ)

/-- No operation was rewritten by the idealization. -/
theorem preserves : Cert.preserves_Kernel_KernelIdeal := trivial

/-! ## The two programs build the same three arrays from the input -/

theorem same_nbr (x : FVec Ideal Cert.KernelIdeal.S8x64x128x128 .f32) :
    Cert.KernelIdeal.HostValue.nbr x = Cert.ReferenceIdeal.RefLead.nbr x := rfl

theorem same_nbrT (x : FVec Ideal Cert.KernelIdeal.S8x64x128x128 .f32) :
    Cert.KernelIdeal.HostValue.nbrT x = Cert.ReferenceIdeal.RefLead.nbrT x := rfl

theorem same_chl (x : FVec Ideal Cert.KernelIdeal.S8x64x128x128 .f32) :
    Cert.KernelIdeal.HostValue.chl x = Cert.ReferenceIdeal.RefLead.chl x := rfl

/-! ## The results agree -/

theorem algebraic : Cert.algebraic_KernelIdeal_ReferenceIdeal := by
  intro m ρ m' ρ' _ hagree
  refine ⟨fun c => Cert.KernelIdeal.Whole.atEnd m c (Proc.devRef .tc Cert.KernelIdeal.main_v47), ?_, ?_⟩
  · exact (θ_run Cert.KernelIdeal.defs _ _).mono
      (fun r h c => ⟨h c _ (Cert.KernelIdeal.Whole.mem_uc Cert.KernelIdeal.main_v47 (by decide)),
        (h c _ (Cert.KernelIdeal.Whole.mem_uc Cert.KernelIdeal.main_arg0 (by decide))).trans (Cert.KernelIdeal.Whole.atEnd_arg m c)⟩)
      (Cert.KernelIdeal.Whole.run_main (F := Ideal) m ρ)
  · refine (θ_run Cert.ReferenceIdeal.defs _ _).mono (fun _ h c => ⟨(h c).1.trans ?_, (h c).2⟩)
      (Cert.ReferenceIdeal.RefRun.run m' ρ')
    rw [hagree c]
    refine Eq.trans ?_ (Cert.KernelIdeal.Value.result m c).symm
    rw [← same_nbr, ← same_nbrT, ← same_chl, ← Cert.RangeStep.forms_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
